-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x6x512x512 : Shape := ⟨4, ![16, 6, 512, 512]⟩
abbrev S16x512x512 : Shape := ⟨3, ![16, 512, 512]⟩
abbrev S_ : Shape := ⟨0, ![]⟩

class Facts : Prop where
  bcast_S_S16x6x512x512 : S_.BroadcastsInDim S16x6x512x512 (![] : Fin 0 → Fin S16x6x512x512.rank)
  reducesTo_S16x6x512x512_S_d0_1_2_3 : S16x6x512x512.ReducesTo [0, 1, 2, 3] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_

variable [Facts]

def fn {F : FTy → Type} [FloatOps F] (main_arg0 : FVec F S16x6x512x512 .f32) (main_arg1 : IVec S16x512x512 32) : IVec S_ 1 :=
  let main_v0 : FVec F S16x6x512x512 .f32 := Host.absf main_arg0
  let main_cst : FVec F S_ .f32 := constant S_ .f32 0x7F800000#32
  let main_v1 : FVec F S16x6x512x512 .f32 := broadcastInDim S16x6x512x512 ![] bcast_S_S16x6x512x512 main_cst
  let main_v2 : IVec S16x6x512x512 1 := cmpf .olt main_v0 main_v1
  let main_c : IVec S_ 1 := constantI S_ 1 1#1
  let main_v3 : IVec S_ 1 := (fun x v => Host.reduce IntOp.andi x v reducesTo_S16x6x512x512_S_d0_1_2_3 h_S_) main_v2 main_c
  let main_c_0 : IVec S_ 32 := constantI S_ 32 4294967295#32
  let main_v4 : IVec S16x512x512 32 := broadcastInDim S16x512x512 ![] bcast_S_S16x512x512 main_c_0
  let main_v5 : IVec S16x512x512 1 := cmpi .sge main_arg1 main_v4
  let main_c_1 : IVec S_ 1 := constantI S_ 1 1#1
  let main_v6 : IVec S_ 1 := (fun x v => Host.reduce IntOp.andi x v reducesTo_S16x512x512_S_d0_1_2 h_S_) main_v5 main_c_1
  let main_v7 : IVec S_ 1 := andi main_v3 main_v6
  let main_c_2 : IVec S_ 32 := constantI S_ 32 6#32
  let main_v8 : IVec S16x512x512 32 := broadcastInDim S16x512x512 ![] bcast_S_S16x512x512 main_c_2
  let main_v9 : IVec S16x512x512 1 := cmpi .slt main_arg1 main_v8
  let main_c_3 : IVec S_ 1 := constantI S_ 1 1#1
  let main_v10 : IVec S_ 1 := (fun x v => Host.reduce IntOp.andi x v reducesTo_S16x512x512_S_d0_1_2 h_S_) main_v9 main_c_3
  let main_v11 : IVec S_ 1 := andi main_v7 main_v10
  main_v11
-- ==== Kernel.lean ====
abbrev S16x6x512x512 : Shape := ⟨4, ![16, 6, 512, 512]⟩
abbrev S16x512x512 : Shape := ⟨3, ![16, 512, 512]⟩
abbrev S16x1x1 : Shape := ⟨3, ![16, 1, 1]⟩
abbrev S16x1x6 : Shape := ⟨3, ![16, 1, 6]⟩
abbrev S1x6x512x512 : Shape := ⟨4, ![1, 6, 512, 512]⟩
abbrev S1x512x512 : Shape := ⟨3, ![1, 512, 512]⟩
abbrev S1x1x1 : Shape := ⟨3, ![1, 1, 1]⟩
abbrev S1x1x6 : Shape := ⟨3, ![1, 1, 6]⟩
abbrev S6x512x512 : Shape := ⟨3, ![6, 512, 512]⟩
abbrev S512x512 : Shape := ⟨2, ![512, 512]⟩
abbrev S1 : Shape := ⟨1, ![1]⟩
abbrev S6 : Shape := ⟨1, ![6]⟩
abbrev S16 : Shape := ⟨1, ![16]⟩
abbrev S16x6 : Shape := ⟨2, ![16, 6]⟩
abbrev S_ : Shape := ⟨0, ![]⟩
abbrev S16x1 : Shape := ⟨2, ![16, 1]⟩

abbrev nBuf : Space → Nat
  | .hbm => 55
  | .vmem => 12
  | .smem => 0
  | _ => 0

abbrev bufTy : (tb : Table) → Fin (tcTables nBuf tb) → BufTy
  | .hbm, ⟨0, _⟩ => ⟨S16x6x512x512, .f32⟩
  | .hbm, ⟨1, _⟩ => ⟨S16x512x512, .i32⟩
  | .hbm, ⟨2, _⟩ => ⟨S16x1x1, .f32⟩
  | .hbm, ⟨3, _⟩ => ⟨S16x1x6, .f32⟩
  | .hbm, ⟨4, _⟩ => ⟨S16x1x6, .f32⟩
  | .hbm, ⟨5, _⟩ => ⟨S16x1x6, .f32⟩
  | .hbm, ⟨6, _⟩ => ⟨S16, .f32⟩
  | .hbm, ⟨7, _⟩ => ⟨S16x6, .f32⟩
  | .hbm, ⟨8, _⟩ => ⟨S16x6, .f32⟩
  | .hbm, ⟨9, _⟩ => ⟨S16x6, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16x6, .f32⟩
  | .hbm, ⟨15, _⟩ => ⟨S16x6, .f32⟩
  | .hbm, ⟨16, _⟩ => ⟨S_, .f32⟩
  | .hbm, ⟨17, _⟩ => ⟨S16x6, .f32⟩
  | .hbm, ⟨18, _⟩ => ⟨S16x6, .f32⟩
  | .hbm, ⟨19, _⟩ => ⟨S16x6, .f32⟩
  | .hbm, ⟨20, _⟩ => ⟨S_, .f32⟩
  | .hbm, ⟨21, _⟩ => ⟨S16x6, .f32⟩
  | .hbm, ⟨22, _⟩ => ⟨S16x6, .i1⟩
  | .hbm, ⟨23, _⟩ => ⟨S_, .f32⟩
  | .hbm, ⟨24, _⟩ => ⟨S16x6, .f32⟩
  | .hbm, ⟨25, _⟩ => ⟨S16x6, .f32⟩
  | .hbm, ⟨26, _⟩ => ⟨S_, .f32⟩
  | .hbm, ⟨27, _⟩ => ⟨S16, .f32⟩
  | .hbm, ⟨28, _⟩ => ⟨S16x1, .f32⟩
  | .hbm, ⟨29, _⟩ => ⟨S16x6, .f32⟩
  | .hbm, ⟨30, _⟩ => ⟨S16x6, .f32⟩
  | .hbm, ⟨31, _⟩ => ⟨S16x6, .f32⟩
  | .hbm, ⟨32, _⟩ => ⟨S_, .f32⟩
  | .hbm, ⟨33, _⟩ => ⟨S6, .f32⟩
  | .hbm, ⟨34, _⟩ => ⟨S_, .f32⟩
  | .hbm, ⟨35, _⟩ => ⟨S6, .f32⟩
  | .hbm, ⟨36, _⟩ => ⟨S6, .f32⟩
  | .hbm, ⟨37, _⟩ => ⟨S_, .f32⟩
  | .hbm, ⟨38, _⟩ => ⟨S6, .f32⟩
  | .hbm, ⟨39, _⟩ => ⟨S6, .f32⟩
  | .hbm, ⟨40, _⟩ => ⟨S16x6, .f32⟩
  | .hbm, ⟨41, _⟩ => ⟨S_, .f32⟩
  | .hbm, ⟨42, _⟩ => ⟨S6, .f32⟩
  | .hbm, ⟨43, _⟩ => ⟨S_, .f32⟩
  | .hbm, ⟨44, _⟩ => ⟨S6, .f32⟩
  | .hbm, ⟨45, _⟩ => ⟨S6, .f32⟩
  | .hbm, ⟨46, _⟩ => ⟨S6, .f32⟩
  | .hbm, ⟨47, _⟩ => ⟨S_, .f32⟩
  | .hbm, ⟨48, _⟩ => ⟨S6, .f32⟩
  | .hbm, ⟨49, _⟩ => ⟨S6, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S1x6x512x512, .f32⟩
  | .local _ .vmem, ⟨1, _⟩ => ⟨S1x6x512x512, .f32⟩
  | .local _ .vmem, ⟨2, _⟩ => ⟨S1x512x512, .i32⟩
  | .local _ .vmem, ⟨3, _⟩ => ⟨S1x512x512, .i32⟩
  | .local _ .vmem, ⟨4, _⟩ => ⟨S1x1x1, .f32⟩
  | .local _ .vmem, ⟨5, _⟩ => ⟨S1x1x1, .f32⟩
  | .local _ .vmem, ⟨6, _⟩ => ⟨S1x1x6, .f32⟩
  | .local _ .vmem, ⟨7, _⟩ => ⟨S1x1x6, .f32⟩
  | .local _ .vmem, ⟨8, _⟩ => ⟨S1x1x6, .f32⟩
  | .local _ .vmem, ⟨9, _⟩ => ⟨S1x1x6, .f32⟩
  | .local _ .vmem, ⟨10, _⟩ => ⟨S1x1x6, .f32⟩
  | .local _ .vmem, ⟨11, _⟩ => ⟨S1x1x6, .f32⟩
  | _, _ => ⟨S16x6x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_call2_v0 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_9 : Ref sig .tc := ⟨.hbm, 47, rfl⟩
abbrev main_v28 : Ref sig .tc := ⟨.hbm, 48, rfl⟩
abbrev main_v29 : Ref sig .tc := ⟨.hbm, 49, rfl⟩
abbrev main_cst_10 : Ref sig .tc := ⟨.hbm, 50, rfl⟩
abbrev main_v30 : Ref sig .tc := ⟨.hbm, 51, rfl⟩
abbrev main_cst_11 : Ref sig .tc := ⟨.hbm, 52, rfl⟩
abbrev main_v31 : Ref sig .tc := ⟨.hbm, 53, rfl⟩
abbrev main_v32 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x6x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x6x512x512_S1x6x512x512_0_0_0_0 : ∀ a, (![0, 0, 0, 0] : Fin 4 → Nat) a + S1x6x512x512.size a ≤ S1x6x512x512.size a
  h_S1x6x512x512 : 0 < S1x6x512x512.numel
  shapeCasts_S1x6x512x512_S6x512x512 : S1x6x512x512.ShapeCasts S6x512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S6x512x512_S512x512 : S6x512x512.Reduces [0] S512x512
  shapeCasts_S512x512_S1x512x512 : S512x512.ShapeCasts S1x512x512
  broadcasts_S1x512x512_S6x512x512 : S1x512x512.Broadcasts S6x512x512
  natLt_1_32 : 1 < 32
  slices_S6x512x512_o0_0_0_S1x512x512 : S6x512x512.Slices ![0, 0, 0] S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  slices_S6x512x512_o1_0_0_S1x512x512 : S6x512x512.Slices ![1, 0, 0] S1x512x512
  slices_S6x512x512_o2_0_0_S1x512x512 : S6x512x512.Slices ![2, 0, 0] S1x512x512
  slices_S6x512x512_o3_0_0_S1x512x512 : S6x512x512.Slices ![3, 0, 0] S1x512x512
  slices_S6x512x512_o4_0_0_S1x512x512 : S6x512x512.Slices ![4, 0, 0] S1x512x512
  slices_S6x512x512_o5_0_0_S1x512x512 : S6x512x512.Slices ![5, 0, 0] S1x512x512
  inb_S1x1x1_S1x1x1_0_0_0 : ∀ a, (![0, 0, 0] : Fin 3 → Nat) a + S1x1x1.size a ≤ S1x1x1.size a
  h_S1x1x1 : 0 < S1x1x1.numel
  concatenates_S1_S1_S1_S1_S1_S1_S6_d0 : Shape.Concatenates [S1, S1, S1, S1, S1, S1] S6 0
  shapeCasts_S6_S1x1x6 : S6.ShapeCasts S1x1x6
  inb_S1x1x6_S1x1x6_0_0_0 : ∀ a, (![0, 0, 0] : Fin 3 → Nat) a + S1x1x6.size a ≤ S1x1x6.size a
  h_S1x1x6 : 0 < S1x1x6.numel
  shapeCasts_S16x1x1_S16 : S16x1x1.ShapeCasts S16
  shapeCasts_S16x1x6_S16x6 : S16x1x6.ShapeCasts S16x6
  reducesTo_S16_S_d0 : S16.ReducesTo [0] S_
  h_S_ : 0 < S_.numel
  bcast_S_S16x6 : S_.BroadcastsInDim S16x6 (![] : Fin 0 → Fin S16x6.rank)
  reducesTo_S16x6_S16_d1 : S16x6.ReducesTo [1] S16
  bcast_S16_S16x1_0 : S16.BroadcastsInDim S16x1 (![0] : Fin 1 → Fin S16x1.rank)
  bcast_S16x1_S16x6_0_1 : S16x1.BroadcastsInDim S16x6 (![0, 1] : Fin 2 → Fin S16x6.rank)
  reducesTo_S16x6_S6_d0 : S16x6.ReducesTo [0] S6
  bcast_S_S6 : S_.BroadcastsInDim S6 (![] : Fin 0 → Fin S6.rank)
  reducesTo_S6_S_d0 : S6.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x6x512x512.size a ≤ S16x6x512x512.size a
  hwx0_0 : ∀ i : grid0.Coords, EltTy.bits .f32 = 32 ∨ (Rect.block (s := S16x6x512x512) S1x6x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S16x512x512.size a
  hwx0_1 : ∀ i : grid0.Coords, EltTy.bits .i32 = 32 ∨ (Rect.block (s := S16x512x512) S1x512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S16x1x1.size a
  hwx0_2 : ∀ i : grid0.Coords, EltTy.bits .f32 = 32 ∨ (Rect.block (s := S16x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x6.size a ≤ S16x1x6.size a
  hwx0_3 : ∀ i : grid0.Coords, EltTy.bits .f32 = 32 ∨ (Rect.block (s := S16x1x6) S1x1x6.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x6.size a ≤ S16x1x6.size a
  hwx0_4 : ∀ i : grid0.Coords, EltTy.bits .f32 = 32 ∨ (Rect.block (s := S16x1x6) S1x1x6.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x6.size a ≤ S16x1x6.size a
  hwx0_5 : ∀ i : grid0.Coords, EltTy.bits .f32 = 32 ∨ (Rect.block (s := S16x1x6) S1x1x6.size (cc0_transform_5 i) (hinb0_5 i)).WholeWords (EltTy.packing .f32)

variable [Facts₀]

abbrev win0_0 : Pipeline.Window sig grid0 :=
  Pipeline.Window.ofSpec (Memref.whole main_arg0) S1x6x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x6.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x6.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x1x6.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x6x512x512 : Shape := ⟨4, ![16, 6, 512, 512]⟩
abbrev S16x512x512 : Shape := ⟨3, ![16, 512, 512]⟩
abbrev S_ : Shape := ⟨0, ![]⟩
abbrev S16x1x512x512 : Shape := ⟨4, ![16, 1, 512, 512]⟩
abbrev S16x1x512x512x1 : Shape := ⟨5, ![16, 1, 512, 512, 1]⟩
abbrev S1 : Shape := ⟨1, ![1]⟩
abbrev S1x1x1x1x1 : Shape := ⟨5, ![1, 1, 1, 1, 1]⟩
abbrev S6 : Shape := ⟨1, ![6]⟩
abbrev S1x6x1x1 : Shape := ⟨4, ![1, 6, 1, 1]⟩
abbrev S16x6 : Shape := ⟨2, ![16, 6]⟩
abbrev S16 : Shape := ⟨1, ![16]⟩
abbrev S16x1 : Shape := ⟨2, ![16, 1]⟩

abbrev nBuf : Space → Nat
  | .hbm => 116
  | .vmem => 0
  | .smem => 0
  | _ => 0

abbrev bufTy : (tb : Table) → Fin (tcTables nBuf tb) → BufTy
  | .hbm, ⟨0, _⟩ => ⟨S16x6x512x512, .f32⟩
  | .hbm, ⟨1, _⟩ => ⟨S16x512x512, .i32⟩
  | .hbm, ⟨2, _⟩ => ⟨S_, .f32⟩
  | .hbm, ⟨3, _⟩ => ⟨S16x512x512, .f32⟩
  | .hbm, ⟨4, _⟩ => ⟨S_, .f32⟩
  | .hbm, ⟨5, _⟩ => ⟨S16x512x512, .f32⟩
  | .hbm, ⟨6, _⟩ => ⟨S16x512x512, .f32⟩
  | .hbm, ⟨7, _⟩ => ⟨S16x1x512x512, .f32⟩
  | .hbm, ⟨8, _⟩ => ⟨S16x6x512x512, .f32⟩
  | .hbm, ⟨9, _⟩ => ⟨S16x6x512x512, .f32⟩
  | .hbm, ⟨10, _⟩ => ⟨S16x6x512x512, .f32⟩
  | .hbm, ⟨11, _⟩ => ⟨S_, .f32⟩
  | .hbm, ⟨12, _⟩ => ⟨S16x512x512, .f32⟩
  | .hbm, ⟨13, _⟩ => ⟨S16x1x512x512, .f32⟩
  | .hbm, ⟨14, _⟩ => ⟨S16x1x512x512, .f32⟩
  | .hbm, ⟨15, _⟩ => ⟨S16x6x512x512, .f32⟩
  | .hbm, ⟨16, _⟩ => ⟨S16x6x512x512, .f32⟩
  | .hbm, ⟨17, _⟩ => ⟨S_, .i32⟩
  | .hbm, ⟨18, _⟩ => ⟨S16x512x512, .i32⟩
  | .hbm, ⟨19, _⟩ => ⟨S16x512x512, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S16x512x512, .i32⟩
  | .hbm, ⟨24, _⟩ => ⟨S16x512x512, .i32⟩
  | .hbm, ⟨25, _⟩ => ⟨S_, .i32⟩
  | .hbm, ⟨26, _⟩ => ⟨S16x512x512, .i32⟩
  | .hbm, ⟨27, _⟩ => ⟨S16x512x512, .i32⟩
  | .hbm, ⟨28, _⟩ => ⟨S16x1x512x512, .i32⟩
  | .hbm, ⟨29, _⟩ => ⟨S_, .i32⟩
  | .hbm, ⟨30, _⟩ => ⟨S16x1x512x512, .i32⟩
  | .hbm, ⟨31, _⟩ => ⟨S16x1x512x512, .i1⟩
  | .hbm, ⟨32, _⟩ => ⟨S_, .i32⟩
  | .hbm, ⟨33, _⟩ => ⟨S16x1x512x512, .i32⟩
  | .hbm, ⟨34, _⟩ => ⟨S16x1x512x512, .i32⟩
  | .hbm, ⟨35, _⟩ => ⟨S16x1x512x512, .i32⟩
  | .hbm, ⟨36, _⟩ => ⟨S16x1x512x512x1, .i32⟩
  | .hbm, ⟨37, _⟩ => ⟨S1, .i32⟩
  | .hbm, ⟨38, _⟩ => ⟨S_, .i32⟩
  | .hbm, ⟨39, _⟩ => ⟨S16x1x512x512x1, .i32⟩
  | .hbm, ⟨40, _⟩ => ⟨S16x1x512x512x1, .i1⟩
  | .hbm, ⟨41, _⟩ => ⟨S1x1x1x1x1, .i32⟩
  | .hbm, ⟨42, _⟩ => ⟨S16x1x512x512x1, .i32⟩
  | .hbm, ⟨43, _⟩ => ⟨S16x1x512x512x1, .i1⟩
  | .hbm, ⟨44, _⟩ => ⟨S16x1x512x512x1, .i1⟩
  | .hbm, ⟨45, _⟩ => ⟨S_, .i1⟩
  | .hbm, ⟨46, _⟩ => ⟨S16x1x512x512, .i1⟩
  | .hbm, ⟨47, _⟩ => ⟨S16x1x512x512, .f32⟩
  | .hbm, ⟨48, _⟩ => ⟨S_, .f32⟩
  | .hbm, ⟨49, _⟩ => ⟨S16x1x512x512, .f32⟩
  | .hbm, ⟨50, _⟩ => ⟨S16x1x512x512, .f32⟩
  | .hbm, ⟨51, _⟩ => ⟨S16x512x512, .f32⟩
  | .hbm, ⟨52, _⟩ => ⟨S16x512x512, .f32⟩
  | .hbm, ⟨53, _⟩ => ⟨S_, .f32⟩
  | .hbm, ⟨54, _⟩ => ⟨S16x512x512, .f32⟩
  | .hbm, ⟨55, _⟩ => ⟨S16x512x512, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S16x1x512x512, .i32⟩
  | .hbm, ⟨61, _⟩ => ⟨S6, .i32⟩
  | .hbm, ⟨62, _⟩ => ⟨S1x6x1x1, .i32⟩
  | .hbm, ⟨63, _⟩ => ⟨S16x6x512x512, .i32⟩
  | .hbm, ⟨64, _⟩ => ⟨S16x6x512x512, .i32⟩
  | .hbm, ⟨65, _⟩ => ⟨S16x6x512x512, .i1⟩
  | .hbm, ⟨66, _⟩ => ⟨S16x6x512x512, .f32⟩
  | .hbm, ⟨67, _⟩ => ⟨S16x6x512x512, .f32⟩
  | .hbm, ⟨68, _⟩ => ⟨S16x6x512x512, .f32⟩
  | .hbm, ⟨69, _⟩ => ⟨S_, .f32⟩
  | .hbm, ⟨70, _⟩ => ⟨S16x6, .f32⟩
  | .hbm, ⟨71, _⟩ => ⟨S_, .f32⟩
  | .hbm, ⟨72, _⟩ => ⟨S16x6, .f32⟩
  | .hbm, ⟨73, _⟩ => ⟨S_, .f32⟩
  | .hbm, ⟨74, _⟩ => ⟨S16x6, .f32⟩
  | .hbm, ⟨75, _⟩ => ⟨S16x6, .f32⟩
  | .hbm, ⟨76, _⟩ => ⟨S16x6, .f32⟩
  | .hbm, ⟨77, _⟩ => ⟨S_, .f32⟩
  | .hbm, ⟨78, _⟩ => ⟨S16x6, .f32⟩
  | .hbm, ⟨79, _⟩ => ⟨S16x6, .f32⟩
  | .hbm, ⟨80, _⟩ => ⟨S16x6, .f32⟩
  | .hbm, ⟨81, _⟩ => ⟨S_, .f32⟩
  | .hbm, ⟨82, _⟩ => ⟨S16x6, .f32⟩
  | .hbm, ⟨83, _⟩ => ⟨S16x6, .i1⟩
  | .hbm, ⟨84, _⟩ => ⟨S_, .f32⟩
  | .hbm, ⟨85, _⟩ => ⟨S16x6, .f32⟩
  | .hbm, ⟨86, _⟩ => ⟨S16x6, .f32⟩
  | .hbm, ⟨87, _⟩ => ⟨S_, .f32⟩
  | .hbm, ⟨88, _⟩ => ⟨S16, .f32⟩
  | .hbm, ⟨89, _⟩ => ⟨S16x1, .f32⟩
  | .hbm, ⟨90, _⟩ => ⟨S16x6, .f32⟩
  | .hbm, ⟨91, _⟩ => ⟨S16x6, .f32⟩
  | .hbm, ⟨92, _⟩ => ⟨S16x6, .f32⟩
  | .hbm, ⟨93, _⟩ => ⟨S_, .f32⟩
  | .hbm, ⟨94, _⟩ => ⟨S6, .f32⟩
  | .hbm, ⟨95, _⟩ => ⟨S_, .f32⟩
  | .hbm, ⟨96, _⟩ => ⟨S6, .f32⟩
  | .hbm, ⟨97, _⟩ => ⟨S6, .f32⟩
  | .hbm, ⟨98, _⟩ => ⟨S_, .f32⟩
  | .hbm, ⟨99, _⟩ => ⟨S6, .f32⟩
  | .hbm, ⟨100, _⟩ => ⟨S6, .f32⟩
  | .hbm, ⟨101, _⟩ => ⟨S16x6, .f32⟩
  | .hbm, ⟨102, _⟩ => ⟨S_, .f32⟩
  | .hbm, ⟨103, _⟩ => ⟨S6, .f32⟩
  | .hbm, ⟨104, _⟩ => ⟨S_, .f32⟩
  | .hbm, ⟨105, _⟩ => ⟨S6, .f32⟩
  | .hbm, ⟨106, _⟩ => ⟨S6, .f32⟩
  | .hbm, ⟨107, _⟩ => ⟨S6, .f32⟩
  | .hbm, ⟨108, _⟩ => ⟨S_, .f32⟩
  | .hbm, ⟨109, _⟩ => ⟨S6, .f32⟩
  | .hbm, ⟨110, _⟩ => ⟨S6, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | _, _ => ⟨S16x6x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_c_1 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v3 : Ref sig .tc := ⟨.hbm, 27, rfl⟩
abbrev main_v4 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_cst : Ref sig .tc := ⟨.hbm, 53, rfl⟩
abbrev main_v8 : Ref sig .tc := ⟨.hbm, 54, rfl⟩
abbrev main_v9 : Ref sig .tc := ⟨.hbm, 55, rfl⟩
abbrev main_cst_2 : Ref sig .tc := ⟨.hbm, 56, rfl⟩
abbrev main_v10 : Ref sig .tc := ⟨.hbm, 57, rfl⟩
abbrev main_cst_3 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_cst_4 : Ref sig .tc := ⟨.hbm, 69, rfl⟩
abbrev main_v21 : Ref sig .tc := ⟨.hbm, 70, rfl⟩
abbrev main_cst_5 : Ref sig .tc := ⟨.hbm, 71, rfl⟩
abbrev main_v22 : Ref sig .tc := ⟨.hbm, 72, rfl⟩
abbrev main_cst_6 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_cst_7 : Ref sig .tc := ⟨.hbm, 77, rfl⟩
abbrev main_v26 : Ref sig .tc := ⟨.hbm, 78, rfl⟩
abbrev main_v27 : Ref sig .tc := ⟨.hbm, 79, rfl⟩
abbrev main_call4_v0 : Ref sig .tc := ⟨.hbm, 80, rfl⟩
abbrev main_call4_cst : Ref sig .tc := ⟨.hbm, 81, rfl⟩
abbrev main_call4_v1 : Ref sig .tc := ⟨.hbm, 82, rfl⟩
abbrev main_v28 : Ref sig .tc := ⟨.hbm, 83, rfl⟩
abbrev main_cst_8 : Ref sig .tc := ⟨.hbm, 84, rfl⟩
abbrev main_v29 : Ref sig .tc := ⟨.hbm, 85, rfl⟩
abbrev main_v30 : Ref sig .tc := ⟨.hbm, 86, rfl⟩
abbrev main_cst_9 : Ref sig .tc := ⟨.hbm, 87, rfl⟩
abbrev main_v31 : Ref sig .tc := ⟨.hbm, 88, rfl⟩
abbrev main_v32 : Ref sig .tc := ⟨.hbm, 89, rfl⟩
abbrev main_call6_v0 : Ref sig .tc := ⟨.hbm, 90, rfl⟩
abbrev main_v33 : Ref sig .tc := ⟨.hbm, 91, rfl⟩
abbrev main_v34 : Ref sig .tc := ⟨.hbm, 92, rfl⟩
abbrev main_cst_10 : Ref sig .tc := ⟨.hbm, 93, rfl⟩
abbrev main_v35 : Ref sig .tc := ⟨.hbm, 94, rfl⟩
abbrev main_cst_11 : Ref sig .tc := ⟨.hbm, 95, rfl⟩
abbrev main_v36 : Ref sig .tc := ⟨.hbm, 96, rfl⟩
abbrev main_v37 : Ref sig .tc := ⟨.hbm, 97, rfl⟩
abbrev main_cst_12 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_cst_13 : Ref sig .tc := ⟨.hbm, 102, rfl⟩
abbrev main_v41 : Ref sig .tc := ⟨.hbm, 103, rfl⟩
abbrev main_cst_14 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_cst_15 : Ref sig .tc := ⟨.hbm, 108, rfl⟩
abbrev main_v45 : Ref sig .tc := ⟨.hbm, 109, rfl⟩
abbrev main_v46 : Ref sig .tc := ⟨.hbm, 110, rfl⟩
abbrev main_cst_16 : Ref sig .tc := ⟨.hbm, 111, rfl⟩
abbrev main_v47 : Ref sig .tc := ⟨.hbm, 112, rfl⟩
abbrev main_cst_17 : Ref sig .tc := ⟨.hbm, 113, rfl⟩
abbrev main_v48 : Ref sig .tc := ⟨.hbm, 114, rfl⟩
abbrev main_v49 : Ref sig .tc := ⟨.hbm, 115, rfl⟩

abbrev nD : Nat := 1
abbrev τ : Topo := Topo.v7x

variable {F : FTy → Type} [FloatOps F]

class Facts₀ : Prop where
  reducesTo_S16x6x512x512_S16x512x512_d1 : S16x6x512x512.ReducesTo [1] S16x512x512
  h_S_ : 0 < S_.numel
  bcast_S_S16x512x512 : S_.BroadcastsInDim S16x512x512 (![] : Fin 0 → Fin S16x512x512.rank)
  bcast_S16x512x512_S16x1x512x512_0_2_3 : S16x512x512.BroadcastsInDim S16x1x512x512 (![0, 2, 3] : Fin 3 → Fin S16x1x512x512.rank)
  bcast_S16x1x512x512_S16x6x512x512_0_1_2_3 : S16x1x512x512.BroadcastsInDim S16x6x512x512 (![0, 1, 2, 3] : Fin 4 → Fin S16x6x512x512.rank)
  bcast_S_S16x1x512x512 : S_.BroadcastsInDim S16x1x512x512 (![] : Fin 0 → Fin S16x1x512x512.rank)
  shapeCasts_S16x1x512x512_S16x1x512x512x1 : S16x1x512x512.ShapeCasts S16x1x512x512x1
  bcast_S_S16x1x512x512x1 : S_.BroadcastsInDim S16x1x512x512x1 (![] : Fin 0 → Fin S16x1x512x512x1.rank)
  bcast_S1_S1x1x1x1x1_4 : S1.BroadcastsInDim S1x1x1x1x1 (![4] : Fin 1 → Fin S1x1x1x1x1.rank)
  bcast_S1x1x1x1x1_S16x1x512x512x1_0_1_2_3_4 : S1x1x1x1x1.BroadcastsInDim S16x1x512x512x1 (![0, 1, 2, 3, 4] : Fin 5 → Fin S16x1x512x512x1.rank)
  reducesTo_S16x1x512x512x1_S16x1x512x512_d4 : S16x1x512x512x1.ReducesTo [4] S16x1x512x512
  shapeCasts_S16x1x512x512_S16x512x512 : S16x1x512x512.ShapeCasts S16x512x512
  reducesTo_S16x512x512_S_d0_1_2 : S16x512x512.ReducesTo [0, 1, 2] S_
  bcast_S6_S1x6x1x1_1 : S6.BroadcastsInDim S1x6x1x1 (![1] : Fin 1 → Fin S1x6x1x1.rank)
  bcast_S1x6x1x1_S16x6x512x512_0_1_2_3 : S1x6x1x1.BroadcastsInDim S16x6x512x512 (![0, 1, 2, 3] : Fin 4 → Fin S16x6x512x512.rank)
  reducesTo_S16x6x512x512_S16x6_d2_3 : S16x6x512x512.ReducesTo [2, 3] S16x6
  bcast_S_S16x6 : S_.BroadcastsInDim S16x6 (![] : Fin 0 → Fin S16x6.rank)
  reducesTo_S16x6_S16_d1 : S16x6.ReducesTo [1] S16
  bcast_S16_S16x1_0 : S16.BroadcastsInDim S16x1 (![0] : Fin 1 → Fin S16x1.rank)
  bcast_S16x1_S16x6_0_1 : S16x1.BroadcastsInDim S16x6 (![0, 1] : Fin 2 → Fin S16x6.rank)
  reducesTo_S16x6_S6_d0 : S16x6.ReducesTo [0] S6
  bcast_S_S6 : S_.BroadcastsInDim S6 (![] : Fin 0 → Fin S6.rank)
  reducesTo_S6_S_d0 : S6.ReducesTo [0] S_
  gather_S16x6x512x512_S16x1x512x512x1_S16x1x512x512_n_1_023_023_1_4_1111_wf : GatherDims.WF S16x6x512x512 S16x1x512x512x1 S16x1x512x512 [] [1] [0, 2, 3] [1] [0, 2, 3] 4 ![1, 1, 1, 1]

variable [Facts₀]

def gather_S16x6x512x512_S16x1x512x512x1_S16x1x512x512_n_1_023_023_1_4_1111 : GatherDims S16x6x512x512 S16x1x512x512x1 S16x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S16x6x512x512_S16x1x512x512x1_S16x1x512x512_n_1_023_023_1_4_1111_wf

class Facts : Prop extends Facts₀ where

variable [Facts]
-- ==== Proof.DiceTail.lean ====
/-
  The part of the loss both programs compute after the per-batch sums, written once.

  From the [16, 6] arrays `inter` (weighted probabilities), `ground` (label counts) and `pred` (probabilities), the
  class weight is `w = 1 / ground²`, with an infinite weight (an empty class) first set to zero and then replaced by
  the largest finite weight of its batch element's row. Per class, `f = 1 - (2 Σ_b inter·w + ε) / (Σ_b (ground + pred)·w + ε)`;
  the result is the mean of `f` over the six classes plus the pixel loss `pl`. Both programs spell these operations
  the same way, so neither value proof opens them.
-/
import Idealize.ShloMosaic.Lib.StableHlo
import Idealize.ShloMosaic.PureOps

noncomputable section

namespace Cert.Loss

open Idealize.ShloMosaic

abbrev T_ : Shape := ⟨0, ![]⟩
abbrev T6 : Shape := ⟨1, ![6]⟩
abbrev T16 : Shape := ⟨1, ![16]⟩
abbrev T16x1 : Shape := ⟨2, ![16, 1]⟩
abbrev T16x6 : Shape := ⟨2, ![16, 6]⟩

/-- The generalised-dice term of the loss plus the pixel loss, as both programs compute it from the per-batch sums. -/
def diceTail {F : FTy → Type} [FloatOps F]
    (hb : T_.BroadcastsInDim T16x6 (![] : Fin 0 → Fin T16x6.rank)) (h0 : 0 < T_.numel)
    (hr1 : T16x6.ReducesTo [1] T16) (hb1 : T16.BroadcastsInDim T16x1 (![0] : Fin 1 → Fin T16x1.rank))
    (hb2 : T16x1.BroadcastsInDim T16x6 (![0, 1] : Fin 2 → Fin T16x6.rank)) (hr0 : T16x6.ReducesTo [0] T6)
    (hb6 : T_.BroadcastsInDim T6 (![] : Fin 0 → Fin T6.rank)) (hr6 : T6.ReducesTo [0] T_)
    (inter ground pred : FVec F T16x6 .f32) (pl : FVec F T_ .f32) : FVec F T_ .f32 :=
  let w0 : FVec F T16x6 .f32 :=
    Host.divf (broadcastInDim T16x6 ![] hb (constant T_ .f32 0x3F800000#32)) (mulf ground ground)
  let isInf : IVec T16x6 1 :=
    cmpf (F := F) .oeq (Host.absf w0) (broadcastInDim T16x6 ![] hb (constant T_ .f32 0x7F800000#32))
  let wz : FVec F T16x6 .f32 := select isInf (broadcastInDim T16x6 ![] hb (constant T_ .f32 0x00000000#32)) w0
  let w : FVec F T16x6 .f32 :=
    select isInf (broadcastInDim T16x6 ![0, 1] hb2 (broadcastInDim T16x1 ![0] hb1
      (Host.reduce FloatOps.maximumf wz (constant T_ .f32 0xFF800000#32) hr1 h0))) wz
  let num : FVec F T6 .f32 :=
    addf (mulf (broadcastInDim T6 ![] hb6 (constant T_ .f32 0x40000000#32))
      (Host.reduceAdd (mulf inter w) (constant T_ .f32 0x00000000#32) hr0 h0))
      (broadcastInDim T6 ![] hb6 (constant T_ .f32 0x3727C5AC#32))
  let den : FVec F T6 .f32 :=
    addf (Host.reduceAdd (mulf (addf ground pred) w) (constant T_ .f32 0x00000000#32) hr0 h0)
      (broadcastInDim T6 ![] hb6 (constant T_ .f32 0x3727C5AC#32))
  let f : FVec F T6 .f32 := subf (broadcastInDim T6 ![] hb6 (constant T_ .f32 0x3F800000#32)) (Host.divf num den)
  addf (Host.divf (Host.reduceAdd f (constant T_ .f32 0x00000000#32) hr6 h0) (constant T_ .f32 0x40C00000#32)) pl

end Cert.Loss

end
-- ==== Proof.RefFold.lean ====
/-
  The reference program's operations, cut into four stretches: the log-softmax (its result the log-probabilities);
  the label clipping, the gather of the label's log-probability and the pixel loss; the one-hot weights, the
  probabilities and the three sums over the pixels; and the operations on the [16, 6] sums that both programs share.
  The buffers after a stretch are the fold of its operations over the buffers before it, and the fold of the whole
  list is the stretches' folds composed, so each stretch is read by itself over any buffer contents whose inputs are
  given.
-/
import proofs.«407860_j47931835023728_1_alg».proof.Proof.RefRead
import proofs.«407860_j47931835023728_1_alg».proof.Proof.DiceTail

set_option maxRecDepth 8192

noncomputable section

namespace Cert.ReferenceIdeal.Fold

open Cert.ReferenceIdeal Cert.ReferenceIdeal.Gen Cert.ReferenceIdeal.RunValue Cert.ReferenceIdeal.RunRead Cert.Loss
open Idealize.ShloMosaic Idealize.ShloMosaic.TcCoe Idealize.SL.Sem Idealize.ShloMosaic.StableHlo

variable {F : FTy → Type} [FloatOps F]

/-- The fold of a concatenation is the folds composed. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The program's 114 operations with the callees' operations spelt by the untyped builders. -/
abbrev opsU : List (HloOp τ sig (Elt F)) :=
  [ nullary main_call0_cst (constant S_ .f32 0xFF800000#32),
    binary main_arg0 main_call0_cst main_call0_v0 ((fun x v => Host.reduce FloatOps.maximumf x v reducesTo_S16x6x512x512_S16x512x512_d1 h_S_) : (⟨S16x6x512x512, .f32⟩ : BufTy).Contents (Elt F) → (⟨S_, .f32⟩ : BufTy).Contents (Elt F) → (⟨S16x512x512, .f32⟩ : BufTy).Contents (Elt F)),
    nullary main_call0_cst_0 (constant S_ .f32 0xFF800000#32),
    unary main_call0_cst_0 main_call0_v1 ((broadcastInDim S16x512x512 ![] bcast_S_S16x512x512) : (⟨S_, .f32⟩ : BufTy).Contents (Elt F) → (⟨S16x512x512, .f32⟩ : BufTy).Contents (Elt F)),
    binary main_call0_v1 main_call0_v0 main_call0_v2 (maximumf : (⟨S16x512x512, .f32⟩ : BufTy).Contents (Elt F) → (⟨S16x512x512, .f32⟩ : BufTy).Contents (Elt F) → (⟨S16x512x512, .f32⟩ : BufTy).Contents (Elt F)),
    unary main_call0_v2 main_call0_v3 ((broadcastInDim S16x1x512x512 ![0, 2, 3] bcast_S16x512x512_S16x1x512x512_0_2_3) : (⟨S16x512x512, .f32⟩ : BufTy).Contents (Elt F) → (⟨S16x1x512x512, .f32⟩ : BufTy).Contents (Elt F)),
    unary main_call0_v3 main_call0_v4 ((broadcastInDim S16x6x512x512 ![0, 1, 2, 3] bcast_S16x1x512x512_S16x6x512x512_0_1_2_3) : (⟨S16x1x512x512, .f32⟩ : BufTy).Contents (Elt F) → (⟨S16x6x512x512, .f32⟩ : BufTy).Contents (Elt F)),
    binary main_arg0 main_call0_v4 main_call0_v5 (subf : (⟨S16x6x512x512, .f32⟩ : BufTy).Contents (Elt F) → (⟨S16x6x512x512, .f32⟩ : BufTy).Contents (Elt F) → (⟨S16x6x512x512, .f32⟩ : BufTy).Contents (Elt F)),
    unary main_call0_v5 main_call0_v6 (Host.exp : (⟨S16x6x512x512, .f32⟩ : BufTy).Contents (Elt F) → (⟨S16x6x512x512, .f32⟩ : BufTy).Contents (Elt F)),
    nullary main_call0_cst_1 (constant S_ .f32 0x00000000#32),
    binary main_call0_v6 main_call0_cst_1 main_call0_v7 ((fun x v => Host.reduceAdd x v reducesTo_S16x6x512x512_S16x512x512_d1 h_S_) : (⟨S16x6x512x512, .f32⟩ : BufTy).Contents (Elt F) → (⟨S_, .f32⟩ : BufTy).Contents (Elt F) → (⟨S16x512x512, .f32⟩ : BufTy).Contents (Elt F)),
    unary main_call0_v7 main_call0_v8 ((broadcastInDim S16x1x512x512 ![0, 2, 3] bcast_S16x512x512_S16x1x512x512_0_2_3) : (⟨S16x512x512, .f32⟩ : BufTy).Contents (Elt F) → (⟨S16x1x512x512, .f32⟩ : BufTy).Contents (Elt F)),
    unary main_call0_v8 main_call0_v9 (Host.log : (⟨S16x1x512x512, .f32⟩ : BufTy).Contents (Elt F) → (⟨S16x1x512x512, .f32⟩ : BufTy).Contents (Elt F)),
    unary main_call0_v9 main_call0_v10 ((broadcastInDim S16x6x512x512 ![0, 1, 2, 3] bcast_S16x1x512x512_S16x6x512x512_0_1_2_3) : (⟨S16x1x512x512, .f32⟩ : BufTy).Contents (Elt F) → (⟨S16x6x512x512, .f32⟩ : BufTy).Contents (Elt F)),
    binary main_call0_v5 main_call0_v10 main_v0 (subf : (⟨S16x6x512x512, .f32⟩ : BufTy).Contents (Elt F) → (⟨S16x6x512x512, .f32⟩ : BufTy).Contents (Elt F) → (⟨S16x6x512x512, .f32⟩ : BufTy).Contents (Elt F)),
    nullary main_c (constantI S_ 32 4294967295#32),
    unary main_c main_v1 (broadcastInDim S16x512x512 ![] bcast_S_S16x512x512 : (⟨S_, .i32⟩ : BufTy).Contents (Elt F) → (⟨S16x512x512, .i32⟩ : BufTy).Contents (Elt F)),
    binary main_arg1 main_v1 main_v2 (cmpi .ne : (⟨S16x512x512, .i32⟩ : BufTy).Contents (Elt F) → (⟨S16x512x512, .i32⟩ : BufTy).Contents (Elt F) → (⟨S16x512x512, .i1⟩ : BufTy).Contents (Elt F)),
    nullary main_c_0 (constantI S_ 32 0#32),
    nullary main_c_1 (constantI S_ 32 5#32),
    unary main_c_0 main_call1_v0 (id : (⟨S_, .i32⟩ : BufTy).Contents (Elt F) → (⟨S_, .i32⟩ : BufTy).Contents (Elt F)),
    unary main_call1_v0 main_call1_v1 ((broadcastInDim S16x512x512 ![] bcast_S_S16x512x512) : (⟨S_, .i32⟩ : BufTy).Contents (Elt F) → (⟨S16x512x512, .i32⟩ : BufTy).Contents (Elt F)),
    binary main_call1_v1 main_arg1 main_call1_v2 (maxsi : (⟨S16x512x512, .i32⟩ : BufTy).Contents (Elt F) → (⟨S16x512x512, .i32⟩ : BufTy).Contents (Elt F) → (⟨S16x512x512, .i32⟩ : BufTy).Contents (Elt F)),
    unary main_c_1 main_call1_v3 (id : (⟨S_, .i32⟩ : BufTy).Contents (Elt F) → (⟨S_, .i32⟩ : BufTy).Contents (Elt F)),
    unary main_call1_v3 main_call1_v4 ((broadcastInDim S16x512x512 ![] bcast_S_S16x512x512) : (⟨S_, .i32⟩ : BufTy).Contents (Elt F) → (⟨S16x512x512, .i32⟩ : BufTy).Contents (Elt F)),
    binary main_call1_v4 main_call1_v2 main_v3 (minsi : (⟨S16x512x512, .i32⟩ : BufTy).Contents (Elt F) → (⟨S16x512x512, .i32⟩ : BufTy).Contents (Elt F) → (⟨S16x512x512, .i32⟩ : BufTy).Contents (Elt F)),
    unary main_v3 main_v4 (broadcastInDim S16x1x512x512 ![0, 2, 3] bcast_S16x512x512_S16x1x512x512_0_2_3 : (⟨S16x512x512, .i32⟩ : BufTy).Contents (Elt F) → (⟨S16x1x512x512, .i32⟩ : BufTy).Contents (Elt F)),
    nullary main_call2_c (constantI S_ 32 0#32),
    unary main_call2_c main_call2_v0 ((broadcastInDim S16x1x512x512 ![] bcast_S_S16x1x512x512) : (⟨S_, .i32⟩ : BufTy).Contents (Elt F) → (⟨S16x1x512x512, .i32⟩ : BufTy).Contents (Elt F)),
    binary main_v4 main_call2_v0 main_call2_v1 ((cmpi .slt) : (⟨S16x1x512x512, .i32⟩ : BufTy).Contents (Elt F) → (⟨S16x1x512x512, .i32⟩ : BufTy).Contents (Elt F) → (⟨S16x1x512x512, .i1⟩ : BufTy).Contents (Elt F)),
    nullary main_call2_c_0 (constantI S_ 32 6#32),
    unary main_call2_c_0 main_call2_v2 ((broadcastInDim S16x1x512x512 ![] bcast_S_S16x1x512x512) : (⟨S_, .i32⟩ : BufTy).Contents (Elt F) → (⟨S16x1x512x512, .i32⟩ : BufTy).Contents (Elt F)),
    binary main_v4 main_call2_v2 main_call2_v3 (addi : (⟨S16x1x512x512, .i32⟩ : BufTy).Contents (Elt F) → (⟨S16x1x512x512, .i32⟩ : BufTy).Contents (Elt F) → (⟨S16x1x512x512, .i32⟩ : BufTy).Contents (Elt F)),
    ternary main_call2_v1 main_call2_v3 main_v4 main_call2_v4 (select : (⟨S16x1x512x512, .i1⟩ : BufTy).Contents (Elt F) → (⟨S16x1x512x512, .i32⟩ : BufTy).Contents (Elt F) → (⟨S16x1x512x512, .i32⟩ : BufTy).Contents (Elt F) → (⟨S16x1x512x512, .i32⟩ : BufTy).Contents (Elt F)),
    reshape main_call2_v4 main_call2_v5 rfl shapeCasts_S16x1x512x512_S16x1x512x512x1,
    nullary main_call2_c_1 (constantI S1 32 5#32),
    nullary main_call2_c_2 (constantI S_ 32 0#32),
    unary main_call2_c_2 main_call2_v6 ((broadcastInDim S16x1x512x512x1 ![] bcast_S_S16x1x512x512x1) : (⟨S_, .i32⟩ : BufTy).Contents (Elt F) → (⟨S16x1x512x512x1, .i32⟩ : BufTy).Contents (Elt F)),
    binary main_call2_v5 main_call2_v6 main_call2_v7 ((cmpi .sge) : (⟨S16x1x512x512x1, .i32⟩ : BufTy).Contents (Elt F) → (⟨S16x1x512x512x1, .i32⟩ : BufTy).Contents (Elt F) → (⟨S16x1x512x512x1, .i1⟩ : BufTy).Contents (Elt F)),
    unary main_call2_c_1 main_call2_v8 ((broadcastInDim S1x1x1x1x1 ![4] bcast_S1_S1x1x1x1x1_4) : (⟨S1, .i32⟩ : BufTy).Contents (Elt F) → (⟨S1x1x1x1x1, .i32⟩ : BufTy).Contents (Elt F)),
    unary main_call2_v8 main_call2_v9 ((broadcastInDim S16x1x512x512x1 ![0, 1, 2, 3, 4] bcast_S1x1x1x1x1_S16x1x512x512x1_0_1_2_3_4) : (⟨S1x1x1x1x1, .i32⟩ : BufTy).Contents (Elt F) → (⟨S16x1x512x512x1, .i32⟩ : BufTy).Contents (Elt F)),
    binary main_call2_v5 main_call2_v9 main_call2_v10 ((cmpi .sle) : (⟨S16x1x512x512x1, .i32⟩ : BufTy).Contents (Elt F) → (⟨S16x1x512x512x1, .i32⟩ : BufTy).Contents (Elt F) → (⟨S16x1x512x512x1, .i1⟩ : BufTy).Contents (Elt F)),
    binary main_call2_v7 main_call2_v10 main_call2_v11 (andi : (⟨S16x1x512x512x1, .i1⟩ : BufTy).Contents (Elt F) → (⟨S16x1x512x512x1, .i1⟩ : BufTy).Contents (Elt F) → (⟨S16x1x512x512x1, .i1⟩ : BufTy).Contents (Elt F)),
    nullary main_call2_c_3 (constantI S_ 1 1#1),
    binary main_call2_v11 main_call2_c_3 main_call2_v12 ((fun x v => Host.reduce IntOp.andi x v reducesTo_S16x1x512x512x1_S16x1x512x512_d4 h_S_) : (⟨S16x1x512x512x1, .i1⟩ : BufTy).Contents (Elt F) → (⟨S_, .i1⟩ : BufTy).Contents (Elt F) → (⟨S16x1x512x512, .i1⟩ : BufTy).Contents (Elt F)),
    binary main_v0 main_call2_v5 main_call2_v13 ((fun x i => Host.gather gather_S16x6x512x512_S16x1x512x512x1_S16x1x512x512_n_1_023_023_1_4_1111 x i) : (⟨S16x6x512x512, .f32⟩ : BufTy).Contents (Elt F) → (⟨S16x1x512x512x1, .i32⟩ : BufTy).Contents (Elt F) → (⟨S16x1x512x512, .f32⟩ : BufTy).Contents (Elt F)),
    nullary main_call2_cst (constant S_ .f32 0x7FC00000#32),
    unary main_call2_cst main_call2_v14 ((broadcastInDim S16x1x512x512 ![] bcast_S_S16x1x512x512) : (⟨S_, .f32⟩ : BufTy).Contents (Elt F) → (⟨S16x1x512x512, .f32⟩ : BufTy).Contents (Elt F)),
    ternary main_call2_v12 main_call2_v13 main_call2_v14 main_v5 (select : (⟨S16x1x512x512, .i1⟩ : BufTy).Contents (Elt F) → (⟨S16x1x512x512, .f32⟩ : BufTy).Contents (Elt F) → (⟨S16x1x512x512, .f32⟩ : BufTy).Contents (Elt F) → (⟨S16x1x512x512, .f32⟩ : BufTy).Contents (Elt F)),
    reshape main_v5 main_v6 rfl shapeCasts_S16x1x512x512_S16x512x512,
    unary main_v6 main_v7 (Host.negf : (⟨S16x512x512, .f32⟩ : BufTy).Contents (Elt F) → (⟨S16x512x512, .f32⟩ : BufTy).Contents (Elt F)),
    nullary main_cst (constant S_ .f32 0x00000000#32),
    unary main_cst main_v8 (broadcastInDim S16x512x512 ![] bcast_S_S16x512x512 : (⟨S_, .f32⟩ : BufTy).Contents (Elt F) → (⟨S16x512x512, .f32⟩ : BufTy).Contents (Elt F)),
    ternary main_v2 main_v7 main_v8 main_v9 (select : (⟨S16x512x512, .i1⟩ : BufTy).Contents (Elt F) → (⟨S16x512x512, .f32⟩ : BufTy).Contents (Elt F) → (⟨S16x512x512, .f32⟩ : BufTy).Contents (Elt F) → (⟨S16x512x512, .f32⟩ : BufTy).Contents (Elt F)),
    nullary main_cst_2 (constant S_ .f32 0x00000000#32),
    binary main_v9 main_cst_2 main_v10 ((fun x v => Host.reduceAdd x v reducesTo_S16x512x512_S_d0_1_2 h_S_) : (⟨S16x512x512, .f32⟩ : BufTy).Contents (Elt F) → (⟨S_, .f32⟩ : BufTy).Contents (Elt F) → (⟨S_, .f32⟩ : BufTy).Contents (Elt F)),
    nullary main_cst_3 (constant S_ .f32 0x4A800000#32),
    binary main_v10 main_cst_3 main_v11 (Host.divf : (⟨S_, .f32⟩ : BufTy).Contents (Elt F) → (⟨S_, .f32⟩ : BufTy).Contents (Elt F) → (⟨S_, .f32⟩ : BufTy).Contents (Elt F)),
    unary main_arg1 main_v12 (broadcastInDim S16x1x512x512 ![0, 2, 3] bcast_S16x512x512_S16x1x512x512_0_2_3 : (⟨S16x512x512, .i32⟩ : BufTy).Contents (Elt F) → (⟨S16x1x512x512, .i32⟩ : BufTy).Contents (Elt F)),
    nullary main_v13 (iotaInDim S6 32 0),
    unary main_v13 main_v14 (broadcastInDim S1x6x1x1 ![1] bcast_S6_S1x6x1x1_1 : (⟨S6, .i32⟩ : BufTy).Contents (Elt F) → (⟨S1x6x1x1, .i32⟩ : BufTy).Contents (Elt F)),
    unary main_v12 main_v15 (broadcastInDim S16x6x512x512 ![0, 1, 2, 3] bcast_S16x1x512x512_S16x6x512x512_0_1_2_3 : (⟨S16x1x512x512, .i32⟩ : BufTy).Contents (Elt F) → (⟨S16x6x512x512, .i32⟩ : BufTy).Contents (Elt F)),
    unary main_v14 main_v16 (broadcastInDim S16x6x512x512 ![0, 1, 2, 3] bcast_S1x6x1x1_S16x6x512x512_0_1_2_3 : (⟨S1x6x1x1, .i32⟩ : BufTy).Contents (Elt F) → (⟨S16x6x512x512, .i32⟩ : BufTy).Contents (Elt F)),
    binary main_v15 main_v16 main_v17 (cmpi .eq : (⟨S16x6x512x512, .i32⟩ : BufTy).Contents (Elt F) → (⟨S16x6x512x512, .i32⟩ : BufTy).Contents (Elt F) → (⟨S16x6x512x512, .i1⟩ : BufTy).Contents (Elt F)),
    unary main_v17 main_v18 (uitofp (F := F) .f32 : (⟨S16x6x512x512, .i1⟩ : BufTy).Contents (Elt F) → (⟨S16x6x512x512, .f32⟩ : BufTy).Contents (Elt F)),
    unary main_v0 main_v19 (Host.exp : (⟨S16x6x512x512, .f32⟩ : BufTy).Contents (Elt F) → (⟨S16x6x512x512, .f32⟩ : BufTy).Contents (Elt F)),
    binary main_v18 main_v19 main_v20 (mulf : (⟨S16x6x512x512, .f32⟩ : BufTy).Contents (Elt F) → (⟨S16x6x512x512, .f32⟩ : BufTy).Contents (Elt F) → (⟨S16x6x512x512, .f32⟩ : BufTy).Contents (Elt F)),
    nullary main_cst_4 (constant S_ .f32 0x00000000#32),
    binary main_v20 main_cst_4 main_v21 ((fun x v => Host.reduceAdd x v reducesTo_S16x6x512x512_S16x6_d2_3 h_S_) : (⟨S16x6x512x512, .f32⟩ : BufTy).Contents (Elt F) → (⟨S_, .f32⟩ : BufTy).Contents (Elt F) → (⟨S16x6, .f32⟩ : BufTy).Contents (Elt F)),
    nullary main_cst_5 (constant S_ .f32 0x00000000#32),
    binary main_v18 main_cst_5 main_v22 ((fun x v => Host.reduceAdd x v reducesTo_S16x6x512x512_S16x6_d2_3 h_S_) : (⟨S16x6x512x512, .f32⟩ : BufTy).Contents (Elt F) → (⟨S_, .f32⟩ : BufTy).Contents (Elt F) → (⟨S16x6, .f32⟩ : BufTy).Contents (Elt F)),
    nullary main_cst_6 (constant S_ .f32 0x00000000#32),
    binary main_v19 main_cst_6 main_v23 ((fun x v => Host.reduceAdd x v reducesTo_S16x6x512x512_S16x6_d2_3 h_S_) : (⟨S16x6x512x512, .f32⟩ : BufTy).Contents (Elt F) → (⟨S_, .f32⟩ : BufTy).Contents (Elt F) → (⟨S16x6, .f32⟩ : BufTy).Contents (Elt F)),
    binary main_v22 main_v23 main_v24 (addf : (⟨S16x6, .f32⟩ : BufTy).Contents (Elt F) → (⟨S16x6, .f32⟩ : BufTy).Contents (Elt F) → (⟨S16x6, .f32⟩ : BufTy).Contents (Elt F)),
    binary main_v22 main_v22 main_v25 (mulf : (⟨S16x6, .f32⟩ : BufTy).Contents (Elt F) → (⟨S16x6, .f32⟩ : BufTy).Contents (Elt F) → (⟨S16x6, .f32⟩ : BufTy).Contents (Elt F)),
    nullary main_cst_7 (constant S_ .f32 0x3F800000#32),
    unary main_cst_7 main_v26 (broadcastInDim S16x6 ![] bcast_S_S16x6 : (⟨S_, .f32⟩ : BufTy).Contents (Elt F) → (⟨S16x6, .f32⟩ : BufTy).Contents (Elt F)),
    binary main_v26 main_v25 main_v27 (Host.divf : (⟨S16x6, .f32⟩ : BufTy).Contents (Elt F) → (⟨S16x6, .f32⟩ : BufTy).Contents (Elt F) → (⟨S16x6, .f32⟩ : BufTy).Contents (Elt F)),
    unary main_v27 main_call4_v0 (Host.absf : (⟨S16x6, .f32⟩ : BufTy).Contents (Elt F) → (⟨S16x6, .f32⟩ : BufTy).Contents (Elt F)),
    nullary main_call4_cst (constant S_ .f32 0x7F800000#32),
    unary main_call4_cst main_call4_v1 ((broadcastInDim S16x6 ![] bcast_S_S16x6) : (⟨S_, .f32⟩ : BufTy).Contents (Elt F) → (⟨S16x6, .f32⟩ : BufTy).Contents (Elt F)),
    binary main_call4_v0 main_call4_v1 main_v28 ((cmpf (F := F) .oeq) : (⟨S16x6, .f32⟩ : BufTy).Contents (Elt F) → (⟨S16x6, .f32⟩ : BufTy).Contents (Elt F) → (⟨S16x6, .i1⟩ : BufTy).Contents (Elt F)),
    nullary main_cst_8 (constant S_ .f32 0x00000000#32),
    unary main_cst_8 main_v29 (broadcastInDim S16x6 ![] bcast_S_S16x6 : (⟨S_, .f32⟩ : BufTy).Contents (Elt F) → (⟨S16x6, .f32⟩ : BufTy).Contents (Elt F)),
    ternary main_v28 main_v29 main_v27 main_v30 (select : (⟨S16x6, .i1⟩ : BufTy).Contents (Elt F) → (⟨S16x6, .f32⟩ : BufTy).Contents (Elt F) → (⟨S16x6, .f32⟩ : BufTy).Contents (Elt F) → (⟨S16x6, .f32⟩ : BufTy).Contents (Elt F)),
    nullary main_cst_9 (constant S_ .f32 0xFF800000#32),
    binary main_v30 main_cst_9 main_v31 ((fun x v => Host.reduce FloatOps.maximumf x v reducesTo_S16x6_S16_d1 h_S_) : (⟨S16x6, .f32⟩ : BufTy).Contents (Elt F) → (⟨S_, .f32⟩ : BufTy).Contents (Elt F) → (⟨S16, .f32⟩ : BufTy).Contents (Elt F)),
    unary main_v31 main_v32 (broadcastInDim S16x1 ![0] bcast_S16_S16x1_0 : (⟨S16, .f32⟩ : BufTy).Contents (Elt F) → (⟨S16x1, .f32⟩ : BufTy).Contents (Elt F)),
    unary main_v32 main_call6_v0 ((broadcastInDim S16x6 ![0, 1] bcast_S16x1_S16x6_0_1) : (⟨S16x1, .f32⟩ : BufTy).Contents (Elt F) → (⟨S16x6, .f32⟩ : BufTy).Contents (Elt F)),
    ternary main_v28 main_call6_v0 main_v30 main_v33 (select : (⟨S16x6, .i1⟩ : BufTy).Contents (Elt F) → (⟨S16x6, .f32⟩ : BufTy).Contents (Elt F) → (⟨S16x6, .f32⟩ : BufTy).Contents (Elt F) → (⟨S16x6, .f32⟩ : BufTy).Contents (Elt F)),
    binary main_v21 main_v33 main_v34 (mulf : (⟨S16x6, .f32⟩ : BufTy).Contents (Elt F) → (⟨S16x6, .f32⟩ : BufTy).Contents (Elt F) → (⟨S16x6, .f32⟩ : BufTy).Contents (Elt F)),
    nullary main_cst_10 (constant S_ .f32 0x00000000#32),
    binary main_v34 main_cst_10 main_v35 ((fun x v => Host.reduceAdd x v reducesTo_S16x6_S6_d0 h_S_) : (⟨S16x6, .f32⟩ : BufTy).Contents (Elt F) → (⟨S_, .f32⟩ : BufTy).Contents (Elt F) → (⟨S6, .f32⟩ : BufTy).Contents (Elt F)),
    nullary main_cst_11 (constant S_ .f32 0x40000000#32),
    unary main_cst_11 main_v36 (broadcastInDim S6 ![] bcast_S_S6 : (⟨S_, .f32⟩ : BufTy).Contents (Elt F) → (⟨S6, .f32⟩ : BufTy).Contents (Elt F)),
    binary main_v36 main_v35 main_v37 (mulf : (⟨S6, .f32⟩ : BufTy).Contents (Elt F) → (⟨S6, .f32⟩ : BufTy).Contents (Elt F) → (⟨S6, .f32⟩ : BufTy).Contents (Elt F)),
    nullary main_cst_12 (constant S_ .f32 0x3727C5AC#32),
    unary main_cst_12 main_v38 (broadcastInDim S6 ![] bcast_S_S6 : (⟨S_, .f32⟩ : BufTy).Contents (Elt F) → (⟨S6, .f32⟩ : BufTy).Contents (Elt F)),
    binary main_v37 main_v38 main_v39 (addf : (⟨S6, .f32⟩ : BufTy).Contents (Elt F) → (⟨S6, .f32⟩ : BufTy).Contents (Elt F) → (⟨S6, .f32⟩ : BufTy).Contents (Elt F)),
    binary main_v24 main_v33 main_v40 (mulf : (⟨S16x6, .f32⟩ : BufTy).Contents (Elt F) → (⟨S16x6, .f32⟩ : BufTy).Contents (Elt F) → (⟨S16x6, .f32⟩ : BufTy).Contents (Elt F)),
    nullary main_cst_13 (constant S_ .f32 0x00000000#32),
    binary main_v40 main_cst_13 main_v41 ((fun x v => Host.reduceAdd x v reducesTo_S16x6_S6_d0 h_S_) : (⟨S16x6, .f32⟩ : BufTy).Contents (Elt F) → (⟨S_, .f32⟩ : BufTy).Contents (Elt F) → (⟨S6, .f32⟩ : BufTy).Contents (Elt F)),
    nullary main_cst_14 (constant S_ .f32 0x3727C5AC#32),
    unary main_cst_14 main_v42 (broadcastInDim S6 ![] bcast_S_S6 : (⟨S_, .f32⟩ : BufTy).Contents (Elt F) → (⟨S6, .f32⟩ : BufTy).Contents (Elt F)),
    binary main_v41 main_v42 main_v43 (addf : (⟨S6, .f32⟩ : BufTy).Contents (Elt F) → (⟨S6, .f32⟩ : BufTy).Contents (Elt F) → (⟨S6, .f32⟩ : BufTy).Contents (Elt F)),
    binary main_v39 main_v43 main_v44 (Host.divf : (⟨S6, .f32⟩ : BufTy).Contents (Elt F) → (⟨S6, .f32⟩ : BufTy).Contents (Elt F) → (⟨S6, .f32⟩ : BufTy).Contents (Elt F)),
    nullary main_cst_15 (constant S_ .f32 0x3F800000#32),
    unary main_cst_15 main_v45 (broadcastInDim S6 ![] bcast_S_S6 : (⟨S_, .f32⟩ : BufTy).Contents (Elt F) → (⟨S6, .f32⟩ : BufTy).Contents (Elt F)),
    binary main_v45 main_v44 main_v46 (subf : (⟨S6, .f32⟩ : BufTy).Contents (Elt F) → (⟨S6, .f32⟩ : BufTy).Contents (Elt F) → (⟨S6, .f32⟩ : BufTy).Contents (Elt F)),
    nullary main_cst_16 (constant S_ .f32 0x00000000#32),
    binary main_v46 main_cst_16 main_v47 ((fun x v => Host.reduceAdd x v reducesTo_S6_S_d0 h_S_) : (⟨S6, .f32⟩ : BufTy).Contents (Elt F) → (⟨S_, .f32⟩ : BufTy).Contents (Elt F) → (⟨S_, .f32⟩ : BufTy).Contents (Elt F)),
    nullary main_cst_17 (constant S_ .f32 0x40C00000#32),
    binary main_v47 main_cst_17 main_v48 (Host.divf : (⟨S_, .f32⟩ : BufTy).Contents (Elt F) → (⟨S_, .f32⟩ : BufTy).Contents (Elt F) → (⟨S_, .f32⟩ : BufTy).Contents (Elt F)),
    binary main_v48 main_v11 main_v49 (addf : (⟨S_, .f32⟩ : BufTy).Contents (Elt F) → (⟨S_, .f32⟩ : BufTy).Contents (Elt F) → (⟨S_, .f32⟩ : BufTy).Contents (Elt F)) ]

/-- The log-softmax: operations 1 to 15. -/
abbrev opsSoftmax : List (HloOp τ sig (Elt F)) :=
  [ nullary main_call0_cst (constant S_ .f32 0xFF800000#32),
    binary main_arg0 main_call0_cst main_call0_v0 ((fun x v => Host.reduce FloatOps.maximumf x v reducesTo_S16x6x512x512_S16x512x512_d1 h_S_) : (⟨S16x6x512x512, .f32⟩ : BufTy).Contents (Elt F) → (⟨S_, .f32⟩ : BufTy).Contents (Elt F) → (⟨S16x512x512, .f32⟩ : BufTy).Contents (Elt F)),
    nullary main_call0_cst_0 (constant S_ .f32 0xFF800000#32),
    unary main_call0_cst_0 main_call0_v1 ((broadcastInDim S16x512x512 ![] bcast_S_S16x512x512) : (⟨S_, .f32⟩ : BufTy).Contents (Elt F) → (⟨S16x512x512, .f32⟩ : BufTy).Contents (Elt F)),
    binary main_call0_v1 main_call0_v0 main_call0_v2 (maximumf : (⟨S16x512x512, .f32⟩ : BufTy).Contents (Elt F) → (⟨S16x512x512, .f32⟩ : BufTy).Contents (Elt F) → (⟨S16x512x512, .f32⟩ : BufTy).Contents (Elt F)),
    unary main_call0_v2 main_call0_v3 ((broadcastInDim S16x1x512x512 ![0, 2, 3] bcast_S16x512x512_S16x1x512x512_0_2_3) : (⟨S16x512x512, .f32⟩ : BufTy).Contents (Elt F) → (⟨S16x1x512x512, .f32⟩ : BufTy).Contents (Elt F)),
    unary main_call0_v3 main_call0_v4 ((broadcastInDim S16x6x512x512 ![0, 1, 2, 3] bcast_S16x1x512x512_S16x6x512x512_0_1_2_3) : (⟨S16x1x512x512, .f32⟩ : BufTy).Contents (Elt F) → (⟨S16x6x512x512, .f32⟩ : BufTy).Contents (Elt F)),
    binary main_arg0 main_call0_v4 main_call0_v5 (subf : (⟨S16x6x512x512, .f32⟩ : BufTy).Contents (Elt F) → (⟨S16x6x512x512, .f32⟩ : BufTy).Contents (Elt F) → (⟨S16x6x512x512, .f32⟩ : BufTy).Contents (Elt F)),
    unary main_call0_v5 main_call0_v6 (Host.exp : (⟨S16x6x512x512, .f32⟩ : BufTy).Contents (Elt F) → (⟨S16x6x512x512, .f32⟩ : BufTy).Contents (Elt F)),
    nullary main_call0_cst_1 (constant S_ .f32 0x00000000#32),
    binary main_call0_v6 main_call0_cst_1 main_call0_v7 ((fun x v => Host.reduceAdd x v reducesTo_S16x6x512x512_S16x512x512_d1 h_S_) : (⟨S16x6x512x512, .f32⟩ : BufTy).Contents (Elt F) → (⟨S_, .f32⟩ : BufTy).Contents (Elt F) → (⟨S16x512x512, .f32⟩ : BufTy).Contents (Elt F)),
    unary main_call0_v7 main_call0_v8 ((broadcastInDim S16x1x512x512 ![0, 2, 3] bcast_S16x512x512_S16x1x512x512_0_2_3) : (⟨S16x512x512, .f32⟩ : BufTy).Contents (Elt F) → (⟨S16x1x512x512, .f32⟩ : BufTy).Contents (Elt F)),
    unary main_call0_v8 main_call0_v9 (Host.log : (⟨S16x1x512x512, .f32⟩ : BufTy).Contents (Elt F) → (⟨S16x1x512x512, .f32⟩ : BufTy).Contents (Elt F)),
    unary main_call0_v9 main_call0_v10 ((broadcastInDim S16x6x512x512 ![0, 1, 2, 3] bcast_S16x1x512x512_S16x6x512x512_0_1_2_3) : (⟨S16x1x512x512, .f32⟩ : BufTy).Contents (Elt F) → (⟨S16x6x512x512, .f32⟩ : BufTy).Contents (Elt F)),
    binary main_call0_v5 main_call0_v10 main_v0 (subf : (⟨S16x6x512x512, .f32⟩ : BufTy).Contents (Elt F) → (⟨S16x6x512x512, .f32⟩ : BufTy).Contents (Elt F) → (⟨S16x6x512x512, .f32⟩ : BufTy).Contents (Elt F)) ]

/-- The clipped label, the gather and the pixel loss: operations 16 to 58. -/
abbrev opsPixel : List (HloOp τ sig (Elt F)) :=
  [ nullary main_c (constantI S_ 32 4294967295#32),
    unary main_c main_v1 (broadcastInDim S16x512x512 ![] bcast_S_S16x512x512 : (⟨S_, .i32⟩ : BufTy).Contents (Elt F) → (⟨S16x512x512, .i32⟩ : BufTy).Contents (Elt F)),
    binary main_arg1 main_v1 main_v2 (cmpi .ne : (⟨S16x512x512, .i32⟩ : BufTy).Contents (Elt F) → (⟨S16x512x512, .i32⟩ : BufTy).Contents (Elt F) → (⟨S16x512x512, .i1⟩ : BufTy).Contents (Elt F)),
    nullary main_c_0 (constantI S_ 32 0#32),
    nullary main_c_1 (constantI S_ 32 5#32),
    unary main_c_0 main_call1_v0 (id : (⟨S_, .i32⟩ : BufTy).Contents (Elt F) → (⟨S_, .i32⟩ : BufTy).Contents (Elt F)),
    unary main_call1_v0 main_call1_v1 ((broadcastInDim S16x512x512 ![] bcast_S_S16x512x512) : (⟨S_, .i32⟩ : BufTy).Contents (Elt F) → (⟨S16x512x512, .i32⟩ : BufTy).Contents (Elt F)),
    binary main_call1_v1 main_arg1 main_call1_v2 (maxsi : (⟨S16x512x512, .i32⟩ : BufTy).Contents (Elt F) → (⟨S16x512x512, .i32⟩ : BufTy).Contents (Elt F) → (⟨S16x512x512, .i32⟩ : BufTy).Contents (Elt F)),
    unary main_c_1 main_call1_v3 (id : (⟨S_, .i32⟩ : BufTy).Contents (Elt F) → (⟨S_, .i32⟩ : BufTy).Contents (Elt F)),
    unary main_call1_v3 main_call1_v4 ((broadcastInDim S16x512x512 ![] bcast_S_S16x512x512) : (⟨S_, .i32⟩ : BufTy).Contents (Elt F) → (⟨S16x512x512, .i32⟩ : BufTy).Contents (Elt F)),
    binary main_call1_v4 main_call1_v2 main_v3 (minsi : (⟨S16x512x512, .i32⟩ : BufTy).Contents (Elt F) → (⟨S16x512x512, .i32⟩ : BufTy).Contents (Elt F) → (⟨S16x512x512, .i32⟩ : BufTy).Contents (Elt F)),
    unary main_v3 main_v4 (broadcastInDim S16x1x512x512 ![0, 2, 3] bcast_S16x512x512_S16x1x512x512_0_2_3 : (⟨S16x512x512, .i32⟩ : BufTy).Contents (Elt F) → (⟨S16x1x512x512, .i32⟩ : BufTy).Contents (Elt F)),
    nullary main_call2_c (constantI S_ 32 0#32),
    unary main_call2_c main_call2_v0 ((broadcastInDim S16x1x512x512 ![] bcast_S_S16x1x512x512) : (⟨S_, .i32⟩ : BufTy).Contents (Elt F) → (⟨S16x1x512x512, .i32⟩ : BufTy).Contents (Elt F)),
    binary main_v4 main_call2_v0 main_call2_v1 ((cmpi .slt) : (⟨S16x1x512x512, .i32⟩ : BufTy).Contents (Elt F) → (⟨S16x1x512x512, .i32⟩ : BufTy).Contents (Elt F) → (⟨S16x1x512x512, .i1⟩ : BufTy).Contents (Elt F)),
    nullary main_call2_c_0 (constantI S_ 32 6#32),
    unary main_call2_c_0 main_call2_v2 ((broadcastInDim S16x1x512x512 ![] bcast_S_S16x1x512x512) : (⟨S_, .i32⟩ : BufTy).Contents (Elt F) → (⟨S16x1x512x512, .i32⟩ : BufTy).Contents (Elt F)),
    binary main_v4 main_call2_v2 main_call2_v3 (addi : (⟨S16x1x512x512, .i32⟩ : BufTy).Contents (Elt F) → (⟨S16x1x512x512, .i32⟩ : BufTy).Contents (Elt F) → (⟨S16x1x512x512, .i32⟩ : BufTy).Contents (Elt F)),
    ternary main_call2_v1 main_call2_v3 main_v4 main_call2_v4 (select : (⟨S16x1x512x512, .i1⟩ : BufTy).Contents (Elt F) → (⟨S16x1x512x512, .i32⟩ : BufTy).Contents (Elt F) → (⟨S16x1x512x512, .i32⟩ : BufTy).Contents (Elt F) → (⟨S16x1x512x512, .i32⟩ : BufTy).Contents (Elt F)),
    reshape main_call2_v4 main_call2_v5 rfl shapeCasts_S16x1x512x512_S16x1x512x512x1,
    nullary main_call2_c_1 (constantI S1 32 5#32),
    nullary main_call2_c_2 (constantI S_ 32 0#32),
    unary main_call2_c_2 main_call2_v6 ((broadcastInDim S16x1x512x512x1 ![] bcast_S_S16x1x512x512x1) : (⟨S_, .i32⟩ : BufTy).Contents (Elt F) → (⟨S16x1x512x512x1, .i32⟩ : BufTy).Contents (Elt F)),
    binary main_call2_v5 main_call2_v6 main_call2_v7 ((cmpi .sge) : (⟨S16x1x512x512x1, .i32⟩ : BufTy).Contents (Elt F) → (⟨S16x1x512x512x1, .i32⟩ : BufTy).Contents (Elt F) → (⟨S16x1x512x512x1, .i1⟩ : BufTy).Contents (Elt F)),
    unary main_call2_c_1 main_call2_v8 ((broadcastInDim S1x1x1x1x1 ![4] bcast_S1_S1x1x1x1x1_4) : (⟨S1, .i32⟩ : BufTy).Contents (Elt F) → (⟨S1x1x1x1x1, .i32⟩ : BufTy).Contents (Elt F)),
    unary main_call2_v8 main_call2_v9 ((broadcastInDim S16x1x512x512x1 ![0, 1, 2, 3, 4] bcast_S1x1x1x1x1_S16x1x512x512x1_0_1_2_3_4) : (⟨S1x1x1x1x1, .i32⟩ : BufTy).Contents (Elt F) → (⟨S16x1x512x512x1, .i32⟩ : BufTy).Contents (Elt F)),
    binary main_call2_v5 main_call2_v9 main_call2_v10 ((cmpi .sle) : (⟨S16x1x512x512x1, .i32⟩ : BufTy).Contents (Elt F) → (⟨S16x1x512x512x1, .i32⟩ : BufTy).Contents (Elt F) → (⟨S16x1x512x512x1, .i1⟩ : BufTy).Contents (Elt F)),
    binary main_call2_v7 main_call2_v10 main_call2_v11 (andi : (⟨S16x1x512x512x1, .i1⟩ : BufTy).Contents (Elt F) → (⟨S16x1x512x512x1, .i1⟩ : BufTy).Contents (Elt F) → (⟨S16x1x512x512x1, .i1⟩ : BufTy).Contents (Elt F)),
    nullary main_call2_c_3 (constantI S_ 1 1#1),
    binary main_call2_v11 main_call2_c_3 main_call2_v12 ((fun x v => Host.reduce IntOp.andi x v reducesTo_S16x1x512x512x1_S16x1x512x512_d4 h_S_) : (⟨S16x1x512x512x1, .i1⟩ : BufTy).Contents (Elt F) → (⟨S_, .i1⟩ : BufTy).Contents (Elt F) → (⟨S16x1x512x512, .i1⟩ : BufTy).Contents (Elt F)),
    binary main_v0 main_call2_v5 main_call2_v13 ((fun x i => Host.gather gather_S16x6x512x512_S16x1x512x512x1_S16x1x512x512_n_1_023_023_1_4_1111 x i) : (⟨S16x6x512x512, .f32⟩ : BufTy).Contents (Elt F) → (⟨S16x1x512x512x1, .i32⟩ : BufTy).Contents (Elt F) → (⟨S16x1x512x512, .f32⟩ : BufTy).Contents (Elt F)),
    nullary main_call2_cst (constant S_ .f32 0x7FC00000#32),
    unary main_call2_cst main_call2_v14 ((broadcastInDim S16x1x512x512 ![] bcast_S_S16x1x512x512) : (⟨S_, .f32⟩ : BufTy).Contents (Elt F) → (⟨S16x1x512x512, .f32⟩ : BufTy).Contents (Elt F)),
    ternary main_call2_v12 main_call2_v13 main_call2_v14 main_v5 (select : (⟨S16x1x512x512, .i1⟩ : BufTy).Contents (Elt F) → (⟨S16x1x512x512, .f32⟩ : BufTy).Contents (Elt F) → (⟨S16x1x512x512, .f32⟩ : BufTy).Contents (Elt F) → (⟨S16x1x512x512, .f32⟩ : BufTy).Contents (Elt F)),
    reshape main_v5 main_v6 rfl shapeCasts_S16x1x512x512_S16x512x512,
    unary main_v6 main_v7 (Host.negf : (⟨S16x512x512, .f32⟩ : BufTy).Contents (Elt F) → (⟨S16x512x512, .f32⟩ : BufTy).Contents (Elt F)),
    nullary main_cst (constant S_ .f32 0x00000000#32),
    unary main_cst main_v8 (broadcastInDim S16x512x512 ![] bcast_S_S16x512x512 : (⟨S_, .f32⟩ : BufTy).Contents (Elt F) → (⟨S16x512x512, .f32⟩ : BufTy).Contents (Elt F)),
    ternary main_v2 main_v7 main_v8 main_v9 (select : (⟨S16x512x512, .i1⟩ : BufTy).Contents (Elt F) → (⟨S16x512x512, .f32⟩ : BufTy).Contents (Elt F) → (⟨S16x512x512, .f32⟩ : BufTy).Contents (Elt F) → (⟨S16x512x512, .f32⟩ : BufTy).Contents (Elt F)),
    nullary main_cst_2 (constant S_ .f32 0x00000000#32),
    binary main_v9 main_cst_2 main_v10 ((fun x v => Host.reduceAdd x v reducesTo_S16x512x512_S_d0_1_2 h_S_) : (⟨S16x512x512, .f32⟩ : BufTy).Contents (Elt F) → (⟨S_, .f32⟩ : BufTy).Contents (Elt F) → (⟨S_, .f32⟩ : BufTy).Contents (Elt F)),
    nullary main_cst_3 (constant S_ .f32 0x4A800000#32),
    binary main_v10 main_cst_3 main_v11 (Host.divf : (⟨S_, .f32⟩ : BufTy).Contents (Elt F) → (⟨S_, .f32⟩ : BufTy).Contents (Elt F) → (⟨S_, .f32⟩ : BufTy).Contents (Elt F)) ]

/-- The one-hot weights, the probabilities and the three sums: operations 59 to 73. -/
abbrev opsSums : List (HloOp τ sig (Elt F)) :=
  [ unary main_arg1 main_v12 (broadcastInDim S16x1x512x512 ![0, 2, 3] bcast_S16x512x512_S16x1x512x512_0_2_3 : (⟨S16x512x512, .i32⟩ : BufTy).Contents (Elt F) → (⟨S16x1x512x512, .i32⟩ : BufTy).Contents (Elt F)),
    nullary main_v13 (iotaInDim S6 32 0),
    unary main_v13 main_v14 (broadcastInDim S1x6x1x1 ![1] bcast_S6_S1x6x1x1_1 : (⟨S6, .i32⟩ : BufTy).Contents (Elt F) → (⟨S1x6x1x1, .i32⟩ : BufTy).Contents (Elt F)),
    unary main_v12 main_v15 (broadcastInDim S16x6x512x512 ![0, 1, 2, 3] bcast_S16x1x512x512_S16x6x512x512_0_1_2_3 : (⟨S16x1x512x512, .i32⟩ : BufTy).Contents (Elt F) → (⟨S16x6x512x512, .i32⟩ : BufTy).Contents (Elt F)),
    unary main_v14 main_v16 (broadcastInDim S16x6x512x512 ![0, 1, 2, 3] bcast_S1x6x1x1_S16x6x512x512_0_1_2_3 : (⟨S1x6x1x1, .i32⟩ : BufTy).Contents (Elt F) → (⟨S16x6x512x512, .i32⟩ : BufTy).Contents (Elt F)),
    binary main_v15 main_v16 main_v17 (cmpi .eq : (⟨S16x6x512x512, .i32⟩ : BufTy).Contents (Elt F) → (⟨S16x6x512x512, .i32⟩ : BufTy).Contents (Elt F) → (⟨S16x6x512x512, .i1⟩ : BufTy).Contents (Elt F)),
    unary main_v17 main_v18 (uitofp (F := F) .f32 : (⟨S16x6x512x512, .i1⟩ : BufTy).Contents (Elt F) → (⟨S16x6x512x512, .f32⟩ : BufTy).Contents (Elt F)),
    unary main_v0 main_v19 (Host.exp : (⟨S16x6x512x512, .f32⟩ : BufTy).Contents (Elt F) → (⟨S16x6x512x512, .f32⟩ : BufTy).Contents (Elt F)),
    binary main_v18 main_v19 main_v20 (mulf : (⟨S16x6x512x512, .f32⟩ : BufTy).Contents (Elt F) → (⟨S16x6x512x512, .f32⟩ : BufTy).Contents (Elt F) → (⟨S16x6x512x512, .f32⟩ : BufTy).Contents (Elt F)),
    nullary main_cst_4 (constant S_ .f32 0x00000000#32),
    binary main_v20 main_cst_4 main_v21 ((fun x v => Host.reduceAdd x v reducesTo_S16x6x512x512_S16x6_d2_3 h_S_) : (⟨S16x6x512x512, .f32⟩ : BufTy).Contents (Elt F) → (⟨S_, .f32⟩ : BufTy).Contents (Elt F) → (⟨S16x6, .f32⟩ : BufTy).Contents (Elt F)),
    nullary main_cst_5 (constant S_ .f32 0x00000000#32),
    binary main_v18 main_cst_5 main_v22 ((fun x v => Host.reduceAdd x v reducesTo_S16x6x512x512_S16x6_d2_3 h_S_) : (⟨S16x6x512x512, .f32⟩ : BufTy).Contents (Elt F) → (⟨S_, .f32⟩ : BufTy).Contents (Elt F) → (⟨S16x6, .f32⟩ : BufTy).Contents (Elt F)),
    nullary main_cst_6 (constant S_ .f32 0x00000000#32),
    binary main_v19 main_cst_6 main_v23 ((fun x v => Host.reduceAdd x v reducesTo_S16x6x512x512_S16x6_d2_3 h_S_) : (⟨S16x6x512x512, .f32⟩ : BufTy).Contents (Elt F) → (⟨S_, .f32⟩ : BufTy).Contents (Elt F) → (⟨S16x6, .f32⟩ : BufTy).Contents (Elt F)) ]

/-- The operations on the [16, 6] sums: operations 74 to 114. -/
abbrev opsTail : List (HloOp τ sig (Elt F)) :=
  [ binary main_v22 main_v23 main_v24 (addf : (⟨S16x6, .f32⟩ : BufTy).Contents (Elt F) → (⟨S16x6, .f32⟩ : BufTy).Contents (Elt F) → (⟨S16x6, .f32⟩ : BufTy).Contents (Elt F)),
    binary main_v22 main_v22 main_v25 (mulf : (⟨S16x6, .f32⟩ : BufTy).Contents (Elt F) → (⟨S16x6, .f32⟩ : BufTy).Contents (Elt F) → (⟨S16x6, .f32⟩ : BufTy).Contents (Elt F)),
    nullary main_cst_7 (constant S_ .f32 0x3F800000#32),
    unary main_cst_7 main_v26 (broadcastInDim S16x6 ![] bcast_S_S16x6 : (⟨S_, .f32⟩ : BufTy).Contents (Elt F) → (⟨S16x6, .f32⟩ : BufTy).Contents (Elt F)),
    binary main_v26 main_v25 main_v27 (Host.divf : (⟨S16x6, .f32⟩ : BufTy).Contents (Elt F) → (⟨S16x6, .f32⟩ : BufTy).Contents (Elt F) → (⟨S16x6, .f32⟩ : BufTy).Contents (Elt F)),
    unary main_v27 main_call4_v0 (Host.absf : (⟨S16x6, .f32⟩ : BufTy).Contents (Elt F) → (⟨S16x6, .f32⟩ : BufTy).Contents (Elt F)),
    nullary main_call4_cst (constant S_ .f32 0x7F800000#32),
    unary main_call4_cst main_call4_v1 ((broadcastInDim S16x6 ![] bcast_S_S16x6) : (⟨S_, .f32⟩ : BufTy).Contents (Elt F) → (⟨S16x6, .f32⟩ : BufTy).Contents (Elt F)),
    binary main_call4_v0 main_call4_v1 main_v28 ((cmpf (F := F) .oeq) : (⟨S16x6, .f32⟩ : BufTy).Contents (Elt F) → (⟨S16x6, .f32⟩ : BufTy).Contents (Elt F) → (⟨S16x6, .i1⟩ : BufTy).Contents (Elt F)),
    nullary main_cst_8 (constant S_ .f32 0x00000000#32),
    unary main_cst_8 main_v29 (broadcastInDim S16x6 ![] bcast_S_S16x6 : (⟨S_, .f32⟩ : BufTy).Contents (Elt F) → (⟨S16x6, .f32⟩ : BufTy).Contents (Elt F)),
    ternary main_v28 main_v29 main_v27 main_v30 (select : (⟨S16x6, .i1⟩ : BufTy).Contents (Elt F) → (⟨S16x6, .f32⟩ : BufTy).Contents (Elt F) → (⟨S16x6, .f32⟩ : BufTy).Contents (Elt F) → (⟨S16x6, .f32⟩ : BufTy).Contents (Elt F)),
    nullary main_cst_9 (constant S_ .f32 0xFF800000#32),
    binary main_v30 main_cst_9 main_v31 ((fun x v => Host.reduce FloatOps.maximumf x v reducesTo_S16x6_S16_d1 h_S_) : (⟨S16x6, .f32⟩ : BufTy).Contents (Elt F) → (⟨S_, .f32⟩ : BufTy).Contents (Elt F) → (⟨S16, .f32⟩ : BufTy).Contents (Elt F)),
    unary main_v31 main_v32 (broadcastInDim S16x1 ![0] bcast_S16_S16x1_0 : (⟨S16, .f32⟩ : BufTy).Contents (Elt F) → (⟨S16x1, .f32⟩ : BufTy).Contents (Elt F)),
    unary main_v32 main_call6_v0 ((broadcastInDim S16x6 ![0, 1] bcast_S16x1_S16x6_0_1) : (⟨S16x1, .f32⟩ : BufTy).Contents (Elt F) → (⟨S16x6, .f32⟩ : BufTy).Contents (Elt F)),
    ternary main_v28 main_call6_v0 main_v30 main_v33 (select : (⟨S16x6, .i1⟩ : BufTy).Contents (Elt F) → (⟨S16x6, .f32⟩ : BufTy).Contents (Elt F) → (⟨S16x6, .f32⟩ : BufTy).Contents (Elt F) → (⟨S16x6, .f32⟩ : BufTy).Contents (Elt F)),
    binary main_v21 main_v33 main_v34 (mulf : (⟨S16x6, .f32⟩ : BufTy).Contents (Elt F) → (⟨S16x6, .f32⟩ : BufTy).Contents (Elt F) → (⟨S16x6, .f32⟩ : BufTy).Contents (Elt F)),
    nullary main_cst_10 (constant S_ .f32 0x00000000#32),
    binary main_v34 main_cst_10 main_v35 ((fun x v => Host.reduceAdd x v reducesTo_S16x6_S6_d0 h_S_) : (⟨S16x6, .f32⟩ : BufTy).Contents (Elt F) → (⟨S_, .f32⟩ : BufTy).Contents (Elt F) → (⟨S6, .f32⟩ : BufTy).Contents (Elt F)),
    nullary main_cst_11 (constant S_ .f32 0x40000000#32),
    unary main_cst_11 main_v36 (broadcastInDim S6 ![] bcast_S_S6 : (⟨S_, .f32⟩ : BufTy).Contents (Elt F) → (⟨S6, .f32⟩ : BufTy).Contents (Elt F)),
    binary main_v36 main_v35 main_v37 (mulf : (⟨S6, .f32⟩ : BufTy).Contents (Elt F) → (⟨S6, .f32⟩ : BufTy).Contents (Elt F) → (⟨S6, .f32⟩ : BufTy).Contents (Elt F)),
    nullary main_cst_12 (constant S_ .f32 0x3727C5AC#32),
    unary main_cst_12 main_v38 (broadcastInDim S6 ![] bcast_S_S6 : (⟨S_, .f32⟩ : BufTy).Contents (Elt F) → (⟨S6, .f32⟩ : BufTy).Contents (Elt F)),
    binary main_v37 main_v38 main_v39 (addf : (⟨S6, .f32⟩ : BufTy).Contents (Elt F) → (⟨S6, .f32⟩ : BufTy).Contents (Elt F) → (⟨S6, .f32⟩ : BufTy).Contents (Elt F)),
    binary main_v24 main_v33 main_v40 (mulf : (⟨S16x6, .f32⟩ : BufTy).Contents (Elt F) → (⟨S16x6, .f32⟩ : BufTy).Contents (Elt F) → (⟨S16x6, .f32⟩ : BufTy).Contents (Elt F)),
    nullary main_cst_13 (constant S_ .f32 0x00000000#32),
    binary main_v40 main_cst_13 main_v41 ((fun x v => Host.reduceAdd x v reducesTo_S16x6_S6_d0 h_S_) : (⟨S16x6, .f32⟩ : BufTy).Contents (Elt F) → (⟨S_, .f32⟩ : BufTy).Contents (Elt F) → (⟨S6, .f32⟩ : BufTy).Contents (Elt F)),
    nullary main_cst_14 (constant S_ .f32 0x3727C5AC#32),
    unary main_cst_14 main_v42 (broadcastInDim S6 ![] bcast_S_S6 : (⟨S_, .f32⟩ : BufTy).Contents (Elt F) → (⟨S6, .f32⟩ : BufTy).Contents (Elt F)),
    binary main_v41 main_v42 main_v43 (addf : (⟨S6, .f32⟩ : BufTy).Contents (Elt F) → (⟨S6, .f32⟩ : BufTy).Contents (Elt F) → (⟨S6, .f32⟩ : BufTy).Contents (Elt F)),
    binary main_v39 main_v43 main_v44 (Host.divf : (⟨S6, .f32⟩ : BufTy).Contents (Elt F) → (⟨S6, .f32⟩ : BufTy).Contents (Elt F) → (⟨S6, .f32⟩ : BufTy).Contents (Elt F)),
    nullary main_cst_15 (constant S_ .f32 0x3F800000#32),
    unary main_cst_15 main_v45 (broadcastInDim S6 ![] bcast_S_S6 : (⟨S_, .f32⟩ : BufTy).Contents (Elt F) → (⟨S6, .f32⟩ : BufTy).Contents (Elt F)),
    binary main_v45 main_v44 main_v46 (subf : (⟨S6, .f32⟩ : BufTy).Contents (Elt F) → (⟨S6, .f32⟩ : BufTy).Contents (Elt F) → (⟨S6, .f32⟩ : BufTy).Contents (Elt F)),
    nullary main_cst_16 (constant S_ .f32 0x00000000#32),
    binary main_v46 main_cst_16 main_v47 ((fun x v => Host.reduceAdd x v reducesTo_S6_S_d0 h_S_) : (⟨S6, .f32⟩ : BufTy).Contents (Elt F) → (⟨S_, .f32⟩ : BufTy).Contents (Elt F) → (⟨S_, .f32⟩ : BufTy).Contents (Elt F)),
    nullary main_cst_17 (constant S_ .f32 0x40C00000#32),
    binary main_v47 main_cst_17 main_v48 (Host.divf : (⟨S_, .f32⟩ : BufTy).Contents (Elt F) → (⟨S_, .f32⟩ : BufTy).Contents (Elt F) → (⟨S_, .f32⟩ : BufTy).Contents (Elt F)),
    binary main_v48 main_v11 main_v49 (addf : (⟨S_, .f32⟩ : BufTy).Contents (Elt F) → (⟨S_, .f32⟩ : BufTy).Contents (Elt F) → (⟨S_, .f32⟩ : BufTy).Contents (Elt F)) ]

/-- The two generic reductions among the callees' operations: with the reducing function held abstract, the typed
    builder is the untyped one. -/
theorem op1_eq : (TRef.binary (TRef.of (T := ⟨S16x6x512x512, .f32⟩) main_arg0) (TRef.of (T := ⟨S_, .f32⟩) main_call0_cst) (TRef.of (T := ⟨S16x512x512, .f32⟩) main_call0_v0) (fun x v => Host.reduce FloatOps.maximumf x v reducesTo_S16x6x512x512_S16x512x512_d1 h_S_) : HloOp τ sig (Elt F)) = binary main_arg0 main_call0_cst main_call0_v0 ((fun x v => Host.reduce FloatOps.maximumf x v reducesTo_S16x6x512x512_S16x512x512_d1 h_S_) : (⟨S16x6x512x512, .f32⟩ : BufTy).Contents (Elt F) → (⟨S_, .f32⟩ : BufTy).Contents (Elt F) → (⟨S16x512x512, .f32⟩ : BufTy).Contents (Elt F)) := by
  generalize (fun (x : (⟨S16x6x512x512, .f32⟩ : BufTy).Contents (Elt F)) (v : (⟨S_, .f32⟩ : BufTy).Contents (Elt F)) => Host.reduce FloatOps.maximumf x v reducesTo_S16x6x512x512_S16x512x512_d1 h_S_) = g
  rfl

theorem op44_eq : (TRef.binary (TRef.of (T := ⟨S16x1x512x512x1, .i1⟩) main_call2_v11) (TRef.of (T := ⟨S_, .i1⟩) main_call2_c_3) (TRef.of (T := ⟨S16x1x512x512, .i1⟩) main_call2_v12) (fun x v => Host.reduce IntOp.andi x v reducesTo_S16x1x512x512x1_S16x1x512x512_d4 h_S_) : HloOp τ sig (Elt F)) = binary main_call2_v11 main_call2_c_3 main_call2_v12 ((fun x v => Host.reduce IntOp.andi x v reducesTo_S16x1x512x512x1_S16x1x512x512_d4 h_S_) : (⟨S16x1x512x512x1, .i1⟩ : BufTy).Contents (Elt F) → (⟨S_, .i1⟩ : BufTy).Contents (Elt F) → (⟨S16x1x512x512, .i1⟩ : BufTy).Contents (Elt F)) := by
  generalize (fun (x : (⟨S16x1x512x512x1, .i1⟩ : BufTy).Contents (Elt F)) (v : (⟨S_, .i1⟩ : BufTy).Contents (Elt F)) => Host.reduce IntOp.andi x v reducesTo_S16x1x512x512x1_S16x1x512x512_d4 h_S_) = g
  rfl

set_option maxRecDepth 100000 in
/-- Operation by operation, the generated list is that list. -/
theorem ops_untyped : (ops : List (HloOp τ sig (Elt F))) = opsU := by
  refine congrArg₂ List.cons rfl ?_
  refine congrArg₂ List.cons op1_eq ?_
  iterate 42 (refine congrArg₂ List.cons rfl ?_)
  refine congrArg₂ List.cons op44_eq ?_
  iterate 69 (refine congrArg₂ List.cons rfl ?_)
  rfl

/-- And that list is the four stretches in order. -/
theorem opsU_eq : (opsU : List (HloOp τ sig (Elt F))) = opsSoftmax ++ (opsPixel ++ (opsSums ++ opsTail)) := rfl

/-! ## Each stretch read by itself -/

/-- The log-softmax stretch leaves the log-probabilities of the logits it finds, -/
theorem softmax_result (W : Valuation τ sig (Elt F)) :
    after opsSoftmax W (Proc.devRef .tc main_v0) = val_main_v0 (F := F) (W (Proc.devRef .tc main_arg0)) := by
  after_results_simp
  rfl
/-- and the labels where they were. -/
theorem softmax_keeps_labels (W : Valuation τ sig (Elt F)) :
    after opsSoftmax W (Proc.devRef .tc main_arg1) = W (Proc.devRef .tc main_arg1) := by
  after_results_simp

/-- The second stretch, from log-probabilities `val_main_v0 X` and labels `L`, leaves the pixel loss, -/
theorem pixel_result (W : Valuation τ sig (Elt F)) (X : (⟨S16x6x512x512, .f32⟩ : BufTy).Contents (Elt F))
    (L : (⟨S16x512x512, .i32⟩ : BufTy).Contents (Elt F))
    (h0 : W (Proc.devRef .tc main_v0) = val_main_v0 (F := F) X) (h1 : W (Proc.devRef .tc main_arg1) = L) :
    after opsPixel W (Proc.devRef .tc main_v11) = val_main_v11 (F := F) X L := by
  after_results_simp
  rw [h0, h1]
  rfl
/-- and the log-probabilities and the labels where they were. -/
theorem pixel_keeps_logp (W : Valuation τ sig (Elt F)) :
    after opsPixel W (Proc.devRef .tc main_v0) = W (Proc.devRef .tc main_v0) := by
  after_results_simp
theorem pixel_keeps_labels (W : Valuation τ sig (Elt F)) :
    after opsPixel W (Proc.devRef .tc main_arg1) = W (Proc.devRef .tc main_arg1) := by
  after_results_simp

/-- The third stretch leaves the three sums over the pixels, -/
theorem sums_inter (W : Valuation τ sig (Elt F)) (X : (⟨S16x6x512x512, .f32⟩ : BufTy).Contents (Elt F))
    (L : (⟨S16x512x512, .i32⟩ : BufTy).Contents (Elt F))
    (h0 : W (Proc.devRef .tc main_v0) = val_main_v0 (F := F) X) (h1 : W (Proc.devRef .tc main_arg1) = L) :
    after opsSums W (Proc.devRef .tc main_v21) = val_main_v21 (F := F) X L := by
  after_results_simp
  rw [h0, h1]
  rfl
theorem sums_ground (W : Valuation τ sig (Elt F)) (L : (⟨S16x512x512, .i32⟩ : BufTy).Contents (Elt F))
    (h1 : W (Proc.devRef .tc main_arg1) = L) :
    after opsSums W (Proc.devRef .tc main_v22) = val_main_v22 (F := F) L := by
  after_results_simp
  rw [h1]
  rfl
theorem sums_pred (W : Valuation τ sig (Elt F)) (X : (⟨S16x6x512x512, .f32⟩ : BufTy).Contents (Elt F))
    (h0 : W (Proc.devRef .tc main_v0) = val_main_v0 (F := F) X) :
    after opsSums W (Proc.devRef .tc main_v23) = val_main_v23 (F := F) X := by
  after_results_simp
  rw [h0]
  rfl
/-- and the pixel loss where it was. -/
theorem sums_keeps_ploss (W : Valuation τ sig (Elt F)) :
    after opsSums W (Proc.devRef .tc main_v11) = W (Proc.devRef .tc main_v11) := by
  after_results_simp

/-- The last stretch computes the shared tail of the loss from the three sums and the pixel loss it finds. -/
theorem tail_result (W : Valuation τ sig (Elt F)) :
    (after opsTail W (Proc.devRef .tc main_v49) : FVec F S_ .f32)
      = diceTail (F := F) bcast_S_S16x6 h_S_ reducesTo_S16x6_S16_d1 bcast_S16_S16x1_0 bcast_S16x1_S16x6_0_1 reducesTo_S16x6_S6_d0 bcast_S_S6 reducesTo_S6_S_d0
          (W (Proc.devRef .tc main_v21) : FVec F S16x6 .f32) (W (Proc.devRef .tc main_v22) : FVec F S16x6 .f32)
          (W (Proc.devRef .tc main_v23) : FVec F S16x6 .f32) (W (Proc.devRef .tc main_v11) : FVec F S_ .f32) := by
  after_results_simp
  rfl

/-! ## The whole program -/

/-- The result buffer after all 114 operations, from any contents `V`: the shared tail of the loss at the three
    sums and the pixel loss, each the stage function of the logits and the labels `V` holds. -/
theorem fold_result (V : Valuation τ sig (Elt F)) :
    (after ops V (Proc.devRef .tc main_v49) : FVec F S_ .f32)
      = diceTail (F := F) bcast_S_S16x6 h_S_ reducesTo_S16x6_S16_d1 bcast_S16_S16x1_0 bcast_S16x1_S16x6_0_1 reducesTo_S16x6_S6_d0 bcast_S_S6 reducesTo_S6_S_d0
          (val_main_v21 (F := F) (V (Proc.devRef .tc main_arg0)) (V (Proc.devRef .tc main_arg1)))
          (val_main_v22 (F := F) (V (Proc.devRef .tc main_arg1)))
          (val_main_v23 (F := F) (V (Proc.devRef .tc main_arg0)))
          (val_main_v11 (F := F) (V (Proc.devRef .tc main_arg0)) (V (Proc.devRef .tc main_arg1))) := by
  rw [ops_untyped, opsU_eq, after_append, after_append, after_append]
  refine (tail_result _).trans ?_
  have a0 := softmax_result V
  have a1 := softmax_keeps_labels V
  generalize after opsSoftmax V = W1 at a0 a1 ⊢
  have b11 := pixel_result W1 _ _ a0 a1
  have b0 := (pixel_keeps_logp W1).trans a0
  have b1 := (pixel_keeps_labels W1).trans a1
  generalize after opsPixel W1 = W2 at b11 b0 b1 ⊢
  rw [sums_inter W2 _ _ b0 b1, sums_ground W2 _ b1, sums_pred W2 _ b0, (sums_keeps_ploss W2).trans b11]

end Cert.ReferenceIdeal.Fold

end
-- ==== Proof.LossSpec.lean ====
/-
  The loss both programs compute, written once over the extended reals.

  One pixel carries six logits `x c` and a label word `l`. With `M = max_c x c`, the shifted logits are
  `x c - M`, their exponentials sum to `S`, the log-probability of class `c` is `x c - M - log S` and its
  probability is `exp (x c - M) / S`. Written as `exp` of the log-probability it is the same number whenever the
  six logits are real: `M` is then one of them, `S` is a positive real, and `exp (a - log S) = exp a / S`.
  The one-hot weight of class `c` at the pixel is `1` when the label is the word `c` and `0` otherwise; the
  pixel's cross entropy is the weighted sum of the negated log-probabilities, which is `-logp (label)` for a label
  in `0 .. 5` and `0` for the ignored label `-1`.
  Per batch element `b` and class `c` the programs sum, over the 512 x 512 pixels, the weighted probabilities, the
  weights, and the probabilities; per batch element they sum the cross entropy.
-/
import Idealize.ShloMosaic.PureOps.Ideal
import Idealize.ShloMosaic.PureOps.Ideal.Laws
import Idealize.ShloMosaic.Lib.ValueIdx
import Mathlib.Data.Finset.Fold

noncomputable section

namespace Cert.Loss

open Idealize.ShloMosaic Idealize.ShloMosaic.ValueIdx

/-! ## One pixel -/

/-- The largest of the six logits (the fold of `max` from `-∞`). -/
def pmax (x : Fin 6 → EReal) : EReal := (Finset.univ : Finset (Fin 6)).fold max ⊥ x
/-- A logit less the largest. -/
def psh (x : Fin 6 → EReal) (c : Fin 6) : EReal := x c - pmax x
/-- The sum of the shifted logits' exponentials. -/
def pse (x : Fin 6 → EReal) : EReal := ∑ c : Fin 6, Ideal.exp (psh x c)
/-- The log-probability of class `c`. -/
def plp (x : Fin 6 → EReal) (c : Fin 6) : EReal := psh x c - Ideal.log (pse x)
/-- The probability of class `c`, as the quotient of the exponential by the sum. -/
def pprob (x : Fin 6 → EReal) (c : Fin 6) : EReal := Ideal.div (Ideal.exp (psh x c)) (pse x)

/-- A finite sum of reals, coerced, is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem pmax_ne_top {x : Fin 6 → EReal} (hx : ∀ c, ∃ r : ℝ, x c = (r : EReal)) : pmax x ≠ ⊤ :=
  ((Finset.fold_max_lt ⊤).mpr ⟨bot_lt_top, fun c _ => by
    obtain ⟨r, hr⟩ := hx c; rw [hr]; exact EReal.coe_lt_top r⟩).ne

theorem pmax_ne_bot {x : Fin 6 → EReal} (hx : ∀ c, ∃ r : ℝ, x c = (r : EReal)) : pmax x ≠ ⊥ := by
  have h : x 0 ≤ pmax x := (Finset.le_fold_max (x 0)).mpr (Or.inr ⟨0, Finset.mem_univ _, le_rfl⟩)
  obtain ⟨r, hr⟩ := hx 0
  rw [hr] at h
  exact ne_bot_of_le_ne_bot (EReal.coe_ne_bot r) h

/-- With real logits, the exponential of the log-probability is the quotient form of the probability. -/
theorem exp_plp {x : Fin 6 → EReal} (hx : ∀ c, ∃ r : ℝ, x c = (r : EReal)) (c : Fin 6) :
    Ideal.exp (plp x c) = pprob x c := by
  choose r hr using hx
  obtain ⟨M, hM⟩ : ∃ M : ℝ, pmax x = (M : EReal) :=
    ⟨(pmax x).toReal, (EReal.coe_toReal (pmax_ne_top fun c => ⟨r c, hr c⟩) (pmax_ne_bot fun c => ⟨r c, hr c⟩)).symm⟩
  have hsh : ∀ d, psh x d = ((r d - M : ℝ) : EReal) := fun d => by
    rw [psh, hr d, hM, EReal.coe_sub]
  have hse : pse x = ((∑ d : Fin 6, Real.exp (r d - M) : ℝ) : EReal) := by
    rw [pse, coe_sum]
    exact Finset.sum_congr rfl fun d _ => by rw [hsh d, Ideal.exp_coe]
  have hpos : (0 : ℝ) < ∑ d : Fin 6, Real.exp (r d - M) :=
    Finset.sum_pos (fun d _ => Real.exp_pos _) Finset.univ_nonempty
  rw [pprob, plp, hse, hsh c, Ideal.log_coe, if_neg (not_le.mpr hpos), ← EReal.coe_sub, Ideal.exp_coe, Ideal.exp_coe,
    Ideal.div_coe hpos.ne', ← EReal.coe_mul, Real.exp_sub, Real.exp_log hpos, div_eq_mul_one_div]

/-- The one-hot weight of class `c` at a pixel labelled `l`. -/
def pmask (l : BitVec 32) (c : Fin 6) : EReal := if l = BitVec.ofNat 32 c.val then 1 else 0

/-- The pixel's cross entropy: the weighted sum of the negated log-probabilities. -/
def pce (x : Fin 6 → EReal) (l : BitVec 32) : EReal := ∑ c : Fin 6, pmask l c * (0 - plp x c)

/-- For a label that is a class, the cross entropy is that class's negated log-probability. -/
theorem pce_class (x : Fin 6 → EReal) (k : Fin 6) : pce x (BitVec.ofNat 32 k.val) = -plp x k := by
  rw [pce, Finset.sum_eq_single k]
  · rw [pmask, if_pos rfl, one_mul, zero_sub]
  · intro c _ hck
    have : BitVec.ofNat 32 k.val ≠ BitVec.ofNat 32 c.val := by
      intro h
      apply hck
      have := congrArg BitVec.toNat h
      simp only [BitVec.toNat_ofNat] at this
      have hk := k.isLt; have hc := c.isLt
      apply Fin.ext; omega
    rw [pmask, if_neg this, zero_mul]
  · intro h; exact absurd (Finset.mem_univ k) h

/-- For the ignored label the cross entropy is zero. -/
theorem pce_ignore (x : Fin 6 → EReal) : pce x 4294967295#32 = 0 := by
  rw [pce]
  refine Finset.sum_eq_zero fun c _ => ?_
  have : (4294967295#32 : BitVec 32) ≠ BitVec.ofNat 32 c.val := by
    intro h
    have := congrArg BitVec.toNat h
    simp only [BitVec.toNat_ofNat] at this
    have hc := c.isLt
    omega
  rw [pmask, if_neg this, zero_mul]

/-! ## The arrays -/

/-- The six logits of pixel `(h, w)` of batch element `b`. -/
def pix (X : (⟨4, ![16, 6, 512, 512]⟩ : Shape).Idx → EReal) (b : Fin 16) (h w : Fin 512) : Fin 6 → EReal :=
  fun c => X (ix4 b c h w)

/-- Per batch element and class: the sum over the pixels of the weighted probability. -/
def interS (X : (⟨4, ![16, 6, 512, 512]⟩ : Shape).Idx → EReal) (L : (⟨3, ![16, 512, 512]⟩ : Shape).Idx → BitVec 32)
    (b : Fin 16) (c : Fin 6) : EReal :=
  ∑ h : Fin 512, ∑ w : Fin 512, pmask (L (ix3 b h w)) c * pprob (pix X b h w) c
/-- … of the weight: how many pixels of the batch element carry the class. -/
def groundS (L : (⟨3, ![16, 512, 512]⟩ : Shape).Idx → BitVec 32) (b : Fin 16) (c : Fin 6) : EReal :=
  ∑ h : Fin 512, ∑ w : Fin 512, pmask (L (ix3 b h w)) c
/-- … of the probability. -/
def predS (X : (⟨4, ![16, 6, 512, 512]⟩ : Shape).Idx → EReal) (b : Fin 16) (c : Fin 6) : EReal :=
  ∑ h : Fin 512, ∑ w : Fin 512, pprob (pix X b h w) c
/-- Per batch element: the sum over the pixels of the cross entropy. -/
def ceS (X : (⟨4, ![16, 6, 512, 512]⟩ : Shape).Idx → EReal) (L : (⟨3, ![16, 512, 512]⟩ : Shape).Idx → BitVec 32)
    (b : Fin 16) : EReal :=
  ∑ h : Fin 512, ∑ w : Fin 512, pce (pix X b h w) (L (ix3 b h w))

end Cert.Loss

end
-- ==== Proof.LossRead.lean ====
/-
  Reading lemmas shared by the two programs' value proofs: sums over index sets of rank three and four as
  iterated sums over the coordinates; the sum of a 512 x 512 plane as a kernel computes it (the plane viewed
  [1, 512, 512], summed over its two long axes into one element); a host sum over the two pixel axes of a
  [16, 6, 512, 512] array; and the maximum over the six classes at a pixel, as the kernel's reduction and as the
  host's both give it.
-/
import proofs.«407860_j47931835023728_1_alg».proof.Proof.LossSpec
import Idealize.ShloMosaic.Lib.Pipeline.Value
import Idealize.ShloMosaic.Lib.ValueLayout
import Idealize.ShloMosaic.PureOps.Reduce

noncomputable section

namespace Cert.Loss

open Idealize.ShloMosaic Idealize.ShloMosaic.ValueIdx

/-! ## Sums over index sets -/

/-- A rank-3 index set is the product of its coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The same at rank 4. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## The sum of a plane, the kernel's way -/

/-- A 512 x 512 plane viewed [1, 512, 512], summed over axes 1 and 2 into one element, viewed [1, 1, 1] and read at
    its one position: the double sum of the plane. -/
theorem plane_total (v : FVec Ideal ⟨2, ![512, 512]⟩ .f32)
    (hc1 : (⟨2, ![512, 512]⟩ : Shape).ShapeCasts ⟨3, ![1, 512, 512]⟩)
    (hred : (⟨3, ![1, 512, 512]⟩ : Shape).Reduces [1, 2] ⟨1, ![1]⟩) (hφ : FKind.Formats .f32)
    (hacc : (0x00000000#32 : BitVec 32) = FKind.add.neutral .f32 hφ)
    (hc2 : (⟨1, ![1]⟩ : Shape).ShapeCasts ⟨3, ![1, 1, 1]⟩)
    (hpos : ∀ a, (![0, 0, 0] : Fin 3 → Nat) a < (⟨3, ![1, 1, 1]⟩ : Shape).size a) :
    extractAt ![0, 0, 0] (shapeCast ⟨3, ![1, 1, 1]⟩
        (multiReduction .add [1, 2] ⟨1, ![1]⟩ (shapeCast ⟨3, ![1, 512, 512]⟩ v hc1) 0x00000000#32 hred hφ hacc) hc2) hpos
      = ∑ h : Fin 512, ∑ w : Fin 512, v (ix2 h w) := by
  unfold extractAt
  rw [shapeCast_apply _ hc2 _ (ix1 (0 : Fin 1)) (by
    rw [Shape.rowMajor_val_one, Shape.rowMajor_val_three]; rfl)]
  rw [Ideal.multiReduction_add_total _ _ hred (fun b => match b with | ⟨0, _⟩ => rfl) hφ hacc, sum_idx3, Fin.sum_univ_one]
  exact Finset.sum_congr rfl fun h _ => Finset.sum_congr rfl fun w _ => shapeCast_ab_1ab_apply v hc1 0 h w

/-! ## A host sum over the two pixel axes -/

/-- Dropping the two pixel axes of a [16, 6, 512, 512] index keeps batch element and class. -/
theorem drop_pixels (h' : (⟨4, ![16, 6, 512, 512]⟩ : Shape).ReducesTo [2, 3] ⟨2, ![16, 6]⟩) (a : Fin 16) (c : Fin 6)
    (h w : Fin 512) : h'.drop (ix4 a c h w) = ix2 a c := by
  funext k; refine Fin.ext ?_
  match k with
  | ⟨0, _⟩ => rfl
  | ⟨1, _⟩ => rfl

/-- The host's sum of a [16, 6, 512, 512] array over its two pixel axes, at batch element `b` and class `c`: the
    initial value plus the double sum over the pixels. -/
theorem hostReduceAdd_pixels (h' : (⟨4, ![16, 6, 512, 512]⟩ : Shape).ReducesTo [2, 3] ⟨2, ![16, 6]⟩)
    (x : (⟨4, ![16, 6, 512, 512]⟩ : Shape).Idx → EReal) (init : EReal) (b : Fin 16) (c : Fin 6) :
    Ideal.hostReduceAdd h' x init (ix2 b c) = init + ∑ h : Fin 512, ∑ w : Fin 512, x (ix4 b c h w) := by
  unfold Ideal.hostReduceAdd
  congr 1
  rw [Finset.sum_filter, sum_idx4, Finset.sum_eq_single b, Finset.sum_eq_single c]
  · refine Finset.sum_congr rfl fun h _ => Finset.sum_congr rfl fun w _ => ?_
    rw [if_pos (drop_pixels h' b c h w)]
  · intro c' _ hc'
    refine Finset.sum_eq_zero fun h _ => Finset.sum_eq_zero fun w _ => if_neg ?_
    rw [drop_pixels]
    intro he
    exact hc' (congrFun he 1)
  · intro hb; exact absurd (Finset.mem_univ _) hb
  · intro a _ ha
    refine Finset.sum_eq_zero fun c' _ => Finset.sum_eq_zero fun h _ => Finset.sum_eq_zero fun w _ => if_neg ?_
    rw [drop_pixels]
    intro he
    exact ha (congrFun he 0)
  · intro hb; exact absurd (Finset.mem_univ _) hb

/-! ## The maximum over the classes -/

/-- The f32 pattern of `-∞` denotes `⊥`. -/
theorem ofBits_neg_inf : Ideal.ofBits .f32 0xFF800000#32 = ⊥ := by simp [Ideal.ofBits, Ideal.ieee]

/-- The kernel's maximum over the class axis of a [6, 512, 512] block, at a pixel. -/
theorem kernel_max (v : FVec Ideal ⟨3, ![6, 512, 512]⟩ .f32)
    (hred : (⟨3, ![6, 512, 512]⟩ : Shape).Reduces [0] ⟨2, ![512, 512]⟩) (hφ : FKind.Formats .f32)
    (hacc : (0xFF800000#32 : BitVec 32) = FKind.maximumf.neutral .f32 hφ) (h w : Fin 512) :
    multiReduction .maximumf [0] ⟨2, ![512, 512]⟩ v 0xFF800000#32 hred hφ hacc (ix2 h w)
      = pmax (fun c => v (ix3 c h w)) := by
  rw [Ideal.multiReduction_maximumf_single]
  show (Finset.univ : Finset (Fin 6)).fold max (Ideal.ofBits .f32 0xFF800000#32) _ = _
  rw [ofBits_neg_inf]
  unfold pmax
  congr 1
  funext c
  exact congrArg v (funext fun a => Fin.ext (by match a with | ⟨0, _⟩ => rfl | ⟨1, _⟩ => rfl | ⟨2, _⟩ => rfl))

/-- The host's maximum over the class axis of a [16, 6, 512, 512] array from `-∞`, at a pixel. -/
theorem host_max (x : (⟨4, ![16, 6, 512, 512]⟩ : Shape).Idx → EReal) (init : (⟨0, ![]⟩ : Shape).Idx → EReal)
    (h' : (⟨4, ![16, 6, 512, 512]⟩ : Shape).ReducesTo [1] ⟨3, ![16, 512, 512]⟩) (hu : 0 < (⟨0, ![]⟩ : Shape).numel)
    (hinit : init (Shape.Idx.first hu) = ⊥) (b : Fin 16) (h w : Fin 512) :
    Host.reduce (FloatOps.maximumf (F := Ideal) (φ := .f32)) x init h' hu (ix3 b h w) = pmax (pix x b h w) := by
  rw [Host.reduce_eq_fold_single _ x init h' (by decide) hu, hinit]
  show (Finset.univ : Finset (Fin 6)).fold max ⊥ _ = _
  unfold pmax pix
  congr 1
  funext c
  exact congrArg x (funext fun a => Fin.ext (by
    match a with | ⟨0, _⟩ => rfl | ⟨1, _⟩ => rfl | ⟨2, _⟩ => rfl | ⟨3, _⟩ => rfl))

/-! ## The one-hot weight -/

/-- The kernel's weight: the comparison bit widened to a word and converted. -/
theorem kernel_mask (l k : BitVec 32) (c : Fin 6) (hk : k = BitVec.ofNat 32 c.val) :
    FloatOps.sitofp (F := Ideal) .f32 ((IntOp.cmpi .eq l k).setWidth 32) = pmask l c := by
  subst hk
  unfold pmask
  by_cases h : l = BitVec.ofNat 32 c.val
  · rw [if_pos h, h]
    show (((((IntOp.cmpi .eq (BitVec.ofNat 32 c.val) (BitVec.ofNat 32 c.val)).setWidth 32).toInt : ℤ) : ℝ) : EReal) = 1
    simp [IntOp.cmpi]
  · rw [if_neg h]
    have hb : (l == BitVec.ofNat 32 c.val) = false := beq_eq_false_iff_ne.mpr h
    show (((((IntOp.cmpi .eq l (BitVec.ofNat 32 c.val)).setWidth 32).toInt : ℤ) : ℝ) : EReal) = 0
    simp [IntOp.cmpi, hb]

/-- The host's weight: the comparison bit converted. -/
theorem host_mask (l k : BitVec 32) (c : Fin 6) (hk : k = BitVec.ofNat 32 c.val) :
    FloatOps.uitofp (F := Ideal) .f32 (IntOp.cmpi .eq l k) = pmask l c := by
  subst hk
  unfold pmask
  by_cases h : l = BitVec.ofNat 32 c.val
  · rw [if_pos h, h]
    show ((((IntOp.cmpi .eq (BitVec.ofNat 32 c.val) (BitVec.ofNat 32 c.val)).toNat : ℕ) : ℝ) : EReal) = 1
    simp [IntOp.cmpi]
  · rw [if_neg h]
    have hb : (l == BitVec.ofNat 32 c.val) = false := beq_eq_false_iff_ne.mpr h
    show ((((IntOp.cmpi .eq l (BitVec.ofNat 32 c.val)).toNat : ℕ) : ℝ) : EReal) = 0
    simp [IntOp.cmpi, hb]

end Cert.Loss

end
-- ==== Proof.LossArrays.lean ====
/-
  The four arrays the shared tail consumes, as functions of the argument arrays: per batch element and class the
  summed weighted probabilities, label counts and probabilities, and the pixel loss, the sum of every pixel's cross
  entropy divided by the number of pixels `16 · 512 · 512 = 2²²` (the divisor is kept as its f32 pattern).
-/
import proofs.«407860_j47931835023728_1_alg».proof.Proof.LossSpec
import proofs.«407860_j47931835023728_1_alg».proof.Proof.DiceTail

noncomputable section

namespace Cert.Loss

open Idealize.ShloMosaic Idealize.ShloMosaic.ValueIdx

/-- The summed weighted probabilities as a [16, 6] array. -/
def interArr (X : (⟨4, ![16, 6, 512, 512]⟩ : Shape).Idx → EReal) (L : (⟨3, ![16, 512, 512]⟩ : Shape).Idx → BitVec 32) :
    FVec Ideal T16x6 .f32 := fun i => interS X L (i 0) (i 1)
/-- The label counts as a [16, 6] array. -/
def groundArr (L : (⟨3, ![16, 512, 512]⟩ : Shape).Idx → BitVec 32) : FVec Ideal T16x6 .f32 :=
  fun i => groundS L (i 0) (i 1)
/-- The summed probabilities as a [16, 6] array. -/
def predArr (X : (⟨4, ![16, 6, 512, 512]⟩ : Shape).Idx → EReal) : FVec Ideal T16x6 .f32 :=
  fun i => predS X (i 0) (i 1)
/-- The pixel loss as a rank-0 array. -/
def plossArr (X : (⟨4, ![16, 6, 512, 512]⟩ : Shape).Idx → EReal) (L : (⟨3, ![16, 512, 512]⟩ : Shape).Idx → BitVec 32) :
    FVec Ideal T_ .f32 := fun _ => Ideal.div (∑ b : Fin 16, ceS X L b) (Ideal.ofBits .f32 0x4A800000#32)

theorem interArr_apply (X : (⟨4, ![16, 6, 512, 512]⟩ : Shape).Idx → EReal) (L : (⟨3, ![16, 512, 512]⟩ : Shape).Idx → BitVec 32)
    (b : Fin 16) (c : Fin 6) : interArr X L (ix2 b c) = interS X L b c := rfl
theorem groundArr_apply (L : (⟨3, ![16, 512, 512]⟩ : Shape).Idx → BitVec 32) (b : Fin 16) (c : Fin 6) :
    groundArr L (ix2 b c) = groundS L b c := rfl
theorem predArr_apply (X : (⟨4, ![16, 6, 512, 512]⟩ : Shape).Idx → EReal) (b : Fin 16) (c : Fin 6) :
    predArr X (ix2 b c) = predS X b c := rfl

end Cert.Loss

end
-- ==== Proof.LibTakeAlong.lean ====
/-
  `jnp.take_along_axis(x, idx, axis=1)` for `x : [B, C, H, W]` and `idx : [B, 1, H, W]`, read at an index.

  It lowers to a `stablehlo.gather` over the indices viewed `[B, 1, H, W, 1]` with no offset axes, the class axis
  collapsed (`collapsed_slice_dims = [1]`, `start_index_map = [1]`, `index_vector_dim = 4`), the three other axes
  batching on both sides (`operand_batching_dims = start_indices_batching_dims = [0, 2, 3]`) and unit slice sizes.
  Result element `(b, u, h, w)` is then `x` at `(b, k, h, w)`, where `k` is the index word `idx[b, u, h, w, 0]` read
  as a signed integer and clamped into `[0, C − 1]`, as StableHLO's gather clamps every start index.
-/
import Idealize.ShloMosaic.PureOps.Ideal
import Idealize.ShloMosaic.Lib.ValueIdx

noncomputable section

namespace Cert.Loss

open Idealize.ShloMosaic Idealize.ShloMosaic.ValueIdx

/-- Those dimension numbers for an operand `[B, C, H, W]`, start indices `[B, 1, H, W, 1]` and result
    `[B, 1, H, W]`; their conditions `wf` are decided on a program's literal shapes. -/
abbrev takeAlongDims (B C H W : Nat)
    (wf : GatherDims.WF ⟨4, ![B, C, H, W]⟩ ⟨5, ![B, 1, H, W, 1]⟩ ⟨4, ![B, 1, H, W]⟩ [] [1] [0, 2, 3] [1] [0, 2, 3] 4 ![1, 1, 1, 1]) :
    GatherDims ⟨4, ![B, C, H, W]⟩ ⟨5, ![B, 1, H, W, 1]⟩ ⟨4, ![B, 1, H, W]⟩ where
  offsetDims := []
  collapsedSliceDims := [1]
  operandBatchingDims := [0, 2, 3]
  startIndicesBatchingDims := [0, 2, 3]
  startIndexMap := [1]
  indexVectorDim := 4
  sliceSizes := ![1, 1, 1, 1]
  wf := wf

/-- THE GATHER READ AT `(b, u, h, v)`: the operand at `(b, k, h, v)`, `k` the index word there read signed and clamped
    into `[0, C − 1]`. -/
theorem takeAlong_apply {α : Type} {w B C H W : Nat} (hC : 0 < C)
    (wf : GatherDims.WF ⟨4, ![B, C, H, W]⟩ ⟨5, ![B, 1, H, W, 1]⟩ ⟨4, ![B, 1, H, W]⟩ [] [1] [0, 2, 3] [1] [0, 2, 3] 4 ![1, 1, 1, 1])
    (x : (⟨4, ![B, C, H, W]⟩ : Shape).Idx → α) (idx : IVec ⟨5, ![B, 1, H, W, 1]⟩ w)
    (b : Fin B) (u : Fin 1) (h : Fin H) (v : Fin W) :
    Host.gather (takeAlongDims B C H W wf) x idx (ix4 b u h v)
      = x (ix4 b ⟨min (idx (ix5 b u h v (0 : Fin 1))).toInt.toNat (C - 1), by omega⟩ h v) := by
  unfold Host.gather
  congr 1
  funext a
  refine Fin.ext ?_
  show (takeAlongDims B C H W wf).start (ix4 b u h v) idx a + (takeAlongDims B C H W wf).batchCoord (ix4 b u h v) a
    + (takeAlongDims B C H W wf).offCoord (ix4 b u h v) a = _
  match a with
  | ⟨0, h0⟩ =>
    have hm : (⟨0, h0⟩ : Fin 4) ∈ (takeAlongDims B C H W wf).operandBatchingDims := List.Mem.head _
    rw [GatherDims.start_batching _ _ _ _ hm,
      GatherDims.offCoord_eq_zero _ _ _ (fun hs => ((GatherDims.mem_sKept _ _).mp hs).2 hm)]
    simp only [Nat.zero_add, Nat.add_zero]
    unfold GatherDims.batchCoord
    rw [dif_pos hm]
    rfl
  | ⟨1, h1⟩ =>
    have hnb : (⟨1, h1⟩ : Fin 4) ∉ (takeAlongDims B C H W wf).operandBatchingDims := by
      intro hm
      simp only [List.mem_cons, List.not_mem_nil, or_false, Fin.ext_iff] at hm
      omega
    have hsm : (⟨1, h1⟩ : Fin 4) ∈ (takeAlongDims B C H W wf).startIndexMap := List.mem_singleton.mpr rfl
    rw [GatherDims.batchCoord_eq_zero _ _ _ hnb,
      GatherDims.offCoord_eq_zero _ _ _ (fun hs => ((GatherDims.mem_sKept _ _).mp hs).1 (List.mem_singleton.mpr rfl))]
    simp only [Nat.add_zero]
    unfold GatherDims.start
    rw [dif_pos hsm]
    have hsi : (takeAlongDims B C H W wf).siIdx (ix4 b u h v) ⟨List.idxOf (⟨1, h1⟩ : Fin 4) (takeAlongDims B C H W wf).startIndexMap,
        List.idxOf_lt_length_iff.2 hsm⟩ = ix5 b u h v (0 : Fin 1) := by
      funext k; refine Fin.ext ?_
      match k with
      | ⟨0, _⟩ => rfl
      | ⟨1, _⟩ => rfl
      | ⟨2, _⟩ => rfl
      | ⟨3, _⟩ => rfl
      | ⟨4, _⟩ => rfl
    rw [hsi]
    rfl
  | ⟨2, h2⟩ =>
    have hm : (⟨2, h2⟩ : Fin 4) ∈ (takeAlongDims B C H W wf).operandBatchingDims := List.Mem.tail _ (List.Mem.head _)
    rw [GatherDims.start_batching _ _ _ _ hm,
      GatherDims.offCoord_eq_zero _ _ _ (fun hs => ((GatherDims.mem_sKept _ _).mp hs).2 hm)]
    simp only [Nat.zero_add, Nat.add_zero]
    unfold GatherDims.batchCoord
    rw [dif_pos hm]
    rfl
  | ⟨3, h3⟩ =>
    have hm : (⟨3, h3⟩ : Fin 4) ∈ (takeAlongDims B C H W wf).operandBatchingDims := List.Mem.tail _ (List.Mem.tail _ (List.Mem.head _))
    rw [GatherDims.start_batching _ _ _ _ hm,
      GatherDims.offCoord_eq_zero _ _ _ (fun hs => ((GatherDims.mem_sKept _ _).mp hs).2 hm)]
    simp only [Nat.zero_add, Nat.add_zero]
    unfold GatherDims.batchCoord
    rw [dif_pos hm]
    rfl

end Cert.Loss

end
-- ==== Proof.RefValue.lean ====
/-
  The reference program's four intermediate arrays, read index by index.

  At a pixel `(b, h, w)` with logits `x c = X (b, c, h, w)` the program forms the running maximum `M` of the six
  logits from `-∞`, the shifted logits `x c - M`, the sum `S` of their exponentials and the log-probability
  `x c - M - log S`; its exponential is the probability, which for real logits is the quotient `exp (x c - M) / S`.
  The one-hot weight compares the pixel's label with the class number. Summing the weighted probability, the weight
  and the probability over the 512 x 512 pixels gives the three [16, 6] arrays.
  The cross entropy gathers the log-probability at the label clipped into `[0, 5]`: for a class label the clip is
  the identity, the index word is not negative and in range, and the gathered value is that class's log-probability,
  negated; for the ignored label the outer selection returns zero without reading the gather. The pixel loss is the
  sum of the cross entropy over all pixels divided by their number.
-/
import proofs.«407860_j47931835023728_1_alg».proof.Proof.RefRead
import proofs.«407860_j47931835023728_1_alg».proof.Proof.LossRead
import proofs.«407860_j47931835023728_1_alg».proof.Proof.LossArrays
import proofs.«407860_j47931835023728_1_alg».proof.Proof.LibTakeAlong

noncomputable section
namespace Cert.ReferenceIdeal.RefValue
open Cert.ReferenceIdeal Cert.ReferenceIdeal.Gen Cert.ReferenceIdeal.RunRead Cert.Loss Idealize.ShloMosaic Idealize.ShloMosaic.ValueIdx

/-! ## Index maps at coordinates -/

/-- Broadcasting along the class axis reads the unit-class index of the same batch element and pixel. -/
theorem classBroadcast_max_ix4 (b : Fin 16) (c : Fin 6) (h w : Fin 512) :
    idx_main_call0_v4 (ix4 b c h w) = ix4 b (0 : Fin 1) h w :=
  funext fun a => Fin.ext (by match a with | ⟨0, _⟩ => rfl | ⟨1, _⟩ => rfl | ⟨2, _⟩ => rfl | ⟨3, _⟩ => rfl)

/-- Inserting the unit class axis reads the rank-3 index of the same batch element and pixel. -/
theorem unitClass_max_ix4 (b : Fin 16) (u : Fin 1) (h w : Fin 512) :
    idx_main_call0_v3 (ix4 b u h w) = ix3 b h w :=
  funext fun a => Fin.ext (by match a with | ⟨0, _⟩ => rfl | ⟨1, _⟩ => rfl | ⟨2, _⟩ => rfl)

/-- The class-axis sum's `k`-th summand sits at class `k` of the same batch element and pixel. -/
theorem classSum_ix3 (b : Fin 16) (h w : Fin 512) (k : Fin 6) :
    idx_main_call0_v7 (ix3 b h w) k = ix4 b k h w :=
  funext fun a => Fin.ext (by match a with | ⟨0, _⟩ => rfl | ⟨1, _⟩ => rfl | ⟨2, _⟩ => rfl | ⟨3, _⟩ => rfl)

/-- Broadcasting the logarithm of the sum along the class axis reads the unit-class index of the same pixel. -/
theorem classBroadcast_logsum_ix4 (b : Fin 16) (c : Fin 6) (h w : Fin 512) :
    idx_main_call0_v10 (ix4 b c h w) = ix4 b (0 : Fin 1) h w := classBroadcast_max_ix4 b c h w
/-- Inserting the unit class axis under the sum of exponentials reads the rank-3 index of the same pixel. -/
theorem unitClass_logsum_ix4 (b : Fin 16) (u : Fin 1) (h w : Fin 512) :
    idx_main_call0_v8 (ix4 b u h w) = ix3 b h w := unitClass_max_ix4 b u h w

/-! ## The log-probability at an index -/

/-- The running maximum from `-∞` over the six classes at a pixel. -/
theorem classMax_apply (X : FVec Ideal S16x6x512x512 .f32) (b : Fin 16) (h w : Fin 512) :
    val_main_call0_v2 (F := Ideal) X (ix3 b h w) = pmax (pix X b h w) := by
  rw [val_main_call0_v2_apply, val_main_call0_v1_apply, val_main_call0_cst_0_apply]
  have hm : val_main_call0_v0 (F := Ideal) X (ix3 b h w) = pmax (pix X b h w) := by
    unfold val_main_call0_v0
    exact host_max X (val_main_call0_cst (F := Ideal)) reducesTo_S16x6x512x512_S16x512x512_d1 h_S_
      (by show Ideal.ofBits .f32 0xFF800000#32 = ⊥; exact ofBits_neg_inf) b h w
  rw [hm]
  show max (Ideal.ofBits .f32 0xFF800000#32) (pmax (pix X b h w)) = pmax (pix X b h w)
  rw [ofBits_neg_inf]
  exact max_eq_right bot_le

/-- A logit less the largest of its pixel. -/
theorem shifted_apply (X : FVec Ideal S16x6x512x512 .f32) (b : Fin 16) (c : Fin 6) (h w : Fin 512) :
    val_main_call0_v5 (F := Ideal) X (ix4 b c h w) = psh (pix X b h w) c := by
  rw [val_main_call0_v5_apply, val_main_call0_v4_apply, classBroadcast_max_ix4, val_main_call0_v3_apply, unitClass_max_ix4,
    classMax_apply]
  rfl

/-- The sum over the classes of the shifted logits' exponentials at a pixel. -/
theorem sumExp_apply (X : FVec Ideal S16x6x512x512 .f32) (b : Fin 16) (h w : Fin 512) :
    val_main_call0_v7 (F := Ideal) X (ix3 b h w) = pse (pix X b h w) := by
  rw [val_main_call0_v7_apply, val_main_call0_cst_1_apply]
  show Ideal.ofBits .f32 0x00000000#32 + _ = _
  rw [Ideal.ofBits_zero_f32, zero_add]
  unfold pse
  refine Finset.sum_congr rfl fun k _ => ?_
  rw [classSum_ix3, val_main_call0_v6_apply, shifted_apply]
  rfl

/-- The log-probability of class `c` at a pixel. -/
theorem logp_apply (X : FVec Ideal S16x6x512x512 .f32) (b : Fin 16) (c : Fin 6) (h w : Fin 512) :
    val_main_v0 (F := Ideal) X (ix4 b c h w) = plp (pix X b h w) c := by
  rw [val_main_v0_apply, shifted_apply]
  have hl : val_main_call0_v10 (F := Ideal) X (ix4 b c h w) = Ideal.log (pse (pix X b h w)) := by
    rw [val_main_call0_v10_apply, classBroadcast_logsum_ix4, val_main_call0_v9_apply, val_main_call0_v8_apply, unitClass_logsum_ix4,
      sumExp_apply]
    rfl
  rw [hl]
  rfl

/-! ## The probability and the one-hot weight at an index -/

/-- The probability of class `c` at a pixel with real logits: the exponential of the log-probability is the quotient. -/
theorem prob_apply (X : FVec Ideal S16x6x512x512 .f32) (hX : ∀ i, ∃ r : ℝ, X i = (r : EReal))
    (b : Fin 16) (c : Fin 6) (h w : Fin 512) :
    val_main_v19 (F := Ideal) X (ix4 b c h w) = pprob (pix X b h w) c := by
  rw [val_main_v19_apply, logp_apply]
  exact exp_plp (fun d => hX (ix4 b d h w)) c

/-- The label broadcast along the class axis reads the pixel's label. -/
theorem labelBroadcast_ix4 (b : Fin 16) (c : Fin 6) (h w : Fin 512) :
    idx_main_v12 (idx_main_v15 (ix4 b c h w)) = ix3 b h w :=
  funext fun a => Fin.ext (by match a with | ⟨0, _⟩ => rfl | ⟨1, _⟩ => rfl | ⟨2, _⟩ => rfl)

/-- The class numbers broadcast over batch elements and pixels: the word of the class coordinate. -/
theorem classWord_apply (b : Fin 16) (c : Fin 6) (h w : Fin 512) :
    val_main_v16 (F := Ideal) (ix4 b c h w) = BitVec.ofNat 32 c.val := by
  rw [val_main_v16_apply, val_main_v14_apply, val_main_v13_apply]

/-- The one-hot weight of class `c` at a pixel. -/
theorem onehot_apply (L : IVec S16x512x512 32) (b : Fin 16) (c : Fin 6) (h w : Fin 512) :
    val_main_v18 (F := Ideal) L (ix4 b c h w) = pmask (L (ix3 b h w)) c := by
  rw [val_main_v18_apply, val_main_v17_apply, val_main_v15_apply, val_main_v12_apply, labelBroadcast_ix4, classWord_apply]
  exact host_mask (L (ix3 b h w)) (BitVec.ofNat 32 c.val) c rfl

/-- The weighted probability at an index. -/
theorem weighted_apply (X : FVec Ideal S16x6x512x512 .f32) (L : IVec S16x512x512 32) (hX : ∀ i, ∃ r : ℝ, X i = (r : EReal))
    (b : Fin 16) (c : Fin 6) (h w : Fin 512) :
    val_main_v20 (F := Ideal) X L (ix4 b c h w) = pmask (L (ix3 b h w)) c * pprob (pix X b h w) c := by
  rw [val_main_v20_apply, onehot_apply, prob_apply X hX]
  rfl

/-! ## The three sums over the pixels -/

/-- A sum over the two pixel axes from the zero pattern, at batch element `b` and class `c`: the double sum. -/
theorem pixelSum_apply (y : FVec Ideal S16x6x512x512 .f32) (z : FVec Ideal S_ .f32)
    (hz : z (Shape.Idx.first h_S_) = Ideal.ofBits .f32 0x00000000#32) (b : Fin 16) (c : Fin 6) :
    Host.reduceAdd (F := Ideal) y z reducesTo_S16x6x512x512_S16x6_d2_3 h_S_ (ix2 b c)
      = ∑ h : Fin 512, ∑ w : Fin 512, y (ix4 b c h w) := by
  simp only [Host.reduceAdd, Ideal.hostReduceAdd_def]
  rw [hostReduceAdd_pixels reducesTo_S16x6x512x512_S16x6_d2_3 y _ b c, hz, Ideal.ofBits_zero_f32, zero_add]

/-- The label counts: no hypothesis. -/
theorem ref_ground (L : IVec S16x512x512 32) : val_main_v22 (F := Ideal) L = groundArr L := by
  funext i
  obtain ⟨b, c, rfl⟩ : ∃ (b : Fin 16) (c : Fin 6), i = ix2 b c := ⟨i 0, i 1, eq_ix2 i⟩
  rw [groundArr_apply]
  unfold val_main_v22
  generalize hy : val_main_v18 (F := Ideal) L = y
  rw [pixelSum_apply y (val_main_cst_5 (F := Ideal)) (val_main_cst_5_apply _)]
  unfold groundS
  refine Finset.sum_congr rfl fun h _ => Finset.sum_congr rfl fun w _ => ?_
  rw [← hy, onehot_apply]

/-- The summed probabilities, for real logits. -/
theorem ref_pred (X : FVec Ideal S16x6x512x512 .f32) (hX : ∀ i, ∃ r : ℝ, X i = (r : EReal)) :
    val_main_v23 (F := Ideal) X = predArr X := by
  funext i
  obtain ⟨b, c, rfl⟩ : ∃ (b : Fin 16) (c : Fin 6), i = ix2 b c := ⟨i 0, i 1, eq_ix2 i⟩
  rw [predArr_apply]
  unfold val_main_v23
  generalize hy : val_main_v19 (F := Ideal) X = y
  rw [pixelSum_apply y (val_main_cst_6 (F := Ideal)) (val_main_cst_6_apply _)]
  unfold predS
  refine Finset.sum_congr rfl fun h _ => Finset.sum_congr rfl fun w _ => ?_
  rw [← hy, prob_apply X hX]

/-- The summed weighted probabilities, for real logits. -/
theorem ref_inter (X : FVec Ideal S16x6x512x512 .f32) (L : IVec S16x512x512 32) (hX : ∀ i, ∃ r : ℝ, X i = (r : EReal)) :
    val_main_v21 (F := Ideal) X L = interArr X L := by
  funext i
  obtain ⟨b, c, rfl⟩ : ∃ (b : Fin 16) (c : Fin 6), i = ix2 b c := ⟨i 0, i 1, eq_ix2 i⟩
  rw [interArr_apply]
  unfold val_main_v21
  generalize hy : val_main_v20 (F := Ideal) X L = y
  rw [pixelSum_apply y (val_main_cst_4 (F := Ideal)) (val_main_cst_4_apply _)]
  unfold interS
  refine Finset.sum_congr rfl fun h _ => Finset.sum_congr rfl fun w _ => ?_
  rw [← hy, weighted_apply X L hX]

/-! ## The label words the gather is driven by -/

/-- The label clipped into `[0, 5]`, as signed words. -/
def clipWord (l : BitVec 32) : BitVec 32 := IntOp.minsi 5#32 (IntOp.maxsi 0#32 l)
/-- The index word the gather reads: a negative clipped label has the class count added. -/
def idxWord (l : BitVec 32) : BitVec 32 :=
  Scalar.select (IntOp.cmpi .slt (clipWord l) 0#32) (IntOp.addi (clipWord l) 6#32) (clipWord l)
/-- The bit saying the index word lies in `[0, 5]`. -/
def inRange (l : BitVec 32) : BitVec 1 :=
  IntOp.andi (IntOp.cmpi .sge (idxWord l) 0#32) (IntOp.cmpi .sle (idxWord l) 5#32)

/-- For a class label the index word, read signed and clamped, is the class. -/
theorem idxWord_class (k : Fin 6) : min (idxWord (BitVec.ofNat 32 k.val)).toInt.toNat (6 - 1) = k.val := by
  fin_cases k <;> decide
/-- For a class label the index word is in range. -/
theorem inRange_class (k : Fin 6) : inRange (BitVec.ofNat 32 k.val) = 1#1 := by
  fin_cases k <;> decide
/-- A class label is not the ignored label. -/
theorem ne_ignore_class (k : Fin 6) : IntOp.cmpi .ne (BitVec.ofNat 32 k.val) 4294967295#32 = 1#1 := by
  fin_cases k <;> decide
/-- The ignored label is the ignored label. -/
theorem ne_ignore_self : IntOp.cmpi .ne (4294967295#32 : BitVec 32) 4294967295#32 = 0#1 := by decide
/-- Conjunction with the true bit. -/
theorem andi_true (x : BitVec 1) : IntOp.andi x 1#1 = x := by
  rcases BitVec.eq_zero_or_eq_one x with h | h <;> subst h <;> decide

/-! ## Index maps of the gather's operands -/

/-- Inserting the unit class axis over the clipped labels reads the rank-3 index of the same pixel. -/
theorem unitClass_clip_ix4 (b : Fin 16) (u : Fin 1) (h w : Fin 512) :
    idx_main_v4 (ix4 b u h w) = ix3 b h w := unitClass_max_ix4 b u h w

/-- Appending a unit axis keeps batch element and pixel. -/
theorem appendUnit_ix5 (b : Fin 16) (u : Fin 1) (h w : Fin 512) (e : Fin 1) :
    idx_main_call2_v5 (ix5 b u h w e) = ix4 b (0 : Fin 1) h w := by
  have hb := b.isLt; have hu := u.isLt; have hh := h.isLt; have hw := w.isLt; have he := e.isLt
  funext a; refine Fin.ext ?_
  match a with
  | ⟨0, _⟩ =>
    show ((((b.val * 1 + u.val) * 512 + h.val) * 512 + w.val) * 1 + e.val) / 262144 = b.val
    omega
  | ⟨1, _⟩ => rfl
  | ⟨2, _⟩ =>
    show ((((b.val * 1 + u.val) * 512 + h.val) * 512 + w.val) * 1 + e.val) / 512 % 512 = h.val
    omega
  | ⟨3, _⟩ =>
    show ((((b.val * 1 + u.val) * 512 + h.val) * 512 + w.val) * 1 + e.val) % 512 = w.val
    omega

/-- Dropping the unit class axis keeps batch element and pixel. -/
theorem dropUnit_ix3 (b : Fin 16) (h w : Fin 512) :
    idx_main_v6 (ix3 b h w) = ix4 b (0 : Fin 1) h w := by
  have hb := b.isLt; have hh := h.isLt; have hw := w.isLt
  funext a; refine Fin.ext ?_
  match a with
  | ⟨0, _⟩ =>
    show ((b.val * 512 + h.val) * 512 + w.val) / 262144 = b.val
    omega
  | ⟨1, _⟩ => rfl
  | ⟨2, _⟩ =>
    show ((b.val * 512 + h.val) * 512 + w.val) / 512 % 512 = h.val
    omega
  | ⟨3, _⟩ =>
    show ((b.val * 512 + h.val) * 512 + w.val) % 512 = w.val
    omega

/-! ## The gather's operands at an index -/

/-- The clipped label at a pixel. -/
theorem clipped_apply (L : IVec S16x512x512 32) (b : Fin 16) (u : Fin 1) (h w : Fin 512) :
    val_main_v4 (F := Ideal) L (ix4 b u h w) = clipWord (L (ix3 b h w)) := by
  rw [val_main_v4_apply, unitClass_clip_ix4, val_main_v3_apply, val_main_call1_v4_apply, val_main_call1_v3_apply,
    val_main_c_1_apply, val_main_call1_v2_apply, val_main_call1_v1_apply, val_main_call1_v0_apply, val_main_c_0_apply]
  rfl

/-- The index word at a pixel, before the unit axis is appended. -/
theorem idxWord4_apply (L : IVec S16x512x512 32) (b : Fin 16) (u : Fin 1) (h w : Fin 512) :
    val_main_call2_v4 (F := Ideal) L (ix4 b u h w) = idxWord (L (ix3 b h w)) := by
  rw [val_main_call2_v4_apply, val_main_call2_v1_apply, val_main_call2_v3_apply, clipped_apply, val_main_call2_v0_apply,
    val_main_call2_c_apply, val_main_call2_v2_apply, val_main_call2_c_0_apply]
  rfl

/-- The index word at a pixel. -/
theorem idxWord5_apply (L : IVec S16x512x512 32) (b : Fin 16) (u : Fin 1) (h w : Fin 512) (e : Fin 1) :
    val_main_call2_v5 (F := Ideal) L (ix5 b u h w e) = idxWord (L (ix3 b h w)) := by
  rw [val_main_call2_v5_apply, appendUnit_ix5, idxWord4_apply]

/-- The in-range bit at a pixel, before the unit axis is reduced away. -/
theorem inRange5_apply (L : IVec S16x512x512 32) (b : Fin 16) (u : Fin 1) (h w : Fin 512) (e : Fin 1) :
    val_main_call2_v11 (F := Ideal) L (ix5 b u h w e) = inRange (L (ix3 b h w)) := by
  rw [val_main_call2_v11_apply, val_main_call2_v7_apply, val_main_call2_v10_apply, idxWord5_apply, val_main_call2_v6_apply,
    val_main_call2_c_2_apply, val_main_call2_v9_apply, val_main_call2_v8_apply, val_main_call2_c_1_apply]
  rfl

/-- A fold over a one-element range combines the one element with the initial value. -/
theorem fold_fin_one {α : Type} (op : α → α → α) [Std.Commutative op] [Std.Associative op] (a : α) (f : Fin 1 → α) :
    (Finset.univ : Finset (Fin 1)).fold op a f = op (f 0) a := by
  rw [Finset.univ_unique, Finset.fold_singleton]
  rfl

/-- A conjunction over an axis of extent one, from the true bit, is the one element. -/
theorem andUnit_apply (y : IVec S16x1x512x512x1 1) (init : IVec S_ 1) (hinit : init (Shape.Idx.first h_S_) = 1#1)
    (b : Fin 16) (u : Fin 1) (h w : Fin 512) :
    Host.reduce IntOp.andi y init reducesTo_S16x1x512x512x1_S16x1x512x512_d4 h_S_ (ix4 b u h w)
      = y (ix5 b u h w (0 : Fin 1)) := by
  rw [Host.reduce_eq_fold_single IntOp.andi y init reducesTo_S16x1x512x512x1_S16x1x512x512_d4 (by decide) h_S_, hinit]
  refine (fold_fin_one IntOp.andi 1#1 _).trans ((andi_true _).trans ?_)
  exact congrArg y (funext fun a => Fin.ext (by
    match a with | ⟨0, _⟩ => rfl | ⟨1, _⟩ => rfl | ⟨2, _⟩ => rfl | ⟨3, _⟩ => rfl | ⟨4, _⟩ => rfl))

/-- The in-range bit at a pixel. -/
theorem inRange4_apply (L : IVec S16x512x512 32) (b : Fin 16) (u : Fin 1) (h w : Fin 512) :
    val_main_call2_v12 (F := Ideal) L (ix4 b u h w) = inRange (L (ix3 b h w)) := by
  unfold val_main_call2_v12
  generalize hy : val_main_call2_v11 (F := Ideal) L = y
  rw [andUnit_apply y (val_main_call2_c_3 (F := Ideal)) (val_main_call2_c_3_apply _), ← hy, inRange5_apply]

/-- The gathered log-probability at a pixel whose label is class `k`. -/
theorem gathered_class (X : FVec Ideal S16x6x512x512 .f32) (L : IVec S16x512x512 32) (b : Fin 16) (u : Fin 1) (h w : Fin 512)
    (k : Fin 6) (hl : L (ix3 b h w) = BitVec.ofNat 32 k.val) :
    val_main_call2_v13 (F := Ideal) X L (ix4 b u h w) = val_main_v0 (F := Ideal) X (ix4 b k h w) := by
  unfold val_main_call2_v13
  generalize val_main_v0 (F := Ideal) X = x
  show Host.gather (takeAlongDims 16 6 512 512 gather_S16x6x512x512_S16x1x512x512x1_S16x1x512x512_n_1_023_023_1_4_1111_wf)
    x (val_main_call2_v5 (F := Ideal) L) (ix4 b u h w) = _
  rw [takeAlong_apply (by decide)]
  refine congrArg x (congrArg (fun c : Fin 6 => ix4 b c h w) (Fin.ext ?_))
  show min (val_main_call2_v5 (F := Ideal) L (ix5 b u h w (0 : Fin 1))).toInt.toNat (6 - 1) = k.val
  rw [idxWord5_apply, hl, idxWord_class]

/-! ## The cross entropy at a pixel and the pixel loss -/

/-- The cross entropy at a pixel whose label is the ignored label or a class. -/
theorem ce_apply (X : FVec Ideal S16x6x512x512 .f32) (L : IVec S16x512x512 32)
    (hL : ∀ i, L i = 4294967295#32 ∨ ∃ k : Fin 6, L i = BitVec.ofNat 32 k.val) (b : Fin 16) (h w : Fin 512) :
    val_main_v9 (F := Ideal) X L (ix3 b h w) = pce (pix X b h w) (L (ix3 b h w)) := by
  rw [val_main_v9_apply, val_main_v2_apply, val_main_v1_apply, val_main_c_apply]
  rcases hL (ix3 b h w) with hl | ⟨k, hl⟩
  · rw [hl, ne_ignore_self, select_zero, val_main_v8_apply, val_main_cst_apply, pce_ignore]
    exact Ideal.ofBits_zero_f32
  · rw [hl, ne_ignore_class, select_one, val_main_v7_apply, val_main_v6_apply, dropUnit_ix3, val_main_v5_apply,
      inRange4_apply, hl, inRange_class, select_one, gathered_class X L b 0 h w k hl, logp_apply, pce_class]
    rfl

/-- The pixel loss, for labels that are the ignored label or a class. -/
theorem ref_ploss (X : FVec Ideal S16x6x512x512 .f32) (L : IVec S16x512x512 32)
    (hL : ∀ i, L i = 4294967295#32 ∨ ∃ k : Fin 6, L i = BitVec.ofNat 32 k.val) :
    val_main_v11 (F := Ideal) X L = plossArr X L := by
  funext i
  rw [val_main_v11_apply, val_main_v10_apply, val_main_cst_2_apply, val_main_cst_3_apply]
  show Ideal.div (Ideal.ofBits .f32 0x00000000#32 + ∑ j : S16x512x512.Idx, val_main_v9 (F := Ideal) X L j)
    (Ideal.ofBits .f32 0x4A800000#32) = Ideal.div (∑ b : Fin 16, ceS X L b) (Ideal.ofBits .f32 0x4A800000#32)
  rw [Ideal.ofBits_zero_f32, zero_add, sum_idx3 (n0 := 16) (n1 := 512) (n2 := 512)]
  refine congrArg (Ideal.div · _) (Finset.sum_congr rfl fun b _ => ?_)
  unfold ceS
  exact Finset.sum_congr rfl fun h _ => Finset.sum_congr rfl fun w _ => ce_apply X L hL b h w

end Cert.ReferenceIdeal.RefValue
end
-- ==== Proof.KernelPay.lean ====
import proofs.«407860_j47931835023728_1_alg».proof.Proof.Gen.KernelIdeal.Frame
import proofs.«407860_j47931835023728_1_alg».proof.Proof.LossRead

noncomputable section
namespace Cert.KernelIdeal.PayValue
open Cert.KernelIdeal Cert.KernelIdeal.Gen Cert.Loss Idealize.ShloMosaic Idealize.ShloMosaic.ValueIdx

/-- The six logits of pixel (h, w) of a [1, 6, 512, 512] block. -/
def bpix (x0 : FVec Ideal S1x6x512x512 .f32) (h w : Fin 512) : Fin 6 → EReal := fun c => x0 (ix4 (0 : Fin 1) c h w)

/-!
  The kernel body's values, read at an index. One pixel's six logits give the shifted logits, their exponentials, the
  sum of those, the log-probabilities and the probabilities; the label word gives the six one-hot weights; each
  [1, 1, 6] output holds, per class, the double sum over the 512 x 512 pixels of a plane built from these, and the
  [1, 1, 1] output the double sum of the pixel's cross entropy, which the body accumulates class by class from zero.
-/

/-! ## One pixel: shifted logits, exponentials, their sum, log-probabilities, probabilities -/

/-- The block viewed [6, 512, 512] holds, at (c, h, w), logit c of pixel (h, w). -/
theorem view6_apply (x0 : FVec Ideal S1x6x512x512 .f32) (c : Fin 6) (h w : Fin 512) :
    shapeCast S6x512x512 x0 shapeCasts_S1x6x512x512_S6x512x512 (ix3 c h w) = bpix x0 h w c :=
  shapeCast_1abc_abc_apply x0 _ c h w

/-- A [1, 512, 512] plane spread over the six classes reads, at (c, h, w), the plane at (0, h, w). -/
theorem spread_apply (v : FVec Ideal S1x512x512 .f32) (c : Fin 6) (h w : Fin 512) :
    broadcastTo S6x512x512 v broadcasts_S1x512x512_S6x512x512 (ix3 c h w) = v (ix3 (0 : Fin 1) h w) :=
  broadcastTo_apply v _ (ix3 c h w) (ix3 (0 : Fin 1) h w) fun a => by
    match a with
    | ⟨0, _⟩ => rfl
    | ⟨1, _⟩ => show _ = if (512 : Nat) = 1 then 0 else _; rw [if_neg (by decide)]; rfl
    | ⟨2, _⟩ => show _ = if (512 : Nat) = 1 then 0 else _; rw [if_neg (by decide)]; rfl

/-- The shifted logit: the kernel's difference of the block and its class-maximum spread back over the classes. -/
theorem pay3_apply (x0 : FVec Ideal S1x6x512x512 .f32) (c : Fin 6) (h w : Fin 512) :
    k0_pay3 (F := Ideal) x0 (ix3 c h w) = psh (bpix x0 h w) c := by
  unfold k0_pay3
  show shapeCast S6x512x512 x0 shapeCasts_S1x6x512x512_S6x512x512 (ix3 c h w) - _ = bpix x0 h w c - pmax (bpix x0 h w)
  refine congrArg₂ (· - ·) (view6_apply x0 c h w) ?_
  refine (spread_apply _ c h w).trans ?_
  refine (shapeCast_ab_1ab_apply _ _ 0 h w).trans ?_
  refine (kernel_max _ _ _ _ h w).trans ?_
  exact congrArg pmax (funext fun k => view6_apply x0 k h w)

/-- The exponential of the shifted logit of class c at a pixel. -/
theorem pay4_apply (x0 : FVec Ideal S1x6x512x512 .f32) (c : Fin 6) (h w : Fin 512) :
    k0_pay4 (F := Ideal) x0 (ix3 c h w) = Ideal.exp (psh (bpix x0 h w) c) := by
  unfold k0_pay4
  show Ideal.exp (k0_pay3 (F := Ideal) x0 (ix3 c h w)) = _
  rw [pay3_apply]

/-- The sum over the classes of the exponentials, kept as a [1, 512, 512] plane. -/
theorem pay5_apply (x0 : FVec Ideal S1x6x512x512 .f32) (h w : Fin 512) :
    k0_pay5 (F := Ideal) x0 (ix3 (0 : Fin 1) h w) = pse (bpix x0 h w) := by
  unfold k0_pay5
  refine (shapeCast_ab_1ab_apply _ _ 0 h w).trans ?_
  refine (Ideal.multiReduction_add_single _ _ _ _ _ (ix2 h w)).trans ?_
  show ∑ k : Fin 6, k0_pay4 (F := Ideal) x0 (reduces_S6x512x512_S512x512.lift (ix2 h w) k) = ∑ k : Fin 6, Ideal.exp (psh (bpix x0 h w) k)
  refine Finset.sum_congr rfl fun k _ => ?_
  refine Eq.trans (congrArg (k0_pay4 (F := Ideal) x0) ?_) (pay4_apply x0 k h w)
  exact funext fun a => Fin.ext (by match a with | ⟨0, _⟩ => rfl | ⟨1, _⟩ => rfl | ⟨2, _⟩ => rfl)

/-- The log-probability of class c at a pixel: the shifted logit less the logarithm of the sum of exponentials. -/
theorem pay6_apply (x0 : FVec Ideal S1x6x512x512 .f32) (c : Fin 6) (h w : Fin 512) :
    k0_pay6 (F := Ideal) x0 (ix3 c h w) = plp (bpix x0 h w) c := by
  unfold k0_pay6
  show k0_pay3 (F := Ideal) x0 (ix3 c h w) - _ = psh (bpix x0 h w) c - Ideal.log (pse (bpix x0 h w))
  refine congrArg₂ (· - ·) (pay3_apply x0 c h w) ?_
  refine (spread_apply _ c h w).trans ?_
  show Ideal.log (k0_pay5 (F := Ideal) x0 (ix3 (0 : Fin 1) h w)) = _
  rw [pay5_apply]

/-- The probability of class c at a pixel, as the quotient of the exponential by the sum of exponentials. -/
theorem pay7_apply (x0 : FVec Ideal S1x6x512x512 .f32) (c : Fin 6) (h w : Fin 512) :
    k0_pay7 (F := Ideal) x0 (ix3 c h w) = pprob (bpix x0 h w) c := by
  unfold k0_pay7
  show Ideal.div (k0_pay4 (F := Ideal) x0 (ix3 c h w)) _ = Ideal.div (Ideal.exp (psh (bpix x0 h w) c)) (pse (bpix x0 h w))
  refine congrArg₂ Ideal.div (pay4_apply x0 c h w) ?_
  refine (spread_apply _ c h w).trans ?_
  exact pay5_apply x0 h w

/-! ## The label plane, the one-hot weights, the class slices -/

/-- The label block viewed [512, 512] holds, at (h, w), the pixel's label word. -/
theorem lab_apply (x1 : Vec Ideal S1x512x512 .i32) (h w : Fin 512) :
    k0_pay2 (F := Ideal) x1 (ix2 h w) = x1 (ix3 (0 : Fin 1) h w) := by
  unfold k0_pay2
  exact shapeCast_1ab_ab_apply (α := BitVec 32) x1 _ h w

/-- A label plane compared with a constant plane, widened and converted: the one-hot weight of the class whose word
    the constant is. -/
theorem weight_apply (v3 : IVec S512x512 32) (k : BitVec 32) (c : Fin 6) (hk : k = BitVec.ofNat 32 c.val)
    (j : S512x512.Idx) :
    (sitofp .f32 (extui 32 (cmpi .eq v3 (broadcast S512x512 k)) natLt_1_32) : FVec Ideal S512x512 .f32) j
      = pmask (v3 j) c :=
  kernel_mask (v3 j) k c hk

/-- The one-hot weight plane of class 0, read at a pixel, is that pixel's weight of class 0. -/
theorem weight0_apply (x1 : Vec Ideal S1x512x512 .i32) (h w : Fin 512) :
    k0_pay8 (F := Ideal) x1 (ix2 h w) = pmask (x1 (ix3 (0 : Fin 1) h w)) 0 := by
  unfold k0_pay8
  refine (weight_apply _ 0#32 0 rfl (ix2 h w)).trans ?_
  rw [lab_apply]

/-- The one-hot weight plane of class 1, read at a pixel, is that pixel's weight of class 1. -/
theorem weight1_apply (x1 : Vec Ideal S1x512x512 .i32) (h w : Fin 512) :
    k0_pay15 (F := Ideal) (k0_pay2 (F := Ideal) x1) k0_pay14 (ix2 h w) = pmask (x1 (ix3 (0 : Fin 1) h w)) 1 := by
  unfold k0_pay15 k0_pay14
  refine (weight_apply _ 1#32 1 rfl (ix2 h w)).trans ?_
  rw [lab_apply]

/-- The one-hot weight plane of class 2, read at a pixel, is that pixel's weight of class 2. -/
theorem weight2_apply (x1 : Vec Ideal S1x512x512 .i32) (h w : Fin 512) :
    k0_pay20 (F := Ideal) (k0_pay2 (F := Ideal) x1) (ix2 h w) = pmask (x1 (ix3 (0 : Fin 1) h w)) 2 := by
  unfold k0_pay20
  refine (weight_apply _ 2#32 2 rfl (ix2 h w)).trans ?_
  rw [lab_apply]

/-- The one-hot weight plane of class 3, read at a pixel, is that pixel's weight of class 3. -/
theorem weight3_apply (x1 : Vec Ideal S1x512x512 .i32) (h w : Fin 512) :
    k0_pay27 (F := Ideal) (k0_pay2 (F := Ideal) x1) k0_pay26 (ix2 h w) = pmask (x1 (ix3 (0 : Fin 1) h w)) 3 := by
  unfold k0_pay27 k0_pay26
  refine (weight_apply _ 3#32 3 rfl (ix2 h w)).trans ?_
  rw [lab_apply]

/-- The one-hot weight plane of class 4, read at a pixel, is that pixel's weight of class 4. -/
theorem weight4_apply (x1 : Vec Ideal S1x512x512 .i32) (h w : Fin 512) :
    k0_pay32 (F := Ideal) (k0_pay2 (F := Ideal) x1) (ix2 h w) = pmask (x1 (ix3 (0 : Fin 1) h w)) 4 := by
  unfold k0_pay32
  refine (weight_apply _ 4#32 4 rfl (ix2 h w)).trans ?_
  rw [lab_apply]

/-- The one-hot weight plane of class 5, read at a pixel, is that pixel's weight of class 5. -/
theorem weight5_apply (x1 : Vec Ideal S1x512x512 .i32) (h w : Fin 512) :
    k0_pay39 (F := Ideal) (k0_pay2 (F := Ideal) x1) k0_pay38 (ix2 h w) = pmask (x1 (ix3 (0 : Fin 1) h w)) 5 := by
  unfold k0_pay39 k0_pay38
  refine (weight_apply _ 5#32 5 rfl (ix2 h w)).trans ?_
  rw [lab_apply]

/-- The slice of a [6, 512, 512] array at class offset o, viewed [512, 512], holds at (h, w) the array at (c, h, w)
    for the class c whose number o is. -/
theorem slice_apply (v : FVec Ideal S6x512x512 .f32) (o : Nat) (hs : S6x512x512.Slices ![o, 0, 0] S1x512x512)
    (c : Fin 6) (ho : c.val = o) (h w : Fin 512) :
    shapeCast S512x512 (extractStridedSlice S1x512x512 ![o, 0, 0] v hs) shapeCasts_S1x512x512_S512x512 (ix2 h w)
      = v (ix3 c h w) := by
  refine (shapeCast_1ab_ab_apply _ _ h w).trans ?_
  refine extractStridedSlice_apply _ v hs (ix3 (0 : Fin 1) h w) (ix3 c h w) fun a => ?_
  match a with
  | ⟨0, _⟩ => show c.val = o + 0; omega
  | ⟨1, _⟩ => show h.val = 0 + h.val; omega
  | ⟨2, _⟩ => show w.val = 0 + w.val; omega

/-! ## The per-class totals -/

/-- The kernel's total of a 512 x 512 plane whose entries are known: the double sum of those entries. -/
theorem total_of (p : FVec Ideal S512x512 .f32) (g : Fin 512 → Fin 512 → EReal) (hp : ∀ h w, p (ix2 h w) = g h w) :
    extractAt ![0, 0, 0] (shapeCast S1x1x1
        (multiReduction .add [1, 2] S1 (shapeCast S1x512x512 p shapeCasts_S512x512_S1x512x512) 0x00000000#32
          reduces_S1x512x512_S1 (.inl rfl) rfl) shapeCasts_S1_S1x1x1) inpos_S1x1x1_p0_0_0
      = ∑ h : Fin 512, ∑ w : Fin 512, g h w :=
  (plane_total p _ _ _ _ _ _).trans (Finset.sum_congr rfl fun h _ => Finset.sum_congr rfl fun w _ => hp h w)

/-- The kernel's total of the product of two 512 x 512 planes whose entries are known: the double sum of the products. -/
theorem total_mul (m p : FVec Ideal S512x512 .f32) (f g : Fin 512 → Fin 512 → EReal)
    (hm : ∀ h w, m (ix2 h w) = f h w) (hp : ∀ h w, p (ix2 h w) = g h w) :
    extractAt ![0, 0, 0] (shapeCast S1x1x1
        (multiReduction .add [1, 2] S1 (shapeCast S1x512x512 (mulf m p) shapeCasts_S512x512_S1x512x512) 0x00000000#32
          reduces_S1x512x512_S1 (.inl rfl) rfl) shapeCasts_S1_S1x1x1) inpos_S1x1x1_p0_0_0
      = ∑ h : Fin 512, ∑ w : Fin 512, f h w * g h w :=
  total_of (mulf m p) _ fun h w => congrArg₂ (· * ·) (hm h w) (hp h w)

/-- The probability plane of class 0, read at a pixel. -/
theorem prob0_apply (x0 : FVec Ideal S1x6x512x512 .f32) (h w : Fin 512) :
    k0_pay9 (F := Ideal) x0 (ix2 h w) = pprob (bpix x0 h w) 0 := by
  unfold k0_pay9
  exact (slice_apply _ 0 _ 0 rfl h w).trans (pay7_apply x0 0 h w)
/-- The probability plane of class 1, read at a pixel. -/
theorem prob1_apply (x0 : FVec Ideal S1x6x512x512 .f32) (h w : Fin 512) :
    k0_pay16 (F := Ideal) (k0_pay7 (F := Ideal) x0) (ix2 h w) = pprob (bpix x0 h w) 1 := by
  unfold k0_pay16
  exact (slice_apply _ 1 _ 1 rfl h w).trans (pay7_apply x0 1 h w)
/-- The probability plane of class 2, read at a pixel. -/
theorem prob2_apply (x0 : FVec Ideal S1x6x512x512 .f32) (h w : Fin 512) :
    k0_pay21 (F := Ideal) (k0_pay7 (F := Ideal) x0) (ix2 h w) = pprob (bpix x0 h w) 2 := by
  unfold k0_pay21
  exact (slice_apply _ 2 _ 2 rfl h w).trans (pay7_apply x0 2 h w)
/-- The probability plane of class 3, read at a pixel. -/
theorem prob3_apply (x0 : FVec Ideal S1x6x512x512 .f32) (h w : Fin 512) :
    k0_pay28 (F := Ideal) (k0_pay7 (F := Ideal) x0) (ix2 h w) = pprob (bpix x0 h w) 3 := by
  unfold k0_pay28
  exact (slice_apply _ 3 _ 3 rfl h w).trans (pay7_apply x0 3 h w)
/-- The probability plane of class 4, read at a pixel. -/
theorem prob4_apply (x0 : FVec Ideal S1x6x512x512 .f32) (h w : Fin 512) :
    k0_pay33 (F := Ideal) (k0_pay7 (F := Ideal) x0) (ix2 h w) = pprob (bpix x0 h w) 4 := by
  unfold k0_pay33
  exact (slice_apply _ 4 _ 4 rfl h w).trans (pay7_apply x0 4 h w)
/-- The probability plane of class 5, read at a pixel. -/
theorem prob5_apply (x0 : FVec Ideal S1x6x512x512 .f32) (h w : Fin 512) :
    k0_pay40 (F := Ideal) (k0_pay7 (F := Ideal) x0) (ix2 h w) = pprob (bpix x0 h w) 5 := by
  unfold k0_pay40
  exact (slice_apply _ 5 _ 5 rfl h w).trans (pay7_apply x0 5 h w)

/-- Class 0: the total over the pixels of weight x probability. -/
theorem inter0 (x0 : FVec Ideal S1x6x512x512 .f32) (x1 : Vec Ideal S1x512x512 .i32) :
    k0_pay11 (F := Ideal) x0 x1
      = ∑ h : Fin 512, ∑ w : Fin 512, pmask (x1 (ix3 (0 : Fin 1) h w)) 0 * pprob (bpix x0 h w) 0 := by
  unfold k0_pay11
  exact total_mul _ _ _ _ (weight0_apply x1) (prob0_apply x0)
/-- Class 0: the total over the pixels of the weight. -/
theorem ground0 (x1 : Vec Ideal S1x512x512 .i32) :
    k0_pay12 (F := Ideal) x1 = ∑ h : Fin 512, ∑ w : Fin 512, pmask (x1 (ix3 (0 : Fin 1) h w)) 0 := by
  unfold k0_pay12
  exact total_of _ _ (weight0_apply x1)
/-- Class 0: the total over the pixels of the probability. -/
theorem pred0 (x0 : FVec Ideal S1x6x512x512 .f32) :
    k0_pay13 (F := Ideal) x0 = ∑ h : Fin 512, ∑ w : Fin 512, pprob (bpix x0 h w) 0 := by
  unfold k0_pay13
  exact total_of _ _ (prob0_apply x0)

/-- Class 1: the total over the pixels of weight x probability. -/
theorem inter1 (x0 : FVec Ideal S1x6x512x512 .f32) (x1 : Vec Ideal S1x512x512 .i32) :
    k0_pay17 (F := Ideal) (k0_pay2 (F := Ideal) x1) (k0_pay7 (F := Ideal) x0) k0_pay14
      = ∑ h : Fin 512, ∑ w : Fin 512, pmask (x1 (ix3 (0 : Fin 1) h w)) 1 * pprob (bpix x0 h w) 1 := by
  unfold k0_pay17
  exact total_mul _ _ _ _ (weight1_apply x1) (prob1_apply x0)
/-- Class 1: the total over the pixels of the weight. -/
theorem ground1 (x1 : Vec Ideal S1x512x512 .i32) :
    k0_pay18 (F := Ideal) (k0_pay2 (F := Ideal) x1) k0_pay14
      = ∑ h : Fin 512, ∑ w : Fin 512, pmask (x1 (ix3 (0 : Fin 1) h w)) 1 := by
  unfold k0_pay18
  exact total_of _ _ (weight1_apply x1)
/-- Class 1: the total over the pixels of the probability. -/
theorem pred1 (x0 : FVec Ideal S1x6x512x512 .f32) :
    k0_pay19 (F := Ideal) (k0_pay7 (F := Ideal) x0) = ∑ h : Fin 512, ∑ w : Fin 512, pprob (bpix x0 h w) 1 := by
  unfold k0_pay19
  exact total_of _ _ (prob1_apply x0)

/-- Class 2: the total over the pixels of weight x probability. -/
theorem inter2 (x0 : FVec Ideal S1x6x512x512 .f32) (x1 : Vec Ideal S1x512x512 .i32) :
    k0_pay23 (F := Ideal) (k0_pay2 (F := Ideal) x1) (k0_pay7 (F := Ideal) x0)
      = ∑ h : Fin 512, ∑ w : Fin 512, pmask (x1 (ix3 (0 : Fin 1) h w)) 2 * pprob (bpix x0 h w) 2 := by
  unfold k0_pay23
  exact total_mul _ _ _ _ (weight2_apply x1) (prob2_apply x0)
/-- Class 2: the total over the pixels of the weight. -/
theorem ground2 (x1 : Vec Ideal S1x512x512 .i32) :
    k0_pay24 (F := Ideal) (k0_pay2 (F := Ideal) x1)
      = ∑ h : Fin 512, ∑ w : Fin 512, pmask (x1 (ix3 (0 : Fin 1) h w)) 2 := by
  unfold k0_pay24
  exact total_of _ _ (weight2_apply x1)
/-- Class 2: the total over the pixels of the probability. -/
theorem pred2 (x0 : FVec Ideal S1x6x512x512 .f32) :
    k0_pay25 (F := Ideal) (k0_pay7 (F := Ideal) x0) = ∑ h : Fin 512, ∑ w : Fin 512, pprob (bpix x0 h w) 2 := by
  unfold k0_pay25
  exact total_of _ _ (prob2_apply x0)

/-- Class 3: the total over the pixels of weight x probability. -/
theorem inter3 (x0 : FVec Ideal S1x6x512x512 .f32) (x1 : Vec Ideal S1x512x512 .i32) :
    k0_pay29 (F := Ideal) (k0_pay2 (F := Ideal) x1) (k0_pay7 (F := Ideal) x0) k0_pay26
      = ∑ h : Fin 512, ∑ w : Fin 512, pmask (x1 (ix3 (0 : Fin 1) h w)) 3 * pprob (bpix x0 h w) 3 := by
  unfold k0_pay29
  exact total_mul _ _ _ _ (weight3_apply x1) (prob3_apply x0)
/-- Class 3: the total over the pixels of the weight. -/
theorem ground3 (x1 : Vec Ideal S1x512x512 .i32) :
    k0_pay30 (F := Ideal) (k0_pay2 (F := Ideal) x1) k0_pay26
      = ∑ h : Fin 512, ∑ w : Fin 512, pmask (x1 (ix3 (0 : Fin 1) h w)) 3 := by
  unfold k0_pay30
  exact total_of _ _ (weight3_apply x1)
/-- Class 3: the total over the pixels of the probability. -/
theorem pred3 (x0 : FVec Ideal S1x6x512x512 .f32) :
    k0_pay31 (F := Ideal) (k0_pay7 (F := Ideal) x0) = ∑ h : Fin 512, ∑ w : Fin 512, pprob (bpix x0 h w) 3 := by
  unfold k0_pay31
  exact total_of _ _ (prob3_apply x0)

/-- Class 4: the total over the pixels of weight x probability. -/
theorem inter4 (x0 : FVec Ideal S1x6x512x512 .f32) (x1 : Vec Ideal S1x512x512 .i32) :
    k0_pay35 (F := Ideal) (k0_pay2 (F := Ideal) x1) (k0_pay7 (F := Ideal) x0)
      = ∑ h : Fin 512, ∑ w : Fin 512, pmask (x1 (ix3 (0 : Fin 1) h w)) 4 * pprob (bpix x0 h w) 4 := by
  unfold k0_pay35
  exact total_mul _ _ _ _ (weight4_apply x1) (prob4_apply x0)
/-- Class 4: the total over the pixels of the weight. -/
theorem ground4 (x1 : Vec Ideal S1x512x512 .i32) :
    k0_pay36 (F := Ideal) (k0_pay2 (F := Ideal) x1)
      = ∑ h : Fin 512, ∑ w : Fin 512, pmask (x1 (ix3 (0 : Fin 1) h w)) 4 := by
  unfold k0_pay36
  exact total_of _ _ (weight4_apply x1)
/-- Class 4: the total over the pixels of the probability. -/
theorem pred4 (x0 : FVec Ideal S1x6x512x512 .f32) :
    k0_pay37 (F := Ideal) (k0_pay7 (F := Ideal) x0) = ∑ h : Fin 512, ∑ w : Fin 512, pprob (bpix x0 h w) 4 := by
  unfold k0_pay37
  exact total_of _ _ (prob4_apply x0)

/-- Class 5: the total of the probability (the other two are computed inside the output blocks). -/
theorem pred5 (x0 : FVec Ideal S1x6x512x512 .f32) :
    k0_pay41 (F := Ideal) (k0_pay7 (F := Ideal) x0) = ∑ h : Fin 512, ∑ w : Fin 512, pprob (bpix x0 h w) 5 := by
  unfold k0_pay41
  exact total_of _ _ (prob5_apply x0)

/-! ## The cross entropy, accumulated class by class -/

/-- The log-probability plane of class c, cut from the [6, 512, 512] array of log-probabilities. -/
theorem logp_slice (x0 : FVec Ideal S1x6x512x512 .f32) (o : Nat) (hs : S6x512x512.Slices ![o, 0, 0] S1x512x512)
    (c : Fin 6) (ho : c.val = o) (h w : Fin 512) :
    shapeCast S512x512 (extractStridedSlice S1x512x512 ![o, 0, 0] (k0_pay6 (F := Ideal) x0) hs)
        shapeCasts_S1x512x512_S512x512 (ix2 h w) = plp (bpix x0 h w) c :=
  (slice_apply _ o hs c ho h w).trans (pay6_apply x0 c h w)

/-- The accumulated cross-entropy plane after class 0: zero plus the weighted negated log-probability of class 0. -/
theorem acc0_apply (x0 : FVec Ideal S1x6x512x512 .f32) (x1 : Vec Ideal S1x512x512 .i32) (h w : Fin 512) :
    k0_pay10 (F := Ideal) x0 x1 (ix2 h w)
      = 0 + pmask (x1 (ix3 (0 : Fin 1) h w)) 0 * (0 - plp (bpix x0 h w) 0) := by
  unfold k0_pay10
  show Ideal.ofBits .f32 0x00000000#32 + k0_pay8 (F := Ideal) x1 (ix2 h w) * (Ideal.ofBits .f32 0x00000000#32 - _) = _
  rw [Ideal.ofBits_zero_f32, weight0_apply, logp_slice x0 0 _ 0 rfl h w]

/-- The accumulated cross-entropy plane after classes 1 and 2: the plane before plus the two classes' terms. -/
theorem acc2_apply (x0 : FVec Ideal S1x6x512x512 .f32) (x1 : Vec Ideal S1x512x512 .i32)
    (v28 : FVec Ideal S512x512 .f32) (h w : Fin 512) :
    k0_pay22 (F := Ideal) (k0_pay2 (F := Ideal) x1) (k0_pay6 (F := Ideal) x0) v28 k0_pay14 (ix2 h w)
      = v28 (ix2 h w) + pmask (x1 (ix3 (0 : Fin 1) h w)) 1 * (0 - plp (bpix x0 h w) 1)
          + pmask (x1 (ix3 (0 : Fin 1) h w)) 2 * (0 - plp (bpix x0 h w) 2) := by
  unfold k0_pay22
  show v28 (ix2 h w)
      + k0_pay15 (F := Ideal) (k0_pay2 (F := Ideal) x1) k0_pay14 (ix2 h w) * (Ideal.ofBits .f32 0x00000000#32 - _)
      + k0_pay20 (F := Ideal) (k0_pay2 (F := Ideal) x1) (ix2 h w) * (Ideal.ofBits .f32 0x00000000#32 - _) = _
  rw [Ideal.ofBits_zero_f32, weight1_apply, weight2_apply, logp_slice x0 1 _ 1 rfl h w, logp_slice x0 2 _ 2 rfl h w]

/-- The accumulated cross-entropy plane after classes 3 and 4: the plane before plus the two classes' terms. -/
theorem acc4_apply (x0 : FVec Ideal S1x6x512x512 .f32) (x1 : Vec Ideal S1x512x512 .i32)
    (v78 : FVec Ideal S512x512 .f32) (h w : Fin 512) :
    k0_pay34 (F := Ideal) (k0_pay2 (F := Ideal) x1) (k0_pay6 (F := Ideal) x0) v78 k0_pay26 (ix2 h w)
      = v78 (ix2 h w) + pmask (x1 (ix3 (0 : Fin 1) h w)) 3 * (0 - plp (bpix x0 h w) 3)
          + pmask (x1 (ix3 (0 : Fin 1) h w)) 4 * (0 - plp (bpix x0 h w) 4) := by
  unfold k0_pay34
  show v78 (ix2 h w)
      + k0_pay27 (F := Ideal) (k0_pay2 (F := Ideal) x1) k0_pay26 (ix2 h w) * (Ideal.ofBits .f32 0x00000000#32 - _)
      + k0_pay32 (F := Ideal) (k0_pay2 (F := Ideal) x1) (ix2 h w) * (Ideal.ofBits .f32 0x00000000#32 - _) = _
  rw [Ideal.ofBits_zero_f32, weight3_apply, weight4_apply, logp_slice x0 3 _ 3 rfl h w, logp_slice x0 4 _ 4 rfl h w]

/-- The accumulated plane plus class 5's term, at a pixel. -/
theorem acc5_apply (x0 : FVec Ideal S1x6x512x512 .f32) (x1 : Vec Ideal S1x512x512 .i32)
    (v128 : FVec Ideal S512x512 .f32) (h w : Fin 512) :
    addf v128 (mulf (k0_pay39 (F := Ideal) (k0_pay2 (F := Ideal) x1) k0_pay38)
        (subf (broadcast S512x512 (Scalar.ofBits (F := Ideal) .f32 0x00000000#32))
          (shapeCast S512x512 (extractStridedSlice S1x512x512 ![5, 0, 0] (k0_pay6 (F := Ideal) x0)
            slices_S6x512x512_o5_0_0_S1x512x512) shapeCasts_S1x512x512_S512x512))) (ix2 h w)
      = v128 (ix2 h w) + pmask (x1 (ix3 (0 : Fin 1) h w)) 5 * (0 - plp (bpix x0 h w) 5) := by
  show v128 (ix2 h w)
      + k0_pay39 (F := Ideal) (k0_pay2 (F := Ideal) x1) k0_pay38 (ix2 h w) * (Ideal.ofBits .f32 0x00000000#32 - _) = _
  rw [Ideal.ofBits_zero_f32, weight5_apply, logp_slice x0 5 _ 5 rfl h w]

/-- The [1, 1, 1] block: the total, over the pixels, of the accumulated plane plus class 5's term. -/
theorem ce_block_apply (x0 : FVec Ideal S1x6x512x512 .f32) (x1 : Vec Ideal S1x512x512 .i32)
    (v128 : FVec Ideal S512x512 .f32) :
    k0_pay42 (F := Ideal) (k0_pay2 (F := Ideal) x1) (k0_pay6 (F := Ideal) x0) v128 k0_pay38
        (ix3 (0 : Fin 1) (0 : Fin 1) (0 : Fin 1))
      = ∑ h : Fin 512, ∑ w : Fin 512,
          (v128 (ix2 h w) + pmask (x1 (ix3 (0 : Fin 1) h w)) 5 * (0 - plp (bpix x0 h w) 5)) := by
  unfold k0_pay42
  refine (broadcast_apply _ _).trans ?_
  exact total_of _ _ (acc5_apply x0 x1 v128)

/-! ## A [1, 1, 6] block of six numbers -/

/-- Six numbers, each spread to a one-element vector, joined into a six-vector and viewed [1, 1, 6]: when the k-th
    number is the value at k of a function of the class, the block holds at (0, 0, c) that function's value at c. -/
theorem six_apply (a0 a1 a2 a3 a4 a5 : EReal) (g : Fin 6 → EReal) (h0 : a0 = g 0) (h1 : a1 = g 1) (h2 : a2 = g 2)
    (h3 : a3 = g 3) (h4 : a4 = g 4) (h5 : a5 = g 5) (c : Fin 6) :
    shapeCast S1x1x6 (concatenate S6 0 [⟨S1, broadcast S1 a0⟩, ⟨S1, broadcast S1 a1⟩, ⟨S1, broadcast S1 a2⟩,
        ⟨S1, broadcast S1 a3⟩, ⟨S1, broadcast S1 a4⟩, ⟨S1, broadcast S1 a5⟩]
        concatenates_S1_S1_S1_S1_S1_S1_S6_d0) shapeCasts_S6_S1x1x6 (ix3 (0 : Fin 1) (0 : Fin 1) c)
      = g c := by
  subst h0 h1 h2 h3 h4 h5
  refine (shapeCast_apply _ shapeCasts_S6_S1x1x6 _ (ix1 c) (by
    rw [Shape.rowMajor_val_one, Shape.rowMajor_val_three]
    show c.val = (0 * 1 + 0) * 6 + c.val
    omega)).trans ?_
  match c with
  | ⟨0, _⟩ => rfl
  | ⟨1, _⟩ => rfl
  | ⟨2, _⟩ => rfl
  | ⟨3, _⟩ => rfl
  | ⟨4, _⟩ => rfl
  | ⟨5, _⟩ => rfl

/-! ## The four output blocks -/

/-- The zero offsets of a rank-3 whole-block rectangle. -/
theorem hz3 : (![0, 0, 0] : Fin 3 → Nat) = fun _ => 0 := funext fun a => by fin_cases a <;> rfl
/-- The zero offsets of a rank-4 whole-block rectangle. -/
theorem hz4 : (![0, 0, 0, 0] : Fin 4 → Nat) = fun _ => 0 := funext fun a => by fin_cases a <;> rfl

/-- Class 5: the total over the pixels of weight x probability, as the output block computes it in place. -/
theorem inter5 (x0 : FVec Ideal S1x6x512x512 .f32) (x1 : Vec Ideal S1x512x512 .i32) :
    extractAt ![0, 0, 0] (shapeCast S1x1x1
        (multiReduction .add [1, 2] S1 (shapeCast S1x512x512
          (mulf (k0_pay39 (F := Ideal) (k0_pay2 (F := Ideal) x1) k0_pay38) (k0_pay40 (F := Ideal) (k0_pay7 (F := Ideal) x0)))
          shapeCasts_S512x512_S1x512x512) 0x00000000#32
          reduces_S1x512x512_S1 (.inl rfl) rfl) shapeCasts_S1_S1x1x1) inpos_S1x1x1_p0_0_0
      = ∑ h : Fin 512, ∑ w : Fin 512, pmask (x1 (ix3 (0 : Fin 1) h w)) 5 * pprob (bpix x0 h w) 5 :=
  total_mul _ _ _ _ (weight5_apply x1) (prob5_apply x0)
/-- Class 5: the total over the pixels of the weight, as the output block computes it in place. -/
theorem ground5 (x1 : Vec Ideal S1x512x512 .i32) :
    extractAt ![0, 0, 0] (shapeCast S1x1x1
        (multiReduction .add [1, 2] S1 (shapeCast S1x512x512
          (k0_pay39 (F := Ideal) (k0_pay2 (F := Ideal) x1) k0_pay38)
          shapeCasts_S512x512_S1x512x512) 0x00000000#32
          reduces_S1x512x512_S1 (.inl rfl) rfl) shapeCasts_S1_S1x1x1) inpos_S1x1x1_p0_0_0
      = ∑ h : Fin 512, ∑ w : Fin 512, pmask (x1 (ix3 (0 : Fin 1) h w)) 5 :=
  total_of _ _ (weight5_apply x1)

/-- The [1, 1, 1] output: the sum over the pixels of the cross entropy. -/
theorem out2_apply (x0 : Vec Ideal S1x6x512x512 .f32) (x1 : Vec Ideal S1x512x512 .i32) :
    out0_2 x0 x1 (ix3 (0 : Fin 1) (0 : Fin 1) (0 : Fin 1))
      = ∑ h : Fin 512, ∑ w : Fin 512, pce (bpix x0 h w) (x1 (ix3 (0 : Fin 1) h w)) := by
  unfold out0_2
  rw [View.canon_unit_zero hz3]
  simp only [View.ld_unit_zero (S := S1x6x512x512) hz4, View.ld_unit_zero (S := S1x512x512) hz3]
  refine (ce_block_apply x0 x1 _).trans ?_
  refine Finset.sum_congr rfl fun h _ => Finset.sum_congr rfl fun w _ => ?_
  rw [acc4_apply, acc2_apply, acc0_apply, pce, Fin.sum_univ_six, zero_add]

/-- The first [1, 1, 6] output: per class, the sum over the pixels of weight x probability. -/
theorem out3_apply (x0 : Vec Ideal S1x6x512x512 .f32) (x1 : Vec Ideal S1x512x512 .i32) (c : Fin 6) :
    out0_3 x0 x1 (ix3 (0 : Fin 1) (0 : Fin 1) c)
      = ∑ h : Fin 512, ∑ w : Fin 512, pmask (x1 (ix3 (0 : Fin 1) h w)) c * pprob (bpix x0 h w) c := by
  unfold out0_3
  rw [View.canon_unit_zero hz3]
  simp only [View.ld_unit_zero (S := S1x6x512x512) hz4, View.ld_unit_zero (S := S1x512x512) hz3]
  unfold k0_pay43
  exact six_apply _ _ _ _ _ _
    (fun k => ∑ h : Fin 512, ∑ w : Fin 512, pmask (x1 (ix3 (0 : Fin 1) h w)) k * pprob (bpix x0 h w) k)
    (inter0 x0 x1) (inter1 x0 x1) (inter2 x0 x1) (inter3 x0 x1) (inter4 x0 x1) (inter5 x0 x1) c

/-- The second [1, 1, 6] output: per class, the sum over the pixels of the weight. -/
theorem out4_apply (x0 : Vec Ideal S1x6x512x512 .f32) (x1 : Vec Ideal S1x512x512 .i32) (c : Fin 6) :
    out0_4 x0 x1 (ix3 (0 : Fin 1) (0 : Fin 1) c) = ∑ h : Fin 512, ∑ w : Fin 512, pmask (x1 (ix3 (0 : Fin 1) h w)) c := by
  unfold out0_4
  rw [View.canon_unit_zero hz3]
  simp only [View.ld_unit_zero (S := S1x512x512) hz3]
  unfold k0_pay44
  exact six_apply _ _ _ _ _ _
    (fun k => ∑ h : Fin 512, ∑ w : Fin 512, pmask (x1 (ix3 (0 : Fin 1) h w)) k)
    (ground0 x1) (ground1 x1) (ground2 x1) (ground3 x1) (ground4 x1) (ground5 x1) c

/-- The third [1, 1, 6] output: per class, the sum over the pixels of the probability. -/
theorem out5_apply (x0 : Vec Ideal S1x6x512x512 .f32) (x1 : Vec Ideal S1x512x512 .i32) (c : Fin 6) :
    out0_5 x0 x1 (ix3 (0 : Fin 1) (0 : Fin 1) c) = ∑ h : Fin 512, ∑ w : Fin 512, pprob (bpix x0 h w) c := by
  unfold out0_5
  rw [View.canon_unit_zero hz3]
  simp only [View.ld_unit_zero (S := S1x6x512x512) hz4]
  unfold k0_pay1
  exact six_apply _ _ _ _ _ _
    (fun k => ∑ h : Fin 512, ∑ w : Fin 512, pprob (bpix x0 h w) k)
    (pred0 x0) (pred1 x0) (pred2 x0) (pred3 x0) (pred4 x0) (pred5 x0) c

end Cert.KernelIdeal.PayValue
end
-- ==== Proof.KernelValue.lean ====
/-
  The kernel's program read as a value. Grid point `t` works on batch element `t`: its logits block is that batch
  element's [6, 512, 512] slab and its labels block that batch element's [512, 512] plane, and it writes back block `t`
  of each of the four output arrays: the batch element's summed cross entropy, and per class its summed weighted
  probabilities, label counts and probabilities. The sixteen blocks cover each output array, so after the region the four
  arrays are those per-batch sums as functions of the whole logits and labels. The operations after the region view
  the arrays [16] and [16, 6], take the pixel loss from the cross-entropy sums and apply the tail both programs share.
-/
import proofs.«407860_j47931835023728_1_alg».proof.Proof.Gen.KernelIdeal.Frame
import proofs.«407860_j47931835023728_1_alg».proof.Proof.KernelPay
import proofs.«407860_j47931835023728_1_alg».proof.Proof.LossRead
import proofs.«407860_j47931835023728_1_alg».proof.Proof.LossArrays
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.Loss
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem N_eq : cfg0.N = 16 := rfl

/-- The batch element a grid point works on. -/
abbrev bt (t : Fin cfg0.N) : Fin 16 := t.cast N_eq

/-- The logits and the labels as the region finds them. -/
abbrev Xa (c : Dev nD) : FVec Ideal S16x6x512x512 .f32 := V m c main_arg0
abbrev La (c : Dev nD) : IVec S16x512x512 32 := V m c main_arg1

theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The logits block of grid point `t` is batch element `t` of the logits. -/
theorem blk0_read (c : Dev nD) (t : Fin cfg0.N) (k : Fin 6) (h w : Fin 512) :
    iblk m c 0 t (ix4 (0 : Fin 1) k h w) = Xa m c (ix4 (bt t) k h w) := by
  show V m c main_arg0 (((cfg0.win 0).blk t).view.emb (ix4 (0 : Fin 1) k h w)) = V m c main_arg0 (ix4 (bt t) k h w)
  refine congrArg _ (funext fun a => Fin.ext ?_)
  obtain ⟨e0, e1, e2, e3, -⟩ := idx_facts t
  match a with
  | ⟨0, _⟩ => show win0_0.index t (0 : Fin 4) * 1 + 1 * 0 = t.val; omega
  | ⟨1, _⟩ => show win0_0.index t (1 : Fin 4) * 6 + 1 * k.val = k.val; omega
  | ⟨2, _⟩ => show win0_0.index t (2 : Fin 4) * 512 + 1 * h.val = h.val; omega
  | ⟨3, _⟩ => show win0_0.index t (3 : Fin 4) * 512 + 1 * w.val = w.val; omega

/-- The labels block of grid point `t` is batch element `t` of the labels. -/
theorem blk1_read (c : Dev nD) (t : Fin cfg0.N) (h w : Fin 512) :
    iblk m c 1 t (ix3 (0 : Fin 1) h w) = La m c (ix3 (bt t) h w) := by
  show V m c main_arg1 (((cfg0.win 1).blk t).view.emb (ix3 (0 : Fin 1) h w)) = V m c main_arg1 (ix3 (bt t) h w)
  refine congrArg _ (funext fun a => Fin.ext ?_)
  obtain ⟨-, -, -, -, e0, e1, e2, -⟩ := idx_facts t
  match a with
  | ⟨0, _⟩ => show win0_1.index t (0 : Fin 3) * 1 + 1 * 0 = t.val; omega
  | ⟨1, _⟩ => show win0_1.index t (1 : Fin 3) * 512 + 1 * h.val = h.val; omega
  | ⟨2, _⟩ => show win0_1.index t (2 : Fin 3) * 512 + 1 * w.val = w.val; omega

open Cert.KernelIdeal.PayValue

/-- The logits of a pixel of the block of grid point `t` are those of batch element `t`. -/
theorem bpix_blk (c : Dev nD) (t : Fin cfg0.N) (h w : Fin 512) :
    bpix (iblk m c 0 t) h w = pix (Xa m c) (bt t) h w :=
  funext fun k => blk0_read m c t k h w

/-- The one index of a [1, 1, 1] block. -/
theorem idx111 (y : (⟨3, ![1, 1, 1]⟩ : Shape).Idx) : y = ix3 (0 : Fin 1) (0 : Fin 1) (0 : Fin 1) := by
  funext a; apply Fin.ext
  match a with
  | ⟨0, _⟩ => exact Nat.lt_one_iff.mp (y 0).isLt
  | ⟨1, _⟩ => exact Nat.lt_one_iff.mp (y 1).isLt
  | ⟨2, _⟩ => exact Nat.lt_one_iff.mp (y 2).isLt

/-! ## The summed cross entropy (output window 2) -/

/-- Per batch element the summed cross entropy, as a [16, 1, 1] array. -/
def pixOut (X : FVec Ideal S16x6x512x512 .f32) (L : IVec S16x512x512 32) : S16x1x1.Idx → EReal :=
  fun i => ceS X L (i 0)

theorem emb2 (t : Fin cfg0.N) (y : S1x1x1.Idx) : ((cfg0.win 2).blk t).view.emb y = ix3 (bt t) (0 : Fin 1) (0 : Fin 1) := by
  rw [idx111 y]
  funext a; apply Fin.ext
  obtain ⟨-, -, -, -, -, -, -, e0, e1, e2, -⟩ := idx_facts t
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 1 + 1 * 0 = 0; omega

/-- What grid point `t` writes back is block `t` of the per-batch cross-entropy sums. -/
theorem flushed2_eq (c : Dev nD) (t : Fin cfg0.N) :
    (dats m 0 c).flushed 2 t = ((cfg0.win 2).blk t).view.read (Elt Ideal) (pixOut (Xa m c) (La m c)) := by
  show (cfg0.win 2).cut (grid0.coords t) ((dats m 0 c).after 2 t) = _
  rw [after0_2]
  funext y
  show out0_2 (iblk m c 0 t) (iblk m c 1 t) y = pixOut (Xa m c) (La m c) (((cfg0.win 2).blk t).view.emb y)
  rw [emb2 t y, idx111 y]
  refine (out2_apply (iblk m c 0 t) (iblk m c 1 t)).trans ?_
  show _ = ceS (Xa m c) (La m c) (bt t)
  unfold ceS
  refine Finset.sum_congr rfl fun h _ => Finset.sum_congr rfl fun w _ => ?_
  rw [bpix_blk, blk1_read]

theorem mem_blk2 (t : Fin cfg0.N) (i : S16x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v0_0).slice (win0_2.rect t)).set ↔ _
  rw [View.set_slice_whole, Rect.mem_set_unit]
  exact Iff.rfl

/-- Every index of the array is in the block of its batch element's grid point. -/
theorem cover2 (i : S16x1x1.Idx) : ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 1 := (i 2).isLt
  have ht : ((⟨(i 0).val, h0⟩ : Fin cfg0.N) : Nat) = (i 0).val := rfl
  refine ⟨⟨(i 0).val, h0⟩, flush0_2 _, ?_⟩
  rw [mem_blk2]
  obtain ⟨-, -, -, -, -, -, -, e0, e1, e2, -⟩ := idx_facts ⟨(i 0).val, h0⟩
  intro a
  match a with
  | ⟨0, _⟩ => show win0_2.index _ (0 : Fin 3) * 1 ≤ (i 0).val ∧ (i 0).val < win0_2.index _ (0 : Fin 3) * 1 + 1; rw [e0, ht]; omega
  | ⟨1, _⟩ => show win0_2.index _ (1 : Fin 3) * 1 ≤ (i 1).val ∧ (i 1).val < win0_2.index _ (1 : Fin 3) * 1 + 1; rw [e1]; omega
  | ⟨2, _⟩ => show win0_2.index _ (2 : Fin 3) * 1 ≤ (i 2).val ∧ (i 2).val < win0_2.index _ (2 : Fin 3) * 1 + 1; rw [e2]; omega

/-- The array after the run: the per-batch cross-entropy sums. -/
theorem final2 (c : Dev nD) : (dats m 0 c).arrAt 2 cfg0.N = pixOut (Xa m c) (La m c) :=
  (dats m 0 c).arrAt_eq_of_cover 2 (pixOut (Xa m c) (La m c)) (fun t _ => flushed2_eq m c t) cover2

/-- An index of a [1, 1, 6] block is its class coordinate. -/
theorem idx116 (y : (⟨3, ![1, 1, 6]⟩ : Shape).Idx) : ∃ k : Fin 6, y = ix3 (0 : Fin 1) (0 : Fin 1) k := by
  refine ⟨y 2, ?_⟩
  funext a; apply Fin.ext
  match a with
  | ⟨0, _⟩ => exact Nat.lt_one_iff.mp (y 0).isLt
  | ⟨1, _⟩ => exact Nat.lt_one_iff.mp (y 1).isLt
  | ⟨2, _⟩ => rfl

/-! ## The summed weighted probabilities (output window 3) -/

/-- Per batch element and class the summed weighted probabilities, as a [16, 1, 6] array. -/
def interOut (X : FVec Ideal S16x6x512x512 .f32) (L : IVec S16x512x512 32) : S16x1x6.Idx → EReal :=
  fun i => interS X L (i 0) (i 2)

theorem emb3 (t : Fin cfg0.N) (k : Fin 6) :
    ((cfg0.win 3).blk t).view.emb (ix3 (0 : Fin 1) (0 : Fin 1) k) = ix3 (bt t) (0 : Fin 1) k := by
  funext a; apply Fin.ext
  obtain ⟨-, -, -, -, -, -, -, -, -, -, e0, e1, e2, -⟩ := idx_facts t
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 6 + 1 * k.val = k.val; omega

/-- What grid point `t` writes back is block `t` of that array. -/
theorem flushed3_eq (c : Dev nD) (t : Fin cfg0.N) :
    (dats m 0 c).flushed 3 t = ((cfg0.win 3).blk t).view.read (Elt Ideal) (interOut (Xa m c) (La m c)) := by
  show (cfg0.win 3).cut (grid0.coords t) ((dats m 0 c).after 3 t) = _
  rw [after0_3]
  funext y
  show out0_3 (iblk m c 0 t) (iblk m c 1 t) y = interOut (Xa m c) (La m c) (((cfg0.win 3).blk t).view.emb y)
  obtain ⟨k, rfl⟩ := idx116 y
  rw [emb3 t k]
  refine (out3_apply (iblk m c 0 t) (iblk m c 1 t) k).trans ?_
  show _ = interS (Xa m c) (La m c) (bt t) k
  unfold interS
  refine Finset.sum_congr rfl fun h _ => Finset.sum_congr rfl fun w _ => ?_
  rw [bpix_blk, blk1_read]

theorem mem_blk3 (t : Fin cfg0.N) (i : S16x1x6.Idx) :
    i ∈ ((cfg0.win 3).blk t).view.set ↔ ∀ a : Fin 3, win0_3.index t a * S1x1x6.size a ≤ (i a).val ∧ (i a).val < win0_3.index t a * S1x1x6.size a + S1x1x6.size a := by
  show i ∈ ((View.whole main_v0_1).slice (win0_3.rect t)).set ↔ _
  rw [View.set_slice_whole, Rect.mem_set_unit]
  exact Iff.rfl

/-- Every index of the array is in the block of its batch element's grid point. -/
theorem cover3 (i : S16x1x6.Idx) : ∃ t : Fin cfg0.N, (cfg0.win 3).flush t = true ∧ i ∈ ((cfg0.win 3).blk t).view.set := by
  have h0 : (i 0).val < 16 := (i 0).isLt
  have h1 : (i 1).val < 1 := (i 1).isLt
  have h2 : (i 2).val < 6 := (i 2).isLt
  have ht : ((⟨(i 0).val, h0⟩ : Fin cfg0.N) : Nat) = (i 0).val := rfl
  refine ⟨⟨(i 0).val, h0⟩, flush0_3 _, ?_⟩
  rw [mem_blk3]
  obtain ⟨-, -, -, -, -, -, -, -, -, -, e0, e1, e2, -⟩ := idx_facts ⟨(i 0).val, h0⟩
  intro a
  match a with
  | ⟨0, _⟩ => show win0_3.index _ (0 : Fin 3) * 1 ≤ (i 0).val ∧ (i 0).val < win0_3.index _ (0 : Fin 3) * 1 + 1; rw [e0, ht]; omega
  | ⟨1, _⟩ => show win0_3.index _ (1 : Fin 3) * 1 ≤ (i 1).val ∧ (i 1).val < win0_3.index _ (1 : Fin 3) * 1 + 1; rw [e1]; omega
  | ⟨2, _⟩ => show win0_3.index _ (2 : Fin 3) * 6 ≤ (i 2).val ∧ (i 2).val < win0_3.index _ (2 : Fin 3) * 6 + 6; rw [e2]; omega

/-- The array after the run. -/
theorem final3 (c : Dev nD) : (dats m 0 c).arrAt 3 cfg0.N = interOut (Xa m c) (La m c) :=
  (dats m 0 c).arrAt_eq_of_cover 3 (interOut (Xa m c) (La m c)) (fun t _ => flushed3_eq m c t) cover3

/-! ## The label counts (output window 4) -/

/-- Per batch element and class the label count, as a [16, 1, 6] array. -/
def groundOut (L : IVec S16x512x512 32) : S16x1x6.Idx → EReal :=
  fun i => groundS L (i 0) (i 2)

theorem emb4 (t : Fin cfg0.N) (k : Fin 6) :
    ((cfg0.win 4).blk t).view.emb (ix3 (0 : Fin 1) (0 : Fin 1) k) = ix3 (bt t) (0 : Fin 1) k := by
  funext a; apply Fin.ext
  obtain ⟨-, -, -, -, -, -, -, -, -, -, -, -, -, e0, e1, e2, -⟩ := idx_facts t
  match a with
  | ⟨0, _⟩ => show win0_4.index t (0 : Fin 3) * 1 + 1 * 0 = t.val; omega
  | ⟨1, _⟩ => show win0_4.index t (1 : Fin 3) * 1 + 1 * 0 = 0; omega
  | ⟨2, _⟩ => show win0_4.index t (2 : Fin 3) * 6 + 1 * k.val = k.val; omega

/-- What grid point `t` writes back is block `t` of that array. -/
theorem flushed4_eq (c : Dev nD) (t : Fin cfg0.N) :
    (dats m 0 c).flushed 4 t = ((cfg0.win 4).blk t).view.read (Elt Ideal) (groundOut (La m c)) := by
  show (cfg0.win 4).cut (grid0.coords t) ((dats m 0 c).after 4 t) = _
  rw [after0_4]
  funext y
  show out0_4 (iblk m c 0 t) (iblk m c 1 t) y = groundOut (La m c) (((cfg0.win 4).blk t).view.emb y)
  obtain ⟨k, rfl⟩ := idx116 y
  rw [emb4 t k]
  refine (out4_apply (iblk m c 0 t) (iblk m c 1 t) k).trans ?_
  show _ = groundS (La m c) (bt t) k
  unfold groundS
  refine Finset.sum_congr rfl fun h _ => Finset.sum_congr rfl fun w _ => ?_
  rw [blk1_read]

theorem mem_blk4 (t : Fin cfg0.N) (i : S16x1x6.Idx) :
    i ∈ ((cfg0.win 4).blk t).view.set ↔ ∀ a : Fin 3, win0_4.index t a * S1x1x6.size a ≤ (i a).val ∧ (i a).val < win0_4.index t a * S1x1x6.size a + S1x1x6.size a := by
  show i ∈ ((View.whole main_v0_2).slice (win0_4.rect t)).set ↔ _
  rw [View.set_slice_whole, Rect.mem_set_unit]
  exact Iff.rfl

/-- Every index of the array is in the block of its batch element's grid point. -/
theorem cover4 (i : S16x1x6.Idx) : ∃ t : Fin cfg0.N, (cfg0.win 4).flush t = true ∧ i ∈ ((cfg0.win 4).blk t).view.set := by
  have h0 : (i 0).val < 16 := (i 0).isLt
  have h1 : (i 1).val < 1 := (i 1).isLt
  have h2 : (i 2).val < 6 := (i 2).isLt
  have ht : ((⟨(i 0).val, h0⟩ : Fin cfg0.N) : Nat) = (i 0).val := rfl
  refine ⟨⟨(i 0).val, h0⟩, flush0_4 _, ?_⟩
  rw [mem_blk4]
  obtain ⟨-, -, -, -, -, -, -, -, -, -, -, -, -, e0, e1, e2, -⟩ := idx_facts ⟨(i 0).val, h0⟩
  intro a
  match a with
  | ⟨0, _⟩ => show win0_4.index _ (0 : Fin 3) * 1 ≤ (i 0).val ∧ (i 0).val < win0_4.index _ (0 : Fin 3) * 1 + 1; rw [e0, ht]; omega
  | ⟨1, _⟩ => show win0_4.index _ (1 : Fin 3) * 1 ≤ (i 1).val ∧ (i 1).val < win0_4.index _ (1 : Fin 3) * 1 + 1; rw [e1]; omega
  | ⟨2, _⟩ => show win0_4.index _ (2 : Fin 3) * 6 ≤ (i 2).val ∧ (i 2).val < win0_4.index _ (2 : Fin 3) * 6 + 6; rw [e2]; omega

/-- The array after the run. -/
theorem final4 (c : Dev nD) : (dats m 0 c).arrAt 4 cfg0.N = groundOut (La m c) :=
  (dats m 0 c).arrAt_eq_of_cover 4 (groundOut (La m c)) (fun t _ => flushed4_eq m c t) cover4

/-! ## The summed probabilities (output window 5) -/

/-- Per batch element and class the summed probability, as a [16, 1, 6] array. -/
def predOut (X : FVec Ideal S16x6x512x512 .f32) : S16x1x6.Idx → EReal :=
  fun i => predS X (i 0) (i 2)

theorem emb5 (t : Fin cfg0.N) (k : Fin 6) :
    ((cfg0.win 5).blk t).view.emb (ix3 (0 : Fin 1) (0 : Fin 1) k) = ix3 (bt t) (0 : Fin 1) k := by
  funext a; apply Fin.ext
  obtain ⟨-, -, -, -, -, -, -, -, -, -, -, -, -, -, -, -, e0, e1, e2⟩ := idx_facts t
  match a with
  | ⟨0, _⟩ => show win0_5.index t (0 : Fin 3) * 1 + 1 * 0 = t.val; omega
  | ⟨1, _⟩ => show win0_5.index t (1 : Fin 3) * 1 + 1 * 0 = 0; omega
  | ⟨2, _⟩ => show win0_5.index t (2 : Fin 3) * 6 + 1 * k.val = k.val; omega

/-- What grid point `t` writes back is block `t` of that array. -/
theorem flushed5_eq (c : Dev nD) (t : Fin cfg0.N) :
    (dats m 0 c).flushed 5 t = ((cfg0.win 5).blk t).view.read (Elt Ideal) (predOut (Xa m c)) := by
  show (cfg0.win 5).cut (grid0.coords t) ((dats m 0 c).after 5 t) = _
  rw [after0_5]
  funext y
  show out0_5 (iblk m c 0 t) (iblk m c 1 t) y = predOut (Xa m c) (((cfg0.win 5).blk t).view.emb y)
  obtain ⟨k, rfl⟩ := idx116 y
  rw [emb5 t k]
  refine (out5_apply (iblk m c 0 t) (iblk m c 1 t) k).trans ?_
  show _ = predS (Xa m c) (bt t) k
  unfold predS
  refine Finset.sum_congr rfl fun h _ => Finset.sum_congr rfl fun w _ => ?_
  rw [bpix_blk]

theorem mem_blk5 (t : Fin cfg0.N) (i : S16x1x6.Idx) :
    i ∈ ((cfg0.win 5).blk t).view.set ↔ ∀ a : Fin 3, win0_5.index t a * S1x1x6.size a ≤ (i a).val ∧ (i a).val < win0_5.index t a * S1x1x6.size a + S1x1x6.size a := by
  show i ∈ ((View.whole main_v0_3).slice (win0_5.rect t)).set ↔ _
  rw [View.set_slice_whole, Rect.mem_set_unit]
  exact Iff.rfl

/-- Every index of the array is in the block of its batch element's grid point. -/
theorem cover5 (i : S16x1x6.Idx) : ∃ t : Fin cfg0.N, (cfg0.win 5).flush t = true ∧ i ∈ ((cfg0.win 5).blk t).view.set := by
  have h0 : (i 0).val < 16 := (i 0).isLt
  have h1 : (i 1).val < 1 := (i 1).isLt
  have h2 : (i 2).val < 6 := (i 2).isLt
  have ht : ((⟨(i 0).val, h0⟩ : Fin cfg0.N) : Nat) = (i 0).val := rfl
  refine ⟨⟨(i 0).val, h0⟩, flush0_5 _, ?_⟩
  rw [mem_blk5]
  obtain ⟨-, -, -, -, -, -, -, -, -, -, -, -, -, -, -, -, e0, e1, e2⟩ := idx_facts ⟨(i 0).val, h0⟩
  intro a
  match a with
  | ⟨0, _⟩ => show win0_5.index _ (0 : Fin 3) * 1 ≤ (i 0).val ∧ (i 0).val < win0_5.index _ (0 : Fin 3) * 1 + 1; rw [e0, ht]; omega
  | ⟨1, _⟩ => show win0_5.index _ (1 : Fin 3) * 1 ≤ (i 1).val ∧ (i 1).val < win0_5.index _ (1 : Fin 3) * 1 + 1; rw [e1]; omega
  | ⟨2, _⟩ => show win0_5.index _ (2 : Fin 3) * 6 ≤ (i 2).val ∧ (i 2).val < win0_5.index _ (2 : Fin 3) * 6 + 6; rw [e2]; omega

/-- The array after the run. -/
theorem final5 (c : Dev nD) : (dats m 0 c).arrAt 5 cfg0.N = predOut (Xa m c) :=
  (dats m 0 c).arrAt_eq_of_cover 5 (predOut (Xa m c)) (fun t _ => flushed5_eq m c t) cover5

/-! ## The operations after the region -/

section Tail
open Idealize.ShloMosaic.StableHlo

variable {F : FTy → Type} [FloatOps F]

/-- The operations after the region, with the callees' operations spelt by the untyped builders. -/
abbrev tailOps : List (HloOp τ sig (Elt F)) :=
  [ StableHlo.reshape main_v0_0 main_v1 rfl shapeCasts_S16x1x1_S16,
    StableHlo.reshape main_v0_1 main_v2 rfl shapeCasts_S16x1x6_S16x6,
    StableHlo.reshape main_v0_2 main_v3 rfl shapeCasts_S16x1x6_S16x6,
    StableHlo.reshape main_v0_3 main_v4 rfl shapeCasts_S16x1x6_S16x6,
    StableHlo.nullary main_cst (constant S_ .f32 0x00000000#32),
    StableHlo.binary main_v1 main_cst main_v5 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    StableHlo.nullary main_cst_0 (constant S_ .f32 0x4A800000#32),
    StableHlo.binary main_v5 main_cst_0 main_v6 (Host.divf : (⟨S_, .f32⟩ : BufTy).Contents (Elt F) → (⟨S_, .f32⟩ : BufTy).Contents (Elt F) → (⟨S_, .f32⟩ : BufTy).Contents (Elt F)),
    StableHlo.binary main_v3 main_v4 main_v7 (addf : (⟨S16x6, .f32⟩ : BufTy).Contents (Elt F) → (⟨S16x6, .f32⟩ : BufTy).Contents (Elt F) → (⟨S16x6, .f32⟩ : BufTy).Contents (Elt F)),
    StableHlo.binary main_v3 main_v3 main_v8 (mulf : (⟨S16x6, .f32⟩ : BufTy).Contents (Elt F) → (⟨S16x6, .f32⟩ : BufTy).Contents (Elt F) → (⟨S16x6, .f32⟩ : BufTy).Contents (Elt F)),
    StableHlo.nullary main_cst_1 (constant S_ .f32 0x3F800000#32),
    StableHlo.unary main_cst_1 main_v9 (broadcastInDim S16x6 ![] bcast_S_S16x6 : (⟨S_, .f32⟩ : BufTy).Contents (Elt F) → (⟨S16x6, .f32⟩ : BufTy).Contents (Elt F)),
    StableHlo.binary main_v9 main_v8 main_v10 (Host.divf : (⟨S16x6, .f32⟩ : BufTy).Contents (Elt F) → (⟨S16x6, .f32⟩ : BufTy).Contents (Elt F) → (⟨S16x6, .f32⟩ : BufTy).Contents (Elt F)),
    StableHlo.unary main_v10 main_call0_v0 (Host.absf : (⟨S16x6, .f32⟩ : BufTy).Contents (Elt F) → (⟨S16x6, .f32⟩ : BufTy).Contents (Elt F)),
    StableHlo.nullary main_call0_cst (constant S_ .f32 0x7F800000#32),
    StableHlo.unary main_call0_cst main_call0_v1 ((broadcastInDim S16x6 ![] bcast_S_S16x6) : (⟨S_, .f32⟩ : BufTy).Contents (Elt F) → (⟨S16x6, .f32⟩ : BufTy).Contents (Elt F)),
    StableHlo.binary main_call0_v0 main_call0_v1 main_v11 ((cmpf .oeq) : (⟨S16x6, .f32⟩ : BufTy).Contents (Elt F) → (⟨S16x6, .f32⟩ : BufTy).Contents (Elt F) → (⟨S16x6, .i1⟩ : BufTy).Contents (Elt F)),
    StableHlo.nullary main_cst_2 (constant S_ .f32 0x00000000#32),
    StableHlo.unary main_cst_2 main_v12 (broadcastInDim S16x6 ![] bcast_S_S16x6 : (⟨S_, .f32⟩ : BufTy).Contents (Elt F) → (⟨S16x6, .f32⟩ : BufTy).Contents (Elt F)),
    StableHlo.ternary main_v11 main_v12 main_v10 main_v13 (select : (⟨S16x6, .i1⟩ : BufTy).Contents (Elt F) → (⟨S16x6, .f32⟩ : BufTy).Contents (Elt F) → (⟨S16x6, .f32⟩ : BufTy).Contents (Elt F) → (⟨S16x6, .f32⟩ : BufTy).Contents (Elt F)),
    StableHlo.nullary main_cst_3 (constant S_ .f32 0xFF800000#32),
    StableHlo.binary main_v13 main_cst_3 main_v14 ((fun x v => Host.reduce FloatOps.maximumf x v reducesTo_S16x6_S16_d1 h_S_) : (⟨S16x6, .f32⟩ : BufTy).Contents (Elt F) → (⟨S_, .f32⟩ : BufTy).Contents (Elt F) → (⟨S16, .f32⟩ : BufTy).Contents (Elt F)),
    StableHlo.unary main_v14 main_v15 (broadcastInDim S16x1 ![0] bcast_S16_S16x1_0 : (⟨S16, .f32⟩ : BufTy).Contents (Elt F) → (⟨S16x1, .f32⟩ : BufTy).Contents (Elt F)),
    StableHlo.unary main_v15 main_call2_v0 ((broadcastInDim S16x6 ![0, 1] bcast_S16x1_S16x6_0_1) : (⟨S16x1, .f32⟩ : BufTy).Contents (Elt F) → (⟨S16x6, .f32⟩ : BufTy).Contents (Elt F)),
    StableHlo.ternary main_v11 main_call2_v0 main_v13 main_v16 (select : (⟨S16x6, .i1⟩ : BufTy).Contents (Elt F) → (⟨S16x6, .f32⟩ : BufTy).Contents (Elt F) → (⟨S16x6, .f32⟩ : BufTy).Contents (Elt F) → (⟨S16x6, .f32⟩ : BufTy).Contents (Elt F)),
    StableHlo.binary main_v2 main_v16 main_v17 (mulf : (⟨S16x6, .f32⟩ : BufTy).Contents (Elt F) → (⟨S16x6, .f32⟩ : BufTy).Contents (Elt F) → (⟨S16x6, .f32⟩ : BufTy).Contents (Elt F)),
    StableHlo.nullary main_cst_4 (constant S_ .f32 0x00000000#32),
    StableHlo.binary main_v17 main_cst_4 main_v18 ((fun x v => Host.reduceAdd x v reducesTo_S16x6_S6_d0 h_S_) : (⟨S16x6, .f32⟩ : BufTy).Contents (Elt F) → (⟨S_, .f32⟩ : BufTy).Contents (Elt F) → (⟨S6, .f32⟩ : BufTy).Contents (Elt F)),
    StableHlo.nullary main_cst_5 (constant S_ .f32 0x40000000#32),
    StableHlo.unary main_cst_5 main_v19 (broadcastInDim S6 ![] bcast_S_S6 : (⟨S_, .f32⟩ : BufTy).Contents (Elt F) → (⟨S6, .f32⟩ : BufTy).Contents (Elt F)),
    StableHlo.binary main_v19 main_v18 main_v20 (mulf : (⟨S6, .f32⟩ : BufTy).Contents (Elt F) → (⟨S6, .f32⟩ : BufTy).Contents (Elt F) → (⟨S6, .f32⟩ : BufTy).Contents (Elt F)),
    StableHlo.nullary main_cst_6 (constant S_ .f32 0x3727C5AC#32),
    StableHlo.unary main_cst_6 main_v21 (broadcastInDim S6 ![] bcast_S_S6 : (⟨S_, .f32⟩ : BufTy).Contents (Elt F) → (⟨S6, .f32⟩ : BufTy).Contents (Elt F)),
    StableHlo.binary main_v20 main_v21 main_v22 (addf : (⟨S6, .f32⟩ : BufTy).Contents (Elt F) → (⟨S6, .f32⟩ : BufTy).Contents (Elt F) → (⟨S6, .f32⟩ : BufTy).Contents (Elt F)),
    StableHlo.binary main_v7 main_v16 main_v23 (mulf : (⟨S16x6, .f32⟩ : BufTy).Contents (Elt F) → (⟨S16x6, .f32⟩ : BufTy).Contents (Elt F) → (⟨S16x6, .f32⟩ : BufTy).Contents (Elt F)),
    StableHlo.nullary main_cst_7 (constant S_ .f32 0x00000000#32),
    StableHlo.binary main_v23 main_cst_7 main_v24 ((fun x v => Host.reduceAdd x v reducesTo_S16x6_S6_d0 h_S_) : (⟨S16x6, .f32⟩ : BufTy).Contents (Elt F) → (⟨S_, .f32⟩ : BufTy).Contents (Elt F) → (⟨S6, .f32⟩ : BufTy).Contents (Elt F)),
    StableHlo.nullary main_cst_8 (constant S_ .f32 0x3727C5AC#32),
    StableHlo.unary main_cst_8 main_v25 (broadcastInDim S6 ![] bcast_S_S6 : (⟨S_, .f32⟩ : BufTy).Contents (Elt F) → (⟨S6, .f32⟩ : BufTy).Contents (Elt F)),
    StableHlo.binary main_v24 main_v25 main_v26 (addf : (⟨S6, .f32⟩ : BufTy).Contents (Elt F) → (⟨S6, .f32⟩ : BufTy).Contents (Elt F) → (⟨S6, .f32⟩ : BufTy).Contents (Elt F)),
    StableHlo.binary main_v22 main_v26 main_v27 (Host.divf : (⟨S6, .f32⟩ : BufTy).Contents (Elt F) → (⟨S6, .f32⟩ : BufTy).Contents (Elt F) → (⟨S6, .f32⟩ : BufTy).Contents (Elt F)),
    StableHlo.nullary main_cst_9 (constant S_ .f32 0x3F800000#32),
    StableHlo.unary main_cst_9 main_v28 (broadcastInDim S6 ![] bcast_S_S6 : (⟨S_, .f32⟩ : BufTy).Contents (Elt F) → (⟨S6, .f32⟩ : BufTy).Contents (Elt F)),
    StableHlo.binary main_v28 main_v27 main_v29 (subf : (⟨S6, .f32⟩ : BufTy).Contents (Elt F) → (⟨S6, .f32⟩ : BufTy).Contents (Elt F) → (⟨S6, .f32⟩ : BufTy).Contents (Elt F)),
    StableHlo.nullary main_cst_10 (constant S_ .f32 0x00000000#32),
    StableHlo.binary main_v29 main_cst_10 main_v30 ((fun x v => Host.reduceAdd x v reducesTo_S6_S_d0 h_S_) : (⟨S6, .f32⟩ : BufTy).Contents (Elt F) → (⟨S_, .f32⟩ : BufTy).Contents (Elt F) → (⟨S_, .f32⟩ : BufTy).Contents (Elt F)),
    StableHlo.nullary main_cst_11 (constant S_ .f32 0x40C00000#32),
    StableHlo.binary main_v30 main_cst_11 main_v31 (Host.divf : (⟨S_, .f32⟩ : BufTy).Contents (Elt F) → (⟨S_, .f32⟩ : BufTy).Contents (Elt F) → (⟨S_, .f32⟩ : BufTy).Contents (Elt F)),
    StableHlo.binary main_v31 main_v6 main_v32 (addf : (⟨S_, .f32⟩ : BufTy).Contents (Elt F) → (⟨S_, .f32⟩ : BufTy).Contents (Elt F) → (⟨S_, .f32⟩ : BufTy).Contents (Elt F)) ]

/-- Operation by operation, the program's stretches after the region are that list. -/
theorem tail_untyped : (List.flatten [hostOps1, hostOps1_1, hostOps1_2, hostOps1_3, hostOps1_4, hostOps1_5, hostOps1_6] : List (HloOp τ sig (Elt F))) = tailOps := by
  simp only [hostOps1, hostOps1_1, hostOps1_2, hostOps1_3, hostOps1_4, hostOps1_5, hostOps1_6, List.flatten_cons, List.flatten_nil, List.append_nil, List.cons_append, List.nil_append]
  iterate 49 (refine congrArg₂ List.cons rfl ?_)
  rfl

/-- The result after those operations, from any contents of the four output arrays: the shared tail of the loss, of the
    arrays viewed [16, 6] and of the pixel loss taken from the per-batch cross-entropy sums. -/
theorem tail_fold (W : Valuation τ sig (Elt Ideal)) :
    (StableHlo.after (tailOps (F := Ideal)) W (Proc.devRef .tc main_v32) : FVec Ideal S_ .f32)
      = diceTail (F := Ideal) bcast_S_S16x6 h_S_ reducesTo_S16x6_S16_d1 bcast_S16_S16x1_0 bcast_S16x1_S16x6_0_1 reducesTo_S16x6_S6_d0 bcast_S_S6 reducesTo_S6_S_d0
          (shapeCast S16x6 (W (Proc.devRef .tc main_v0_1) : FVec Ideal S16x1x6 .f32) shapeCasts_S16x1x6_S16x6)
          (shapeCast S16x6 (W (Proc.devRef .tc main_v0_2) : FVec Ideal S16x1x6 .f32) shapeCasts_S16x1x6_S16x6)
          (shapeCast S16x6 (W (Proc.devRef .tc main_v0_3) : FVec Ideal S16x1x6 .f32) shapeCasts_S16x1x6_S16x6)
          (Host.divf (Host.reduceAdd (shapeCast S16 (W (Proc.devRef .tc main_v0_0) : FVec Ideal S16x1x1 .f32) shapeCasts_S16x1x1_S16) (constant S_ .f32 0x00000000#32) reducesTo_S16_S_d0 h_S_) (constant S_ .f32 0x4A800000#32)) := by
  after_results_simp
  rfl

end Tail

/-! ## The arrays as the tail reads them -/

/-- A [16, 1, 6] array viewed [16, 6] reads (b, c) at (b, 0, c). -/
theorem view_16x6 (f : Fin 16 → Fin 6 → EReal) (hsc : S16x1x6.ShapeCasts S16x6) :
    shapeCast S16x6 (fun i : S16x1x6.Idx => f (i 0) (i 2)) hsc = fun i : S16x6.Idx => f (i 0) (i 1) := by
  funext i
  obtain ⟨b, k, rfl⟩ : ∃ (b : Fin 16) (k : Fin 6), i = ix2 b k := ⟨i 0, i 1, eq_ix2 i⟩
  refine (shapeCast_apply _ hsc (ix2 b k) (ix3 b (0 : Fin 1) k) ?_).trans rfl
  rw [Shape.rowMajor_val_three, Shape.rowMajor_val_two]
  show (b.val * 1 + 0) * 6 + k.val = b.val * 6 + k.val
  omega

/-- The sum over a rank-1 index set is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-- The pixel loss from the per-batch cross-entropy sums viewed [16]: their sum over the batch, divided by the number
    of pixels. -/
theorem ploss_eq (X : FVec Ideal S16x6x512x512 .f32) (L : IVec S16x512x512 32) :
    Host.divf (Host.reduceAdd (shapeCast S16 (pixOut X L) shapeCasts_S16x1x1_S16) (constant (F := Ideal) S_ .f32 0x00000000#32) reducesTo_S16_S_d0 h_S_)
        (constant (F := Ideal) S_ .f32 0x4A800000#32)
      = plossArr X L := by
  funext i
  show Ideal.div _ (Ideal.ofBits .f32 0x4A800000#32) = Ideal.div (∑ b : Fin 16, ceS X L b) (Ideal.ofBits .f32 0x4A800000#32)
  congr 1
  generalize hy : shapeCast S16 (pixOut X L) shapeCasts_S16x1x1_S16 = y
  simp only [Host.reduceAdd, Ideal.hostReduceAdd_def]
  refine (Ideal.hostReduceAdd_total reducesTo_S16_S_d0 (fun b => b.elim0) y _ i).trans ?_
  rw [show (constant (F := Ideal) S_ .f32 0x00000000#32) (Shape.Idx.first h_S_) = Ideal.ofBits .f32 0x00000000#32 from rfl,
    Ideal.ofBits_zero_f32, zero_add, sum_idx1]
  refine Finset.sum_congr rfl fun b _ => ?_
  rw [← hy]
  refine (shapeCast_apply _ shapeCasts_S16x1x1_S16 (ix1 b) (ix3 b (0 : Fin 1) (0 : Fin 1)) ?_).trans rfl
  rw [Shape.rowMajor_val_three, Shape.rowMajor_val_one]
  show (b.val * 1 + 0) * 1 + 0 = b.val
  omega

/-! ## The run, read -/

/-- The loss as the kernel's program computes it from the logits and the labels. -/
def lossOf (X : FVec Ideal S16x6x512x512 .f32) (L : IVec S16x512x512 32) : FVec Ideal S_ .f32 :=
  diceTail (F := Ideal) bcast_S_S16x6 h_S_ reducesTo_S16x6_S16_d1 bcast_S16_S16x1_0 bcast_S16x1_S16x6_0_1 reducesTo_S16x6_S6_d0 bcast_S_S6 reducesTo_S6_S_d0
    (interArr X L) (groundArr L) (predArr X) (plossArr X L)

/-- The result buffer after the operations that follow the region. -/
theorem result_eq (c : Dev nD) :
    (Pipeline.afterTail₀ cfgs (dats m) 0 (V0 m) [hostOps1, hostOps1_1, hostOps1_2, hostOps1_3, hostOps1_4, hostOps1_5, hostOps1_6] c main_v32 : FVec Ideal S_ .f32)
      = lossOf (Xa m c) (La m c) := by
  unfold Pipeline.afterTail₀
  rw [tail_untyped]
  refine (tail_fold _).trans ?_
  have e0 := (Pipeline.withArrays_arr spec0 launch0.win.arr_inj c (V0 m c) (fun w => (dats m 0 c).arrAt w cfg0.N) 2).trans (final2 m c)
  have e1 := (Pipeline.withArrays_arr spec0 launch0.win.arr_inj c (V0 m c) (fun w => (dats m 0 c).arrAt w cfg0.N) 3).trans (final3 m c)
  have e2 := (Pipeline.withArrays_arr spec0 launch0.win.arr_inj c (V0 m c) (fun w => (dats m 0 c).arrAt w cfg0.N) 4).trans (final4 m c)
  have e3 := (Pipeline.withArrays_arr spec0 launch0.win.arr_inj c (V0 m c) (fun w => (dats m 0 c).arrAt w cfg0.N) 5).trans (final5 m c)
  generalize Pipeline.withArrays spec0 c (V0 m c) (fun w => (dats m 0 c).arrAt w cfg0.N) = W at e0 e1 e2 e3 ⊢
  unfold lossOf
  have h1 : shapeCast S16x6 (W (Proc.devRef .tc main_v0_1) : FVec Ideal S16x1x6 .f32) shapeCasts_S16x1x6_S16x6 = interArr (Xa m c) (La m c) := by
    rw [show (W (Proc.devRef .tc main_v0_1) : FVec Ideal S16x1x6 .f32) = interOut (Xa m c) (La m c) from e1]
    exact view_16x6 (interS (Xa m c) (La m c)) _
  have h2 : shapeCast S16x6 (W (Proc.devRef .tc main_v0_2) : FVec Ideal S16x1x6 .f32) shapeCasts_S16x1x6_S16x6 = groundArr (La m c) := by
    rw [show (W (Proc.devRef .tc main_v0_2) : FVec Ideal S16x1x6 .f32) = groundOut (La m c) from e2]
    exact view_16x6 (groundS (La m c)) _
  have h3 : shapeCast S16x6 (W (Proc.devRef .tc main_v0_3) : FVec Ideal S16x1x6 .f32) shapeCasts_S16x1x6_S16x6 = predArr (Xa m c) := by
    rw [show (W (Proc.devRef .tc main_v0_3) : FVec Ideal S16x1x6 .f32) = predOut (Xa m c) from e3]
    exact view_16x6 (predS (Xa m c)) _
  have h0 : Host.divf (Host.reduceAdd (shapeCast S16 (W (Proc.devRef .tc main_v0_0) : FVec Ideal S16x1x1 .f32) shapeCasts_S16x1x1_S16) (constant (F := Ideal) S_ .f32 0x00000000#32) reducesTo_S16_S_d0 h_S_) (constant (F := Ideal) S_ .f32 0x4A800000#32)
      = plossArr (Xa m c) (La m c) := by
    rw [show (W (Proc.devRef .tc main_v0_0) : FVec Ideal S16x1x1 .f32) = pixOut (Xa m c) (La m c) from e0]
    exact ploss_eq _ _
  rw [h1, h2, h3, h0]

/-- The kernel's run with its result named: the loss of the logits and labels, which are left unchanged. -/
theorem run : θ_run defs (onTc (τ := τ) (main (F := Ideal))) ⟨m, fun _ => 0, ρ⟩ fun r => ∀ c : Dev nD,
      r.2.mem ((c.tc : Thread nD τ).loc main_v32) = lossOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v32 (by decide)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.PreDecode.lean ====
/-
  What the precondition says, element by element: every logit is a real number (its absolute value is below +∞), and
  every label is the ignored label -1 or one of the six classes (it is at least -1 and below 6 as a signed word).
-/
import proofs.«407860_j47931835023728_1_alg».proof.Pre_finite_inputs
import proofs.«407860_j47931835023728_1_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal
import Idealize.ShloMosaic.PureOps.Ideal.Laws

noncomputable section

namespace Cert.Pre_finite_inputs.Decode

open Cert.Pre_finite_inputs Idealize.ShloMosaic Idealize.ShloMosaic.ValueIdx

instance : Subsingleton S_.Idx := ⟨fun a b => funext fun d => d.elim0⟩

/-- A word at least -1 and below 6, as signed words, is -1 or one of 0 … 5. -/
theorem label_range (l : BitVec 32) (h1 : IntOp.cmpi .sge l 4294967295#32 = 1#1) (h2 : IntOp.cmpi .slt l 6#32 = 1#1) :
    l = 4294967295#32 ∨ ∃ k : Fin 6, l = BitVec.ofNat 32 k.val := by
  have h1' : -1 ≤ l.toInt := by
    by_contra hc
    have hb : BitVec.ofBool (decide (-1 ≤ l.toInt)) = 1#1 := by simpa [IntOp.cmpi, BitVec.sle] using h1
    rw [decide_eq_false hc] at hb
    exact absurd hb (by decide)
  have h2' : l.toInt < 6 := by
    by_contra hc
    have hb : BitVec.ofBool (decide (l.toInt < 6)) = 1#1 := by simpa [IntOp.cmpi, BitVec.slt] using h2
    rw [decide_eq_false hc] at hb
    exact absurd hb (by decide)
  have hn : l.toNat < 2 ^ 32 := l.isLt
  rw [BitVec.toInt_eq_toNat_cond] at h1' h2'
  by_cases hc : 2 * l.toNat < 2 ^ 32
  · rw [if_pos hc] at h1' h2'
    refine Or.inr ⟨⟨l.toNat, by omega⟩, BitVec.eq_of_toNat_eq ?_⟩
    simp only [BitVec.toNat_ofNat]
    omega
  · rw [if_neg hc] at h1' h2'
    refine Or.inl (BitVec.eq_of_toNat_eq ?_)
    simp only [BitVec.toNat_ofNat]
    omega

/-- An extended real whose absolute value is below +∞ is a real. -/
theorem real_of_abs_lt_top (x : EReal) (h : max x (-x) < ⊤) : ∃ r : ℝ, x = (r : EReal) := by
  induction x using EReal.rec with
  | bot => simp at h
  | top => simp at h
  | coe r => exact ⟨r, rfl⟩

/-- The precondition, decoded. -/
theorem decode (X : FVec Ideal S16x6x512x512 .f32) (L : IVec S16x512x512 32)
    (h : fn (F := Ideal) X L = fun _ => 1#1) :
    (∀ i, ∃ r : ℝ, X i = (r : EReal)) ∧ (∀ i, L i = 4294967295#32 ∨ ∃ k : Fin 6, L i = BitVec.ofNat 32 k.val) := by
  have h0 := congrFun h ix0
  dsimp only [fn] at h0
  obtain ⟨h37, h10⟩ := IntOp.andi_eq_one.mp h0
  obtain ⟨h3, h6⟩ := IntOp.andi_eq_one.mp h37
  refine ⟨fun i => ?_, fun i => ?_⟩
  · have e := Host.reduce_andi_all _ _ _ _ _ h3 i
    have e' : Ideal.cmp .olt (max (X i) (-(X i))) (Ideal.ofBits .f32 0x7F800000#32) = 1#1 := e
    have htop : Ideal.ofBits .f32 0x7F800000#32 = ⊤ := by simp [Ideal.ofBits, Ideal.ieee]
    rw [htop] at e'
    refine real_of_abs_lt_top (X i) ?_
    by_contra hc
    have hb : BitVec.ofBool (decide (max (X i) (-(X i)) < ⊤)) = 1#1 := e'
    rw [decide_eq_false hc] at hb
    exact absurd hb (by decide)
  · have e6 := Host.reduce_andi_all _ _ _ _ _ h6 i
    have e10 := Host.reduce_andi_all _ _ _ _ _ h10 i
    exact label_range (L i) e6 e10

end Cert.Pre_finite_inputs.Decode

end
-- ==== Proof.lean ====
/-
  The kernel computes a segmentation loss from logits [16, 6, 512, 512] and labels [16, 512, 512]: the mean over all
  pixels of the cross entropy (zero at the ignored label -1) plus a generalised-dice term of the per-batch, per-class
  sums of one-hot weight times probability, of the weight, and of the probability. Per batch element it reduces one
  [6, 512, 512] slab in a single grid point and leaves the [16, 6] algebra to operations after the region; the
  reference computes the same quantities on the whole arrays.

  At the extended reals the two programs differ in three ways only. The kernel's probability is the quotient
  exp (x - M) / S, the reference's is exp of the log-probability x - M - log S; these agree when the logits are real,
  since then M is one of them and S is a positive real. The kernel's cross entropy is the one-hot weighted sum of the
  negated log-probabilities, the reference's gathers the log-probability at the label clipped into 0 .. 5 and zeroes it
  at the label -1; these agree when every label is -1 or a class, which the precondition says. The kernel sums per batch
  element and then over the batch, the reference over all pixels at once; sums regroup freely. The operations on the
  [16, 6] sums are the same in both programs and are never opened.

  So both runs end at one function of the arguments, `lossOf`: the kernel's by its frame run, the block-by-block
  reading of its four output arrays and the operations after the region; the reference's by the fold of its operation
  list read in four stretches, and its intermediate arrays read index by index.
-/
import proofs.«407860_j47931835023728_1_alg».proof.Defs
import proofs.«407860_j47931835023728_1_alg».proof.Proof.Gen.Kernel
import proofs.«407860_j47931835023728_1_alg».proof.Proof.Gen.Kernel.Frame
import proofs.«407860_j47931835023728_1_alg».proof.Proof.Gen.KernelIdeal
import proofs.«407860_j47931835023728_1_alg».proof.Proof.Gen.KernelIdeal.Frame
import proofs.«407860_j47931835023728_1_alg».proof.Proof.Gen.ReferenceIdeal
import proofs.«407860_j47931835023728_1_alg».proof.Proof.Gen.Pre_finite_inputs
import proofs.«407860_j47931835023728_1_alg».proof.Proof.RefRun
import proofs.«407860_j47931835023728_1_alg».proof.Proof.RefRead
import proofs.«407860_j47931835023728_1_alg».proof.Proof.RefFold
import proofs.«407860_j47931835023728_1_alg».proof.Proof.RefValue
import proofs.«407860_j47931835023728_1_alg».proof.Proof.KernelValue
import proofs.«407860_j47931835023728_1_alg».proof.Proof.PreDecode
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.RunValue.run (F := Ideal) m ρ)

/-- Under the precondition the reference's result, the fold of its operations over contents whose arguments are the
    logits `X` and the labels `L`, is the loss of `X` and `L` as the kernel's program computes it. -/
theorem reference_result
    (V' : Valuation Cert.ReferenceIdeal.τ Cert.ReferenceIdeal.sig (Elt Ideal))
    (X : FVec Ideal Cert.ReferenceIdeal.S16x6x512x512 .f32) (L : IVec Cert.ReferenceIdeal.S16x512x512 32)
    (hpre : Cert.Pre_finite_inputs.fn (F := Ideal) X L = fun _ => 1#1)
    (h0 : V' (Proc.devRef .tc Cert.ReferenceIdeal.main_arg0) = X)
    (h1 : V' (Proc.devRef .tc Cert.ReferenceIdeal.main_arg1) = L) :
    (StableHlo.after (Cert.ReferenceIdeal.RunValue.ops (F := Ideal)) V' (Proc.devRef .tc Cert.ReferenceIdeal.main_v49)
        : FVec Ideal Cert.ReferenceIdeal.S_ .f32)
      = Cert.KernelIdeal.KValue.lossOf X L := by
  obtain ⟨hX, hL⟩ := Cert.Pre_finite_inputs.Decode.decode X L hpre
  refine (Cert.ReferenceIdeal.Fold.fold_result (F := Ideal) V').trans ?_
  rw [h0, h1, Cert.ReferenceIdeal.RefValue.ref_inter X L hX, Cert.ReferenceIdeal.RefValue.ref_ground L,
    Cert.ReferenceIdeal.RefValue.ref_pred X hX, Cert.ReferenceIdeal.RefValue.ref_ploss X L hL]
  rfl

/-- At the extended reals, from memories agreeing on the arguments, both programs end with the same loss. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KValue.lossOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.RunValue.run (F := Ideal) m' ρ')
  exact reference_result (StableHlo.launchContents m' c)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (hpre c) (hagree c).1 (hagree c).2

/-- The claim: the three frames, the idealization (which rewrote nothing), and the equality of the results. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
